-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x900x91 : Shape := ⟨3, ![16, 900, 91]⟩
abbrev S16x900x4 : Shape := ⟨3, ![16, 900, 4]⟩
abbrev S1600 : Shape := ⟨1, ![1600]⟩
abbrev S1600x4 : Shape := ⟨2, ![1600, 4]⟩
abbrev S_ : Shape := ⟨0, ![]⟩

class Facts : Prop where
  bcast_S_S16x900x91 : S_.BroadcastsInDim S16x900x91 (![] : Fin 0 → Fin S16x900x91.rank)
  reducesTo_S16x900x91_S_d0_1_2 : S16x900x91.ReducesTo [0, 1, 2] S_
  h_S_ : 0 < S_.numel
  bcast_S_S16x900x4 : S_.BroadcastsInDim S16x900x4 (![] : Fin 0 → Fin S16x900x4.rank)
  reducesTo_S16x900x4_S_d0_1_2 : S16x900x4.ReducesTo [0, 1, 2] S_
  bcast_S_S1600x4 : S_.BroadcastsInDim S1600x4 (![] : Fin 0 → Fin S1600x4.rank)
  reducesTo_S1600x4_S_d0_1 : S1600x4.ReducesTo [0, 1] S_
  bcast_S_S1600 : S_.BroadcastsInDim S1600 (![] : Fin 0 → Fin S1600.rank)
  reducesTo_S1600_S_d0 : S1600.ReducesTo [0] S_

variable [Facts]

def fn_part1 {F : FTy → Type} [FloatOps F] (main_arg2 : IVec S1600 32) (main_v13 : IVec S_ 1) (main_v15 : IVec S1600 1) (main_c_5 : IVec S_ 1) : IVec S_ 1 :=
  let main_v16 : IVec S_ 1 := (fun x v => Host.reduce IntOp.andi x v reducesTo_S1600_S_d0 h_S_) main_v15 main_c_5
  let main_v17 : IVec S_ 1 := andi main_v13 main_v16
  let main_c_6 : IVec S_ 32 := constantI S_ 32 91#32
  let main_v18 : IVec S1600 32 := broadcastInDim S1600 ![] bcast_S_S1600 main_c_6
  let main_v19 : IVec S1600 1 := cmpi .slt main_arg2 main_v18
  let main_c_7 : IVec S_ 1 := constantI S_ 1 1#1
  let main_v20 : IVec S_ 1 := (fun x v => Host.reduce IntOp.andi x v reducesTo_S1600_S_d0 h_S_) main_v19 main_c_7
  let main_v21 : IVec S_ 1 := andi main_v17 main_v20
  main_v21

def fn {F : FTy → Type} [FloatOps F] (main_arg0 : FVec F S16x900x91 .f32) (main_arg1 : FVec F S16x900x4 .f32) (main_arg2 : IVec S1600 32) (main_arg3 : FVec F S1600x4 .f32) : IVec S_ 1 :=
  let main_v0 : FVec F S16x900x91 .f32 := Host.absf main_arg0
  let main_cst : FVec F S_ .f32 := constant S_ .f32 0x7F800000#32
  let main_v1 : FVec F S16x900x91 .f32 := broadcastInDim S16x900x91 ![] bcast_S_S16x900x91 main_cst
  let main_v2 : IVec S16x900x91 1 := cmpf .olt main_v0 main_v1
  let main_c : IVec S_ 1 := constantI S_ 1 1#1
  let main_v3 : IVec S_ 1 := (fun x v => Host.reduce IntOp.andi x v reducesTo_S16x900x91_S_d0_1_2 h_S_) main_v2 main_c
  let main_v4 : FVec F S16x900x4 .f32 := Host.absf main_arg1
  let main_cst_0 : FVec F S_ .f32 := constant S_ .f32 0x7F800000#32
  let main_v5 : FVec F S16x900x4 .f32 := broadcastInDim S16x900x4 ![] bcast_S_S16x900x4 main_cst_0
  let main_v6 : IVec S16x900x4 1 := cmpf .olt main_v4 main_v5
  let main_c_1 : IVec S_ 1 := constantI S_ 1 1#1
  let main_v7 : IVec S_ 1 := (fun x v => Host.reduce IntOp.andi x v reducesTo_S16x900x4_S_d0_1_2 h_S_) main_v6 main_c_1
  let main_v8 : IVec S_ 1 := andi main_v3 main_v7
  let main_v9 : FVec F S1600x4 .f32 := Host.absf main_arg3
  let main_cst_2 : FVec F S_ .f32 := constant S_ .f32 0x7F800000#32
  let main_v10 : FVec F S1600x4 .f32 := broadcastInDim S1600x4 ![] bcast_S_S1600x4 main_cst_2
  let main_v11 : IVec S1600x4 1 := cmpf .olt main_v9 main_v10
  let main_c_3 : IVec S_ 1 := constantI S_ 1 1#1
  let main_v12 : IVec S_ 1 := (fun x v => Host.reduce IntOp.andi x v reducesTo_S1600x4_S_d0_1 h_S_) main_v11 main_c_3
  let main_v13 : IVec S_ 1 := andi main_v8 main_v12
  let main_c_4 : IVec S_ 32 := constantI S_ 32 0#32
  let main_v14 : IVec S1600 32 := broadcastInDim S1600 ![] bcast_S_S1600 main_c_4
  let main_v15 : IVec S1600 1 := cmpi .sge main_arg2 main_v14
  let main_c_5 : IVec S_ 1 := constantI S_ 1 1#1
  fn_part1 (F := F) main_arg2 main_v13 main_v15 main_c_5
-- ==== Kernel.lean ====
abbrev S16x900x91 : Shape := ⟨3, ![16, 900, 91]⟩
abbrev S16x900x4 : Shape := ⟨3, ![16, 900, 4]⟩
abbrev S1600 : Shape := ⟨1, ![1600]⟩
abbrev S1600x4 : Shape := ⟨2, ![1600, 4]⟩
abbrev S_ : Shape := ⟨0, ![]⟩
abbrev S1664 : Shape := ⟨1, ![1664]⟩
abbrev S1664x4 : Shape := ⟨2, ![1664, 4]⟩
abbrev S91 : Shape := ⟨1, ![91]⟩
abbrev S91x1 : Shape := ⟨2, ![91, 1]⟩
abbrev S1x1664 : Shape := ⟨2, ![1, 1664]⟩
abbrev S91x1664 : Shape := ⟨2, ![91, 1664]⟩
abbrev S4x1664 : Shape := ⟨2, ![4, 1664]⟩
abbrev S16x900x1600 : Shape := ⟨3, ![16, 900, 1600]⟩
abbrev S2x900x91 : Shape := ⟨3, ![2, 900, 91]⟩
abbrev S2x900x4 : Shape := ⟨3, ![2, 900, 4]⟩
abbrev S91x128 : Shape := ⟨2, ![91, 128]⟩
abbrev S4x128 : Shape := ⟨2, ![4, 128]⟩
abbrev S2x900x128 : Shape := ⟨3, ![2, 900, 128]⟩
abbrev S1x128 : Shape := ⟨2, ![1, 128]⟩
abbrev S1x900x91 : Shape := ⟨3, ![1, 900, 91]⟩
abbrev S900x91 : Shape := ⟨2, ![900, 91]⟩
abbrev S1x900x4 : Shape := ⟨3, ![1, 900, 4]⟩
abbrev S900x4 : Shape := ⟨2, ![900, 4]⟩
abbrev S900 : Shape := ⟨1, ![900]⟩
abbrev S900x1 : Shape := ⟨2, ![900, 1]⟩
abbrev S900x128 : Shape := ⟨2, ![900, 128]⟩
abbrev S1x900x128 : Shape := ⟨3, ![1, 900, 128]⟩

abbrev nBuf : Space → Nat
  | .hbm => 19
  | .vmem => 10
  | .smem => 0
  | _ => 0

abbrev bufTy : (tb : Table) → Fin (tcTables nBuf tb) → BufTy
  | .hbm, ⟨0, _⟩ => ⟨S16x900x91, .f32⟩
  | .hbm, ⟨1, _⟩ => ⟨S16x900x4, .f32⟩
  | .hbm, ⟨2, _⟩ => ⟨S1600, .i32⟩
  | .hbm, ⟨3, _⟩ => ⟨S1600x4, .f32⟩
  | .hbm, ⟨4, _⟩ => ⟨S_, .i32⟩
  | .hbm, ⟨5, _⟩ => ⟨S_, .i32⟩
  | .hbm, ⟨6, _⟩ => ⟨S1664, .i32⟩
  | .hbm, ⟨7, _⟩ => ⟨S_, .f32⟩
  | .hbm, ⟨8, _⟩ => ⟨S_, .f32⟩
  | .hbm, ⟨9, _⟩ => ⟨S1664x4, .f32⟩
  | .hbm, ⟨10, _⟩ => ⟨S91, .i32⟩
  | .hbm, ⟨11, _⟩ => ⟨S91x1, .i32⟩
  | .hbm, ⟨12, _⟩ => ⟨S1x1664, .i32⟩
  | .hbm, ⟨13, _⟩ => ⟨S91x1664, .i32⟩
  | .hbm, ⟨14, _⟩ => ⟨S91x1664, .i32⟩
  | .hbm, ⟨15, _⟩ => ⟨S91x1664, .i1⟩
  | .hbm, ⟨16, _⟩ => ⟨S91x1664, .bf16⟩
  | .hbm, ⟨17, _⟩ => ⟨S4x1664, .f32⟩
  | .hbm, ⟨18, _⟩ => ⟨S16x900x1600, .f32⟩
  | .local _ .vmem, ⟨0, _⟩ => ⟨S2x900x91, .f32⟩
  | .local _ .vmem, ⟨1, _⟩ => ⟨S2x900x91, .f32⟩
  | .local _ .vmem, ⟨2, _⟩ => ⟨S2x900x4, .f32⟩
  | .local _ .vmem, ⟨3, _⟩ => ⟨S2x900x4, .f32⟩
  | .local _ .vmem, ⟨4, _⟩ => ⟨S91x128, .bf16⟩
  | .local _ .vmem, ⟨5, _⟩ => ⟨S91x128, .bf16⟩
  | .local _ .vmem, ⟨6, _⟩ => ⟨S4x128, .f32⟩
  | .local _ .vmem, ⟨7, _⟩ => ⟨S4x128, .f32⟩
  | .local _ .vmem, ⟨8, _⟩ => ⟨S2x900x128, .f32⟩
  | .local _ .vmem, ⟨9, _⟩ => ⟨S2x900x128, .f32⟩
  | _, _ => ⟨S16x900x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 13], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2x900x91 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x900x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S91x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x900x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  pads_S1600_S1664_0640 : S1600.Pads (![0] : Fin 1 → Nat) ![64] ![0] S1664
  h_S_ : 0 < S_.numel
  pads_S1600x4_S1664x4_0640_000 : S1600x4.Pads (![0, 0] : Fin 2 → Nat) ![64, 0] ![0, 0] S1664x4
  bcast_S91_S91x1_0 : S91.BroadcastsInDim S91x1 (![0] : Fin 1 → Fin S91x1.rank)
  bcast_S1664_S1x1664_1 : S1664.BroadcastsInDim S1x1664 (![1] : Fin 1 → Fin S1x1664.rank)
  bcast_S1x1664_S91x1664_0_1 : S1x1664.BroadcastsInDim S91x1664 (![0, 1] : Fin 2 → Fin S91x1664.rank)
  bcast_S91x1_S91x1664_0_1 : S91x1.BroadcastsInDim S91x1664 (![0, 1] : Fin 2 → Fin S91x1664.rank)
  transposes_S1664x4_S4x1664_1_0 : S1664x4.Transposes [1, 0] S4x1664
  inb_S91x128_S91x128_0_0 : ∀ a, (![0, 0] : Fin 2 → Nat) a + S91x128.size a ≤ S91x128.size a
  h_S91x128 : 0 < S91x128.numel
  shapeCasts_S91x128_S91x128 : S91x128.ShapeCasts S91x128
  inb_S4x128_S4x128_0_0 : ∀ a, (![0, 0] : Fin 2 → Nat) a + S4x128.size a ≤ S4x128.size a
  h_S4x128 : 0 < S4x128.numel
  shapeCasts_S4x128_S4x128 : S4x128.ShapeCasts S4x128
  slices_S4x128_o0_0_S1x128 : S4x128.Slices ![0, 0] S1x128
  slices_S4x128_o1_0_S1x128 : S4x128.Slices ![1, 0] S1x128
  slices_S4x128_o2_0_S1x128 : S4x128.Slices ![2, 0] S1x128
  slices_S4x128_o3_0_S1x128 : S4x128.Slices ![3, 0] S1x128
  inb_S2x900x91_S1x900x91_0_0_0 : ∀ a, (![0, 0, 0] : Fin 3 → Nat) a + S1x900x91.size a ≤ S2x900x91.size a
  h_S1x900x91 : 0 < S1x900x91.numel
  shapeCasts_S1x900x91_S900x91 : S1x900x91.ShapeCasts S900x91
  inb_S2x900x4_S1x900x4_0_0_0 : ∀ a, (![0, 0, 0] : Fin 3 → Nat) a + S1x900x4.size a ≤ S2x900x4.size a
  h_S1x900x4 : 0 < S1x900x4.numel
  shapeCasts_S1x900x4_S900x4 : S1x900x4.ShapeCasts S900x4
  reduces_S900x91_S900 : S900x91.Reduces [1] S900
  shapeCasts_S900_S900x1 : S900.ShapeCasts S900x1
  broadcasts_S900x1_S900x91 : S900x1.Broadcasts S900x91
  bitsLt_bf16_f32 : FTy.bits .bf16 < FTy.bits .f32
  slices_S900x4_o0_0_S900x1 : S900x4.Slices ![0, 0] S900x1
  slices_S900x4_o0_1_S900x1 : S900x4.Slices ![0, 1] S900x1
  slices_S900x4_o0_2_S900x1 : S900x4.Slices ![0, 2] S900x1
  slices_S900x4_o0_3_S900x1 : S900x4.Slices ![0, 3] S900x1
  broadcasts_S900x1_S900x128 : S900x1.Broadcasts S900x128
  broadcasts_S1x128_S900x128 : S1x128.Broadcasts S900x128
  inb_S2x900x128_S1x900x128_0_0_0 : ∀ a, (![0, 0, 0] : Fin 3 → Nat) a + S1x900x128.size a ≤ S2x900x128.size a
  h_S1x900x128 : 0 < S1x900x128.numel
  shapeCasts_S1x900x128_S900x128 : S1x900x128.ShapeCasts S900x128
  shapeCasts_S900x128_S1x900x128 : S900x128.ShapeCasts S1x900x128
  inb_S2x900x91_S1x900x91_1_0_0 : ∀ a, (![1, 0, 0] : Fin 3 → Nat) a + S1x900x91.size a ≤ S2x900x91.size a
  inb_S2x900x4_S1x900x4_1_0_0 : ∀ a, (![1, 0, 0] : Fin 3 → Nat) a + S1x900x4.size a ≤ S2x900x4.size a
  inb_S2x900x128_S1x900x128_1_0_0 : ∀ a, (![1, 0, 0] : Fin 3 → Nat) a + S1x900x128.size a ≤ S2x900x128.size a
  dot_S900x91_S91x128_S900x128_1_0_0_1_n_n_wf : DotDims.WF S900x91 S91x128 S900x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x900x91.size a ≤ S16x900x91.size a
  hwx0_0 : ∀ i : grid0.Coords, EltTy.bits .f32 = 32 ∨ (Rect.block (s := S16x900x91) S2x900x91.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x900x4.size a ≤ S16x900x4.size a
  hwx0_1 : ∀ i : grid0.Coords, EltTy.bits .f32 = 32 ∨ (Rect.block (s := S16x900x4) S2x900x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S91x128.size a ≤ S91x1664.size a
  hwx0_2 : ∀ i : grid0.Coords, EltTy.bits .bf16 = 32 ∨ (Rect.block (s := S91x1664) S91x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x128.size a ≤ S4x1664.size a
  hwx0_3 : ∀ i : grid0.Coords, EltTy.bits .f32 = 32 ∨ (Rect.block (s := S4x1664) S4x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S2x900x128.size a < S16x900x1600.size a
  hwx0_4 : ∀ i : grid0.Coords, EltTy.bits .f32 = 32 ∨ (Rect.unit (s := S16x900x1600) (fun a => cc0_transform_4 i a * S2x900x128.size a) (fun a => (Pipeline.Clip.of (cc0_transform_4 i a) (S2x900x128.size a) (S16x900x1600.size a)).extent (S2x900x128.size a)) fun a => Pipeline.Clip.inb (Pipeline.Clip.ok_of (hstart0_4 i a))).WholeWords (EltTy.packing .f32)
  hwxs0_4 : ∀ i : grid0.Coords, EltTy.bits .f32 = 32 ∨ (Rect.unit (s := S2x900x128) (fun _ => 0) (fun a => (Pipeline.Clip.of (cc0_transform_4 i a) (S2x900x128.size a) (S16x900x1600.size a)).extent (S2x900x128.size a)) fun a => (Nat.zero_add _).trans_le (Pipeline.Clip.extent_le (Pipeline.Clip.ok_of (hstart0_4 i a)))).WholeWords (EltTy.packing .f32)

variable [Facts₀]

def dot_S900x91_S91x128_S900x128_1_0_0_1_n_n : DotDims S900x91 S91x128 S900x128 where
  lhsContracting := [1]
  rhsContracting := [0]
  lhsNonContracting := [0]
  rhsNonContracting := [1]
  lhsBatch := []
  rhsBatch := []
  wf := dot_S900x91_S91x128_S900x128_1_0_0_1_n_n_wf

abbrev win0_0 : Pipeline.Window sig grid0 :=
  Pipeline.Window.ofSpec (Memref.whole main_arg0) S2x900x91.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x900x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S91x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S4x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpecClip (Memref.whole main_v10) S2x900x128.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x900x91 : Shape := ⟨3, ![16, 900, 91]⟩
abbrev S16x900x4 : Shape := ⟨3, ![16, 900, 4]⟩
abbrev S1600 : Shape := ⟨1, ![1600]⟩
abbrev S1600x4 : Shape := ⟨2, ![1600, 4]⟩
abbrev S14400x91 : Shape := ⟨2, ![14400, 91]⟩
abbrev S_ : Shape := ⟨0, ![]⟩
abbrev S14400 : Shape := ⟨1, ![14400]⟩
abbrev S14400x1 : Shape := ⟨2, ![14400, 1]⟩
abbrev S14400x4 : Shape := ⟨2, ![14400, 4]⟩
abbrev S1600x1 : Shape := ⟨2, ![1600, 1]⟩
abbrev S14400x1600 : Shape := ⟨2, ![14400, 1600]⟩
abbrev S14400x1x4 : Shape := ⟨3, ![14400, 1, 4]⟩
abbrev S1x1600x4 : Shape := ⟨3, ![1, 1600, 4]⟩
abbrev S14400x1600x4 : Shape := ⟨3, ![14400, 1600, 4]⟩
abbrev S14400x2 : Shape := ⟨2, ![14400, 2]⟩
abbrev S14400x1x2 : Shape := ⟨3, ![14400, 1, 2]⟩
abbrev S1600x2 : Shape := ⟨2, ![1600, 2]⟩
abbrev S1x1600x2 : Shape := ⟨3, ![1, 1600, 2]⟩
abbrev S14400x1600x2 : Shape := ⟨3, ![14400, 1600, 2]⟩
abbrev S14400x1600x1 : Shape := ⟨3, ![14400, 1600, 1]⟩
abbrev S1x1600 : Shape := ⟨2, ![1, 1600]⟩
abbrev S16x900x1600 : Shape := ⟨3, ![16, 900, 1600]⟩

abbrev nBuf : Space → Nat
  | .hbm => 173
  | .vmem => 0
  | .smem => 0
  | _ => 0

abbrev hbmTy0_0 (i : Nat) : BufTy := match i % 128 with
  | 0 => ⟨S16x900x91, .f32⟩
  | 1 => ⟨S16x900x4, .f32⟩
  | 2 => ⟨S1600, .i32⟩
  | 3 => ⟨S1600x4, .f32⟩
  | 4 => ⟨S14400x91, .f32⟩
  | 5 => ⟨S_, .f32⟩
  | 6 => ⟨S14400, .f32⟩
  | 7 => ⟨S_, .f32⟩
  | 8 => ⟨S14400, .f32⟩
  | 9 => ⟨S14400, .f32⟩
  | 10 => ⟨S14400x1, .f32⟩
  | 11 => ⟨S14400x91, .f32⟩
  | 12 => ⟨S14400x91, .f32⟩
  | 13 => ⟨S14400x91, .f32⟩
  | 14 => ⟨S_, .f32⟩
  | 15 => ⟨S14400, .f32⟩
  | 16 => ⟨S14400x1, .f32⟩
  | 17 => ⟨S14400x91, .f32⟩
  | 18 => ⟨S14400x91, .f32⟩
  | 19 => ⟨S14400x4, .f32⟩
  | 20 => ⟨S_, .i32⟩
  | 21 => ⟨S1600, .i32⟩
  | 22 => ⟨S1600, .i1⟩
  | 23 => ⟨S_, .i32⟩
  | 24 => ⟨S1600, .i32⟩
  | 25 => ⟨S1600, .i32⟩
  | 26 => ⟨S1600, .i32⟩
  | 27 => ⟨S1600x1, .i32⟩
  | 28 => ⟨S14400x1600, .f32⟩
  | 29 => ⟨S14400x1600, .f32⟩
  | 30 => ⟨S14400x1x4, .f32⟩
  | 31 => ⟨S1x1600x4, .f32⟩
  | 32 => ⟨S14400x1600x4, .f32⟩
  | 33 => ⟨S14400x1600x4, .f32⟩
  | 34 => ⟨S14400x1600x4, .f32⟩
  | 35 => ⟨S14400x1600x4, .f32⟩
  | 36 => ⟨S_, .f32⟩
  | 37 => ⟨S14400x1600, .f32⟩
  | 38 => ⟨S14400x1, .f32⟩
  | 39 => ⟨S14400x1, .f32⟩
  | 40 => ⟨S14400x1, .f32⟩
  | 41 => ⟨S14400x1, .f32⟩
  | 42 => ⟨S_, .f32⟩
  | 43 => ⟨S14400x1, .f32⟩
  | 44 => ⟨S14400x1, .f32⟩
  | 45 => ⟨S14400x1, .f32⟩
  | 46 => ⟨S_, .f32⟩
  | 47 => ⟨S14400x1, .f32⟩
  | 48 => ⟨S14400x1, .f32⟩
  | 49 => ⟨S14400x1, .f32⟩
  | 50 => ⟨S_, .f32⟩
  | 51 => ⟨S14400x1, .f32⟩
  | 52 => ⟨S14400x1, .f32⟩
  | 53 => ⟨S14400x1, .f32⟩
  | 54 => ⟨S_, .f32⟩
  | 55 => ⟨S14400x1, .f32⟩
  | 56 => ⟨S14400x1, .f32⟩
  | 57 => ⟨S14400x1, .f32⟩
  | 58 => ⟨S14400x4, .f32⟩
  | 59 => ⟨S1600x1, .f32⟩
  | 60 => ⟨S1600x1, .f32⟩
  | 61 => ⟨S1600x1, .f32⟩
  | 62 => ⟨S1600x1, .f32⟩
  | 63 => ⟨S_, .f32⟩
  | 64 => ⟨S1600x1, .f32⟩
  | 65 => ⟨S1600x1, .f32⟩
  | 66 => ⟨S1600x1, .f32⟩
  | 67 => ⟨S_, .f32⟩
  | 68 => ⟨S1600x1, .f32⟩
  | 69 => ⟨S1600x1, .f32⟩
  | 70 => ⟨S1600x1, .f32⟩
  | 71 => ⟨S_, .f32⟩
  | 72 => ⟨S1600x1, .f32⟩
  | 73 => ⟨S1600x1, .f32⟩
  | 74 => ⟨S1600x1, .f32⟩
  | 75 => ⟨S_, .f32⟩
  | 76 => ⟨S1600x1, .f32⟩
  | 77 => ⟨S1600x1, .f32⟩
  | 78 => ⟨S1600x1, .f32⟩
  | 79 => ⟨S1600x4, .f32⟩
  | 80 => ⟨S14400x1, .f32⟩
  | 81 => ⟨S14400, .f32⟩
  | 82 => ⟨S14400x1, .f32⟩
  | 83 => ⟨S14400, .f32⟩
  | 84 => ⟨S14400, .f32⟩
  | 85 => ⟨S14400x1, .f32⟩
  | 86 => ⟨S14400, .f32⟩
  | 87 => ⟨S14400x1, .f32⟩
  | 88 => ⟨S14400, .f32⟩
  | 89 => ⟨S14400, .f32⟩
  | 90 => ⟨S14400, .f32⟩
  | 91 => ⟨S1600x1, .f32⟩
  | 92 => ⟨S1600, .f32⟩
  | 93 => ⟨S1600x1, .f32⟩
  | 94 => ⟨S1600, .f32⟩
  | 95 => ⟨S1600, .f32⟩
  | 96 => ⟨S1600x1, .f32⟩
  | 97 => ⟨S1600, .f32⟩
  | 98 => ⟨S1600x1, .f32⟩
  | 99 => ⟨S1600, .f32⟩
  | 100 => ⟨S1600, .f32⟩
  | 101 => ⟨S1600, .f32⟩
  | 102 => ⟨S14400x2, .f32⟩
  | 103 => ⟨S14400x1x2, .f32⟩
  | 104 => ⟨S1600x2, .f32⟩
  | 105 => ⟨S1x1600x2, .f32⟩
  | 106 => ⟨S14400x1600x2, .f32⟩
  | 107 => ⟨S14400x1600x2, .f32⟩
  | 108 => ⟨S14400x1600x2, .f32⟩
  | 109 => ⟨S14400x2, .f32⟩
  | 110 => ⟨S14400x1x2, .f32⟩
  | 111 => ⟨S1600x2, .f32⟩
  | 112 => ⟨S1x1600x2, .f32⟩
  | 113 => ⟨S14400x1600x2, .f32⟩
  | 114 => ⟨S14400x1600x2, .f32⟩
  | 115 => ⟨S14400x1600x2, .f32⟩
  | 116 => ⟨S14400x1600x2, .f32⟩
  | 117 => ⟨S_, .f32⟩
  | 118 => ⟨S_, .f32⟩
  | 119 => ⟨S14400x1600x2, .f32⟩
  | 120 => ⟨S14400x1600x2, .f32⟩
  | 121 => ⟨S14400x1600x1, .f32⟩
  | 122 => ⟨S14400x1600, .f32⟩
  | 123 => ⟨S14400x1600x1, .f32⟩
  | 124 => ⟨S14400x1600, .f32⟩
  | 125 => ⟨S14400x1600, .f32⟩
  | 126 => ⟨S14400x1, .f32⟩
  | 127 => ⟨S1x1600, .f32⟩
  | _ => ⟨S16x900x91, .f32⟩

abbrev hbmTy0_1 (i : Nat) : BufTy := match i % 128 with
  | 0 => ⟨S14400x1600, .f32⟩
  | 1 => ⟨S14400x1600, .f32⟩
  | 2 => ⟨S14400x1600, .f32⟩
  | 3 => ⟨S14400x1600, .f32⟩
  | 4 => ⟨S14400x1600, .f32⟩
  | 5 => ⟨S14400x2, .f32⟩
  | 6 => ⟨S14400x1x2, .f32⟩
  | 7 => ⟨S1600x2, .f32⟩
  | 8 => ⟨S1x1600x2, .f32⟩
  | 9 => ⟨S14400x1600x2, .f32⟩
  | 10 => ⟨S14400x1600x2, .f32⟩
  | 11 => ⟨S14400x1600x2, .f32⟩
  | 12 => ⟨S14400x2, .f32⟩
  | 13 => ⟨S14400x1x2, .f32⟩
  | 14 => ⟨S1600x2, .f32⟩
  | 15 => ⟨S1x1600x2, .f32⟩
  | 16 => ⟨S14400x1600x2, .f32⟩
  | 17 => ⟨S14400x1600x2, .f32⟩
  | 18 => ⟨S14400x1600x2, .f32⟩
  | 19 => ⟨S14400x1600x2, .f32⟩
  | 20 => ⟨S_, .f32⟩
  | 21 => ⟨S_, .f32⟩
  | 22 => ⟨S14400x1600x2, .f32⟩
  | 23 => ⟨S14400x1600x2, .f32⟩
  | 24 => ⟨S14400x1600x1, .f32⟩
  | 25 => ⟨S14400x1600, .f32⟩
  | 26 => ⟨S14400x1600x1, .f32⟩
  | 27 => ⟨S14400x1600, .f32⟩
  | 28 => ⟨S14400x1600, .f32⟩
  | 29 => ⟨S14400x1600, .f32⟩
  | 30 => ⟨S14400x1600, .f32⟩
  | 31 => ⟨S14400x1600, .f32⟩
  | 32 => ⟨S14400x1600, .f32⟩
  | 33 => ⟨S_, .f32⟩
  | 34 => ⟨S14400x1600, .f32⟩
  | 35 => ⟨S14400x1600, .f32⟩
  | 36 => ⟨S_, .f32⟩
  | 37 => ⟨S14400x1600, .f32⟩
  | 38 => ⟨S14400x1600, .f32⟩
  | 39 => ⟨S14400x1600, .f32⟩
  | 40 => ⟨S_, .f32⟩
  | 41 => ⟨S14400x1600, .f32⟩
  | 42 => ⟨S14400x1600, .f32⟩
  | 43 => ⟨S14400x1600, .f32⟩
  | 44 => ⟨S16x900x1600, .f32⟩
  | _ => ⟨S16x900x91, .f32⟩

abbrev hbmTy (i : Nat) : BufTy := match i / 128 with
  | 0 => hbmTy0_0 i
  | 1 => hbmTy0_1 i
  | _ => ⟨S16x900x91, .f32⟩

abbrev bufTy : (tb : Table) → Fin (tcTables nBuf tb) → BufTy
  | .hbm, ⟨i, _⟩ => hbmTy i
  | _, _ => ⟨S16x900x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_11 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_cst_12 : Ref sig .tc := ⟨.hbm, 117, rfl⟩
abbrev main_call0_v0 : Ref sig .tc := ⟨.hbm, 118, rfl⟩
abbrev main_call0_v1 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_cst_13 : Ref sig .tc := ⟨.hbm, 148, rfl⟩
abbrev main_call1_v0 : Ref sig .tc := ⟨.hbm, 149, rfl⟩
abbrev main_call1_v1 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_cst_14 : Ref sig .tc := ⟨.hbm, 161, rfl⟩
abbrev main_v137 : Ref sig .tc := ⟨.hbm, 162, rfl⟩
abbrev main_v138 : Ref sig .tc := ⟨.hbm, 163, rfl⟩
abbrev main_cst_15 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_cst_16 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩

abbrev nD : Nat := 1
abbrev τ : Topo := Topo.v7x

variable {F : FTy → Type} [FloatOps F]

class Facts₀ : Prop where
  shapeCasts_S16x900x91_S14400x91 : S16x900x91.ShapeCasts S14400x91
  reducesTo_S14400x91_S14400_d1 : S14400x91.ReducesTo [1] S14400
  h_S_ : 0 < S_.numel
  bcast_S_S14400 : S_.BroadcastsInDim S14400 (![] : Fin 0 → Fin S14400.rank)
  bcast_S14400_S14400x1_0 : S14400.BroadcastsInDim S14400x1 (![0] : Fin 1 → Fin S14400x1.rank)
  bcast_S14400x1_S14400x91_0_1 : S14400x1.BroadcastsInDim S14400x91 (![0, 1] : Fin 2 → Fin S14400x91.rank)
  shapeCasts_S16x900x4_S14400x4 : S16x900x4.ShapeCasts S14400x4
  bcast_S_S1600 : S_.BroadcastsInDim S1600 (![] : Fin 0 → Fin S1600.rank)
  bcast_S1600_S1600x1_0 : S1600.BroadcastsInDim S1600x1 (![0] : Fin 1 → Fin S1600x1.rank)
  bcast_S14400x4_S14400x1x4_0_2 : S14400x4.BroadcastsInDim S14400x1x4 (![0, 2] : Fin 2 → Fin S14400x1x4.rank)
  bcast_S1600x4_S1x1600x4_1_2 : S1600x4.BroadcastsInDim S1x1600x4 (![1, 2] : Fin 2 → Fin S1x1600x4.rank)
  bcast_S14400x1x4_S14400x1600x4_0_1_2 : S14400x1x4.BroadcastsInDim S14400x1600x4 (![0, 1, 2] : Fin 3 → Fin S14400x1600x4.rank)
  bcast_S1x1600x4_S14400x1600x4_0_1_2 : S1x1600x4.BroadcastsInDim S14400x1600x4 (![0, 1, 2] : Fin 3 → Fin S14400x1600x4.rank)
  reducesTo_S14400x1600x4_S14400x1600_d2 : S14400x1600x4.ReducesTo [2] S14400x1600
  slices_S14400x4_S14400x1_0_0 : S14400x4.Slices ![0, 0] S14400x1
  slices_S14400x4_S14400x1_0_1 : S14400x4.Slices ![0, 1] S14400x1
  slices_S14400x4_S14400x1_0_2 : S14400x4.Slices ![0, 2] S14400x1
  slices_S14400x4_S14400x1_0_3 : S14400x4.Slices ![0, 3] S14400x1
  bcast_S_S14400x1 : S_.BroadcastsInDim S14400x1 (![] : Fin 0 → Fin S14400x1.rank)
  concatenates_S14400x1_S14400x1_S14400x1_S14400x1_S14400x4_d1 : Shape.Concatenates [S14400x1, S14400x1, S14400x1, S14400x1] S14400x4 1
  slices_S1600x4_S1600x1_0_0 : S1600x4.Slices ![0, 0] S1600x1
  slices_S1600x4_S1600x1_0_1 : S1600x4.Slices ![0, 1] S1600x1
  slices_S1600x4_S1600x1_0_2 : S1600x4.Slices ![0, 2] S1600x1
  slices_S1600x4_S1600x1_0_3 : S1600x4.Slices ![0, 3] S1600x1
  bcast_S_S1600x1 : S_.BroadcastsInDim S1600x1 (![] : Fin 0 → Fin S1600x1.rank)
  concatenates_S1600x1_S1600x1_S1600x1_S1600x1_S1600x4_d1 : Shape.Concatenates [S1600x1, S1600x1, S1600x1, S1600x1] S1600x4 1
  shapeCasts_S14400x1_S14400 : S14400x1.ShapeCasts S14400
  shapeCasts_S1600x1_S1600 : S1600x1.ShapeCasts S1600
  slices_S14400x4_S14400x2_0_0 : S14400x4.Slices ![0, 0] S14400x2
  bcast_S14400x2_S14400x1x2_0_2 : S14400x2.BroadcastsInDim S14400x1x2 (![0, 2] : Fin 2 → Fin S14400x1x2.rank)
  slices_S1600x4_S1600x2_0_0 : S1600x4.Slices ![0, 0] S1600x2
  bcast_S1600x2_S1x1600x2_1_2 : S1600x2.BroadcastsInDim S1x1600x2 (![1, 2] : Fin 2 → Fin S1x1600x2.rank)
  bcast_S14400x1x2_S14400x1600x2_0_1_2 : S14400x1x2.BroadcastsInDim S14400x1600x2 (![0, 1, 2] : Fin 3 → Fin S14400x1600x2.rank)
  bcast_S1x1600x2_S14400x1600x2_0_1_2 : S1x1600x2.BroadcastsInDim S14400x1600x2 (![0, 1, 2] : Fin 3 → Fin S14400x1600x2.rank)
  slices_S14400x4_S14400x2_0_2 : S14400x4.Slices ![0, 2] S14400x2
  slices_S1600x4_S1600x2_0_2 : S1600x4.Slices ![0, 2] S1600x2
  bcast_S_S14400x1600x2 : S_.BroadcastsInDim S14400x1600x2 (![] : Fin 0 → Fin S14400x1600x2.rank)
  slices_S14400x1600x2_S14400x1600x1_0_0_0 : S14400x1600x2.Slices ![0, 0, 0] S14400x1600x1
  shapeCasts_S14400x1600x1_S14400x1600 : S14400x1600x1.ShapeCasts S14400x1600
  slices_S14400x1600x2_S14400x1600x1_0_0_1 : S14400x1600x2.Slices ![0, 0, 1] S14400x1600x1
  bcast_S1600_S1x1600_1 : S1600.BroadcastsInDim S1x1600 (![1] : Fin 1 → Fin S1x1600.rank)
  bcast_S14400x1_S14400x1600_0_1 : S14400x1.BroadcastsInDim S14400x1600 (![0, 1] : Fin 2 → Fin S14400x1600.rank)
  bcast_S1x1600_S14400x1600_0_1 : S1x1600.BroadcastsInDim S14400x1600 (![0, 1] : Fin 2 → Fin S14400x1600.rank)
  bcast_S_S14400x1600 : S_.BroadcastsInDim S14400x1600 (![] : Fin 0 → Fin S14400x1600.rank)
  shapeCasts_S14400x1600_S16x900x1600 : S14400x1600.ShapeCasts S16x900x1600
  gather_S14400x91_S1600x1_S14400x1600_0_1_n_n_1_1_144001_wf : GatherDims.WF S14400x91 S1600x1 S14400x1600 [0] [1] [] [1] [] 1 ![14400, 1]

variable [Facts₀]

def gather_S14400x91_S1600x1_S14400x1600_0_1_n_n_1_1_144001 : GatherDims S14400x91 S1600x1 S14400x1600 where
  offsetDims := [0]
  collapsedSliceDims := [1]
  operandBatchingDims := []
  startIndicesBatchingDims := []
  startIndexMap := [1]
  indexVectorDim := 1
  sliceSizes := ![14400, 1]
  wf := gather_S14400x91_S1600x1_S14400x1600_0_1_n_n_1_1_144001_wf

class Facts : Prop extends Facts₀ where

variable [Facts]
-- ==== Proof.Spec.lean ====
/-
  The matching cost of one (query box, target box, class probability) triple, as scalar functions on the
  extended reals, in the two arrangements the programs compute it:

    kernel     5·L1 − g + 2 − 2·(I / U) − 2·(U / E)
    reference  5·L1 + 1·(−p) + 2·(−(I / U − (E − U) / E))

  with L1 the ℓ¹ distance of the boxes in (cx, cy, w, h) form, I the area of the intersection of the two boxes in corner
  form, U = area₁ + area₂ − I their union and E the area of the smallest box enclosing both. Every input being a real
  number, the two agree — also where U = 0 or E = 0, where the quotients take the values the extended reals' division
  gives at a zero divisor (the infinity of the dividend's sign, and −∞ for 0 / 0): `comb_eq` goes through the cases.
  Also here: the softmax of a row of 91 reals is a row of reals (`smax_real`), and the class term the kernel
  forms by a product with a 0/1 column picks one entry of the row when the label is a class id (`pick_eq`).
-/
import Idealize.ShloMosaic.PureOps.Ideal
import Idealize.ShloMosaic.PureOps.Ideal.Laws
import Idealize.ShloMosaic.Lib.ValueIdx
import Idealize.ShloMosaic.Lib.StableHlo.Predicate

noncomputable section

namespace Cert.CostSpec

open Idealize.ShloMosaic

/-! ## The literals -/

abbrev cHalf : EReal := Ideal.ofBits .f32 0x3F000000#32
abbrev cFive : EReal := Ideal.ofBits .f32 0x40A00000#32
abbrev cTwo : EReal := Ideal.ofBits .f32 0x40000000#32
abbrev cOne : EReal := Ideal.ofBits .f32 0x3F800000#32
abbrev cZero : EReal := Ideal.ofBits .f32 0x00000000#32
abbrev cNegInf : EReal := Ideal.ofBits .f32 0xFF800000#32

theorem cHalf_eq : cHalf = ((1 / 2 : ℝ) : EReal) := by
  simp [Ideal.ofBits, Ideal.ieee, -EReal.coe_mul]; norm_num
theorem cFive_eq : cFive = ((5 : ℝ) : EReal) := by
  simp [Ideal.ofBits, Ideal.ieee, -EReal.coe_mul]; norm_num
theorem cTwo_eq : cTwo = ((2 : ℝ) : EReal) := by
  simp [Ideal.ofBits, Ideal.ieee, -EReal.coe_mul]; norm_num
theorem cOne_eq : cOne = ((1 : ℝ) : EReal) := by
  simp [Ideal.ofBits, Ideal.ieee, -EReal.coe_mul]; norm_num
theorem cZero_eq : cZero = ((0 : ℝ) : EReal) := by
  simp [Ideal.ofBits, Ideal.ieee]
theorem cNegInf_eq : cNegInf = ⊥ := by
  simp [Ideal.ofBits, Ideal.ieee]

/-! ## Reals among the extended reals -/

/-- `x` is a real number (neither infinity). -/
def IsReal (x : EReal) : Prop := ∃ r : ℝ, x = (r : EReal)

theorem IsReal.coe (r : ℝ) : IsReal (r : EReal) := ⟨r, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩
theorem IsReal.min {x y : EReal} (hx : IsReal x) (hy : IsReal y) : IsReal (min x y) := by
  obtain ⟨a, rfl⟩ := hx; obtain ⟨b, rfl⟩ := hy
  exact ⟨Min.min a b, (EReal.coe_strictMono.monotone.map_min).symm⟩

theorem isReal_half : IsReal cHalf := ⟨_, cHalf_eq⟩
theorem isReal_five : IsReal cFive := ⟨_, cFive_eq⟩
theorem isReal_zero : IsReal cZero := ⟨_, cZero_eq⟩

/-! ## The quotient at a real dividend and a real divisor -/

theorem div_zero_pos {x : ℝ} (h : 0 < x) : Ideal.div (x : EReal) ((0 : ℝ) : EReal) = ⊤ := by
  simp [Ideal.div, h]
theorem div_zero_nonpos {x : ℝ} (h : ¬0 < x) : Ideal.div (x : EReal) ((0 : ℝ) : EReal) = ⊥ := by
  simp [Ideal.div, h]
theorem div_real (x : ℝ) {y : ℝ} (h : y ≠ 0) : Ideal.div (x : EReal) (y : EReal) = ((x / y : ℝ) : EReal) := by
  rw [Ideal.div_coe h, ← EReal.coe_mul, mul_one_div]

/-! ## The two arrangements of the combine, and that they agree on the reals -/

/-- The kernel's: `A − g + 2 − 2·(I/U) − 2·(U/E)`. -/
def combK (A g I U E : EReal) : EReal := A - g + cTwo - cTwo * Ideal.div I U - cTwo * Ideal.div U E
/-- The reference's: `A + 1·(−p) + 2·(−(I/U − (E − U)/E))`. -/
def combR (A p I U E : EReal) : EReal := A + cOne * (-p) + cTwo * (-(Ideal.div I U - Ideal.div (E - U) E))

theorem two_mul_top : ((2 : ℝ) : EReal) * ⊤ = ⊤ := EReal.coe_mul_top_of_pos (by norm_num)
theorem two_mul_bot : ((2 : ℝ) : EReal) * ⊥ = ⊥ := EReal.coe_mul_bot_of_pos (by norm_num)

theorem comb_eq (A p I U E : ℝ) : combK (A : EReal) p I U E = combR (A : EReal) p I U E := by
  unfold combK combR
  rw [cTwo_eq, cOne_eq]
  have hX : ((A : EReal) - (p : EReal) + ((2 : ℝ) : EReal)) = ((A - p + 2 : ℝ) : EReal) := by
    rw [← EReal.coe_sub, ← EReal.coe_add]
  have hY : ((A : EReal) + ((1 : ℝ) : EReal) * (-(p : EReal))) = ((A - p : ℝ) : EReal) := by
    rw [← EReal.coe_neg, ← EReal.coe_mul, ← EReal.coe_add]; congr 1; ring
  have hEU : ((E : EReal) - (U : EReal)) = ((E - U : ℝ) : EReal) := (EReal.coe_sub E U).symm
  rw [hX, hY, hEU]
  by_cases hE : E = 0
  · subst hE
    by_cases hU : U = 0
    · subst hU
      rw [sub_zero, div_zero_nonpos (lt_irrefl (0 : ℝ))]
      by_cases hI : 0 < I
      · rw [div_zero_pos hI, two_mul_top, two_mul_bot]
        simp only [sub_eq_add_neg, EReal.neg_top, EReal.neg_bot, two_mul_top, two_mul_bot, ← EReal.coe_mul, ← EReal.coe_neg, ← EReal.coe_add, EReal.coe_add_top, EReal.top_add_coe, EReal.add_bot, EReal.bot_add, EReal.top_add_top]
      · rw [div_zero_nonpos hI, two_mul_bot]
        simp only [sub_eq_add_neg, EReal.neg_top, EReal.neg_bot, two_mul_top, two_mul_bot, ← EReal.coe_mul, ← EReal.coe_neg, ← EReal.coe_add, EReal.coe_add_top, EReal.top_add_coe, EReal.add_bot, EReal.bot_add, EReal.top_add_top]
    · rw [div_real I hU, zero_sub]
      rcases lt_or_gt_of_ne hU with hneg | hpos
      · rw [div_zero_nonpos (not_lt.2 hneg.le), div_zero_pos (neg_pos.2 hneg), two_mul_bot]
        simp only [sub_eq_add_neg, EReal.neg_top, EReal.neg_bot, two_mul_top, two_mul_bot, ← EReal.coe_mul, ← EReal.coe_neg, ← EReal.coe_add, EReal.coe_add_top, EReal.top_add_coe, EReal.add_bot, EReal.bot_add, EReal.top_add_top]
      · rw [div_zero_pos hpos, div_zero_nonpos (not_lt.2 (neg_nonpos.2 hpos.le)), two_mul_top]
        simp only [sub_eq_add_neg, EReal.neg_top, EReal.neg_bot, two_mul_top, two_mul_bot, ← EReal.coe_mul, ← EReal.coe_neg, ← EReal.coe_add, EReal.coe_add_top, EReal.top_add_coe, EReal.add_bot, EReal.bot_add, EReal.top_add_top]
  · rw [div_real U hE, div_real (E - U) hE]
    by_cases hU : U = 0
    · subst hU
      by_cases hI : 0 < I
      · rw [div_zero_pos hI, two_mul_top]
        simp only [sub_eq_add_neg, EReal.neg_top, EReal.neg_bot, two_mul_top, two_mul_bot, ← EReal.coe_mul, ← EReal.coe_neg, ← EReal.coe_add, EReal.coe_add_top, EReal.top_add_coe, EReal.add_bot, EReal.bot_add, EReal.top_add_top]
      · rw [div_zero_nonpos hI, two_mul_bot]
        simp only [sub_eq_add_neg, EReal.neg_top, EReal.neg_bot, two_mul_top, two_mul_bot, ← EReal.coe_mul, ← EReal.coe_neg, ← EReal.coe_add, EReal.coe_add_top, EReal.top_add_coe, EReal.add_bot, EReal.bot_add, EReal.top_add_top]
    · rw [div_real I hU]
      rw [← EReal.coe_mul, ← EReal.coe_sub, ← EReal.coe_mul, ← EReal.coe_sub, ← EReal.coe_sub, ← EReal.coe_neg,
        ← EReal.coe_mul, ← EReal.coe_add]
      congr 1
      field_simp
      ring

/-! ## The boxes: corners, areas, intersection, union and enclosing box of a query box `q` and a target box `t`,
each given as (cx, cy, w, h) -/

/-- The lower corner coordinate `c − w/2` and the upper one `c + w/2`. -/
def lo (c w : EReal) : EReal := c - cHalf * w
def hi (c w : EReal) : EReal := c + cHalf * w
/-- The absolute value as the programs take it: `max a (−a)`. -/
def absE (a : EReal) : EReal := max a (-a)

/-- The ℓ¹ distance of the two boxes' four numbers, summed from the left. -/
def l1 (q t : Fin 4 → EReal) : EReal := absE (q 0 - t 0) + absE (q 1 - t 1) + absE (q 2 - t 2) + absE (q 3 - t 3)
/-- A box's area from its corners. -/
def area (b : Fin 4 → EReal) : EReal := (hi (b 0) (b 2) - lo (b 0) (b 2)) * (hi (b 1) (b 3) - lo (b 1) (b 3))
/-- The area of the intersection: the overlap of the x-extents times that of the y-extents, each cut at zero. -/
def inter (q t : Fin 4 → EReal) : EReal :=
  max (min (hi (q 0) (q 2)) (hi (t 0) (t 2)) - max (lo (q 0) (q 2)) (lo (t 0) (t 2))) cZero
    * max (min (hi (q 1) (q 3)) (hi (t 1) (t 3)) - max (lo (q 1) (q 3)) (lo (t 1) (t 3))) cZero
def union (q t : Fin 4 → EReal) : EReal := area q + area t - inter q t
/-- The area of the smallest box enclosing both. -/
def hull (q t : Fin 4 → EReal) : EReal :=
  max (max (hi (q 0) (q 2)) (hi (t 0) (t 2)) - min (lo (q 0) (q 2)) (lo (t 0) (t 2))) cZero
    * max (max (hi (q 1) (q 3)) (hi (t 1) (t 3)) - min (lo (q 1) (q 3)) (lo (t 1) (t 3))) cZero

/-- The cost as the kernel arranges it, of the boxes and the class term `g`. -/
def kernelCost (q t : Fin 4 → EReal) (g : EReal) : EReal :=
  combK (cFive * l1 q t) g (inter q t) (union q t) (hull q t)

/-- The reference's spellings: the ℓ¹ distance as a sum over the four numbers from a zero, the cut at zero with its
    arguments the other way round. -/
def l1R (q t : Fin 4 → EReal) : EReal := cZero + ∑ k : Fin 4, absE (q k - t k)
def interR (q t : Fin 4 → EReal) : EReal :=
  max cZero (min (hi (q 0) (q 2)) (hi (t 0) (t 2)) - max (lo (q 0) (q 2)) (lo (t 0) (t 2)))
    * max cZero (min (hi (q 1) (q 3)) (hi (t 1) (t 3)) - max (lo (q 1) (q 3)) (lo (t 1) (t 3)))
def unionR (q t : Fin 4 → EReal) : EReal := area q + area t - interR q t
def hullR (q t : Fin 4 → EReal) : EReal :=
  max cZero (max (hi (q 0) (q 2)) (hi (t 0) (t 2)) - min (lo (q 0) (q 2)) (lo (t 0) (t 2)))
    * max cZero (max (hi (q 1) (q 3)) (hi (t 1) (t 3)) - min (lo (q 1) (q 3)) (lo (t 1) (t 3)))
/-- The cost as the reference arranges it, of the boxes and the class probability `p`. -/
def refCost (q t : Fin 4 → EReal) (p : EReal) : EReal :=
  combR (cFive * l1R q t) p (interR q t) (unionR q t) (hullR q t)

theorem l1R_eq (q t : Fin 4 → EReal) : l1R q t = l1 q t := by
  unfold l1R l1; rw [cZero_eq, EReal.coe_zero, zero_add, Fin.sum_univ_four]
theorem interR_eq (q t : Fin 4 → EReal) : interR q t = inter q t := by
  unfold interR inter; rw [max_comm cZero, max_comm cZero]
theorem unionR_eq (q t : Fin 4 → EReal) : unionR q t = union q t := by
  unfold unionR union; rw [interR_eq]
theorem hullR_eq (q t : Fin 4 → EReal) : hullR q t = hull q t := by
  unfold hullR hull; rw [max_comm cZero, max_comm cZero]

theorem isReal_lo {c w : EReal} (hc : IsReal c) (hw : IsReal w) : IsReal (lo c w) := hc.sub (isReal_half.mul hw)
theorem isReal_hi {c w : EReal} (hc : IsReal c) (hw : IsReal w) : IsReal (hi c w) := hc.add (isReal_half.mul hw)
theorem isReal_absE {a : EReal} (h : IsReal a) : IsReal (absE a) := h.max h.neg

section
variable {q t : Fin 4 → EReal} (hq : ∀ a, IsReal (q a)) (ht : ∀ a, IsReal (t a))
include hq ht

theorem isReal_l1 : IsReal (l1 q t) :=
  (((isReal_absE ((hq 0).sub (ht 0))).add (isReal_absE ((hq 1).sub (ht 1)))).add
    (isReal_absE ((hq 2).sub (ht 2)))).add (isReal_absE ((hq 3).sub (ht 3)))
theorem isReal_area_q : IsReal (area q) :=
  ((isReal_hi (hq 0) (hq 2)).sub (isReal_lo (hq 0) (hq 2))).mul ((isReal_hi (hq 1) (hq 3)).sub (isReal_lo (hq 1) (hq 3)))
theorem isReal_area_t : IsReal (area t) :=
  ((isReal_hi (ht 0) (ht 2)).sub (isReal_lo (ht 0) (ht 2))).mul ((isReal_hi (ht 1) (ht 3)).sub (isReal_lo (ht 1) (ht 3)))
theorem isReal_inter : IsReal (inter q t) :=
  ((((isReal_hi (hq 0) (hq 2)).min (isReal_hi (ht 0) (ht 2))).sub ((isReal_lo (hq 0) (hq 2)).max (isReal_lo (ht 0) (ht 2)))).max
      isReal_zero).mul
    ((((isReal_hi (hq 1) (hq 3)).min (isReal_hi (ht 1) (ht 3))).sub ((isReal_lo (hq 1) (hq 3)).max (isReal_lo (ht 1) (ht 3)))).max
      isReal_zero)
theorem isReal_union : IsReal (union q t) :=
  ((isReal_area_q hq ht).add (isReal_area_t hq ht)).sub (isReal_inter hq ht)
theorem isReal_hull : IsReal (hull q t) :=
  ((((isReal_hi (hq 0) (hq 2)).max (isReal_hi (ht 0) (ht 2))).sub ((isReal_lo (hq 0) (hq 2)).min (isReal_lo (ht 0) (ht 2)))).max
      isReal_zero).mul
    ((((isReal_hi (hq 1) (hq 3)).max (isReal_hi (ht 1) (ht 3))).sub ((isReal_lo (hq 1) (hq 3)).min (isReal_lo (ht 1) (ht 3)))).max
      isReal_zero)

/-- ON THE REALS THE TWO ARRANGEMENTS AGREE: for real boxes and a real class term. -/
theorem kernelCost_eq_refCost {p : EReal} (hp : IsReal p) : kernelCost q t p = refCost q t p := by
  unfold kernelCost refCost
  rw [l1R_eq, interR_eq, unionR_eq, hullR_eq]
  obtain ⟨A, hA⟩ := isReal_five.mul (isReal_l1 hq ht)
  obtain ⟨I, hI⟩ := isReal_inter hq ht
  obtain ⟨U, hU⟩ := isReal_union hq ht
  obtain ⟨E, hE⟩ := isReal_hull hq ht
  obtain ⟨p', rfl⟩ := hp
  rw [hA, hI, hU, hE]
  exact comb_eq A p' I U E

end

/-! ## Rows of the flattened arrays -/

/-- Row `900·b + q` of an array whose batch and query axes are laid out as one axis of 14400. -/
def rowOf (b : Fin 16) (q : Fin 900) : Fin 14400 :=
  ⟨b.val * 900 + q.val, by have := b.isLt; have := q.isLt; omega⟩

/-! ## The softmax of a row of 91 numbers -/

/-- The row's maximum, as a fold of `max` from −∞. -/
def rowMax (x : Fin 91 → EReal) : EReal := (Finset.univ : Finset (Fin 91)).fold max cNegInf x
/-- The softmax: the exponential of the entry less the row's maximum, over the sum of those exponentials. -/
def smax (x : Fin 91 → EReal) (k : Fin 91) : EReal :=
  Ideal.div (Ideal.exp (x k - rowMax x)) (∑ j : Fin 91, Ideal.exp (x j - rowMax x))

theorem rowMax_real {x : Fin 91 → EReal} (hx : ∀ k, IsReal (x k)) : IsReal (rowMax x) := by
  have h1 : ⊥ < rowMax x := (Finset.lt_fold_max _).2 (Or.inr ⟨0, Finset.mem_univ _, by
    obtain ⟨r, hr⟩ := hx 0; rw [hr]; exact EReal.bot_lt_coe r⟩)
  have h2 : rowMax x < ⊤ := (Finset.fold_max_lt _).2 ⟨by rw [cNegInf_eq]; exact bot_lt_top, fun k _ => by
    obtain ⟨r, hr⟩ := hx k; rw [hr]; exact EReal.coe_lt_top r⟩
  exact ⟨(rowMax x).toReal, (EReal.coe_toReal h2.ne h1.ne').symm⟩

/-- The maximum against −∞ once more (the reference takes it so) is the maximum. -/
theorem max_negInf_rowMax (x : Fin 91 → EReal) : max cNegInf (rowMax x) = rowMax x :=
  max_eq_right ((Finset.le_fold_max _).2 (Or.inl le_rfl))

theorem coe_sum {ι : Type} (s : Finset ι) (f : ι → ℝ) : ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

/-- The softmax of a row of reals is a row of reals: the sum of the exponentials is positive. -/
theorem smax_real {x : Fin 91 → EReal} (hx : ∀ k, IsReal (x k)) (k : Fin 91) : IsReal (smax x k) := by
  obtain ⟨c, hc⟩ := rowMax_real hx
  choose r hr using hx
  unfold smax
  have he : ∀ j, Ideal.exp (x j - rowMax x) = ((Real.exp (r j - c) : ℝ) : EReal) := fun j => by
    rw [hr j, hc, ← EReal.coe_sub]; rfl
  simp only [he]
  rw [coe_sum]
  have hpos : (0 : ℝ) < ∑ j : Fin 91, Real.exp (r j - c) :=
    Finset.sum_pos (fun j _ => Real.exp_pos _) Finset.univ_nonempty
  rw [div_real _ hpos.ne']
  exact ⟨_, rfl⟩

/-! ## The class term: a row against a 0/1 column -/

/-- The entry of the 0/1 column for label `l` at class `k`: the comparison's bit as a number. -/
def hot (l : BitVec 32) (k : Fin 91) : EReal := (((IntOp.cmpi .eq l (BitVec.ofNat 32 k.val)).toNat : ℝ) : EReal)

/-- For a label that is a class id the product of a row with its 0/1 column is the row's entry at the label. -/
theorem pick_eq (x : Fin 91 → EReal) (l : BitVec 32) (hl : l.toNat < 91) :
    ∑ k : Fin 91, x k * hot l k = x ⟨l.toNat, hl⟩ := by
  rw [Finset.sum_eq_single (⟨l.toNat, hl⟩ : Fin 91)]
  · have : IntOp.cmpi .eq l (BitVec.ofNat 32 l.toNat) = 1#1 :=
      StableHlo.Predicate.cmpi_eq_iff.2 (by simp)
    unfold hot; rw [this]; simp
  · intro k _ hk
    have : IntOp.cmpi .eq l (BitVec.ofNat 32 k.val) ≠ 1#1 := fun h => hk (by
      have e := StableHlo.Predicate.cmpi_eq_iff.1 h
      apply Fin.ext; show k.val = l.toNat
      have hk' : k.val < 2 ^ 32 := lt_trans k.isLt (by norm_num)
      rw [e, BitVec.toNat_ofNat, Nat.mod_eq_of_lt hk'])
    have h0 : IntOp.cmpi .eq l (BitVec.ofNat 32 k.val) = 0#1 := by
      generalize IntOp.cmpi .eq l (BitVec.ofNat 32 k.val) = b at this ⊢
      revert this; revert b; decide
    unfold hot; rw [h0]; simp
  · intro h; exact absurd (Finset.mem_univ _) h

end Cert.CostSpec

end
-- ==== Proof.Cost.lean ====
/-
  The cost matrix as ONE function of the four input arrays: entry (b, q, m) is the matching cost of query box (b, q)
  against target box m, with the class term the product of the softmax of query (b, q)'s logits with the 0/1 column of
  target m's label.
-/
import proofs.«414192_j90795608637851_3_alg».proof.Proof.Spec

noncomputable section

namespace Cert.CostSpec

open Idealize.ShloMosaic Idealize.ShloMosaic.ValueIdx

/-- The cost matrix [16, 900, 1600] of logits [16, 900, 91], query boxes [16, 900, 4], labels [1600] and target boxes
    [1600, 4]. -/
def G (lg : (⟨3, ![16, 900, 91]⟩ : Shape).Idx → EReal) (bx : (⟨3, ![16, 900, 4]⟩ : Shape).Idx → EReal)
    (lab : (⟨1, ![1600]⟩ : Shape).Idx → BitVec 32) (tb : (⟨2, ![1600, 4]⟩ : Shape).Idx → EReal) :
    (⟨3, ![16, 900, 1600]⟩ : Shape).Idx → EReal := fun i =>
  kernelCost (fun a => bx (ix3 (i 0) (i 1) a)) (fun a => tb (ix2 (i 2) a))
    (∑ k : Fin 91, smax (fun k' => lg (ix3 (i 0) (i 1) k')) k * hot (lab (ix1 (i 2))) k)

end Cert.CostSpec

end
-- ==== Proof.TilePieces.lean ====
/-
  The two stores of the kernel body, as terms over the four staged input blocks: the body handles the two batch
  entries of its block one after the other, and stores each entry's [900, 128] tile of costs into its half of the
  output block. `piece0` is the tile of batch entry 0, `piece1` that of batch entry 1; the output block after the
  body is the two laid side by side along the batch axis (`out0_4_eq`).
-/
import proofs.«414192_j90795608637851_3_alg».proof.Proof.Spec
import proofs.«414192_j90795608637851_3_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.Tile

open Cert.KernelIdeal Cert.KernelIdeal.Gen Idealize.ShloMosaic Idealize.ShloMosaic.TcCoe

variable {F : FTy → Type} [FloatOps F]

/-- The tile of batch entry 0 of the block. -/
def piece0 (x0 : Vec F S2x900x91 .f32) (x1 : Vec F S2x900x4 .f32) (x2 : Vec F S91x128 .bf16) (x3 : Vec F S4x128 .f32) :
    Vec F S1x900x128 .f32 :=
  k0_pay26 (k0_pay8 (View.ld x3 r0_1)) (k0_pay9 (View.ld x3 r0_1)) (k0_pay10 (View.ld x3 r0_1)) (k0_pay11 (View.ld x3 r0_1)) (k0_pay12 (View.ld x3 r0_1)) (k0_pay14 (View.ld x2 r0_0) (View.ld x0 r0_2)) (k0_pay19 (k0_pay4 (View.ld x3 r0_1)) (k0_pay5 (View.ld x3 r0_1)) (k0_pay6 (View.ld x3 r0_1)) (k0_pay7 (View.ld x3 r0_1)) (k0_pay13 (View.ld x1 r0_3)) (k0_pay15 (View.ld x1 r0_3)) (k0_pay16 (View.ld x1 r0_3)) (k0_pay17 (View.ld x1 r0_3))) (k0_pay20 (k0_pay15 (View.ld x1 r0_3)) (k0_pay17 (View.ld x1 r0_3))) (k0_pay21 (k0_pay13 (View.ld x1 r0_3)) (k0_pay16 (View.ld x1 r0_3))) (k0_pay22 (k0_pay15 (View.ld x1 r0_3)) (k0_pay17 (View.ld x1 r0_3))) (k0_pay23 (k0_pay13 (View.ld x1 r0_3)) (k0_pay16 (View.ld x1 r0_3))) (k0_pay24 (k0_pay13 (View.ld x1 r0_3)) (k0_pay15 (View.ld x1 r0_3)) (k0_pay16 (View.ld x1 r0_3)) (k0_pay17 (View.ld x1 r0_3))) (k0_pay25 (k0_pay8 (View.ld x3 r0_1)) (k0_pay9 (View.ld x3 r0_1)) (k0_pay10 (View.ld x3 r0_1)) (k0_pay11 (View.ld x3 r0_1)) (k0_pay13 (View.ld x1 r0_3)) (k0_pay15 (View.ld x1 r0_3)) (k0_pay16 (View.ld x1 r0_3)) (k0_pay17 (View.ld x1 r0_3)))

/-- The tile of batch entry 1 of the block. -/
def piece1 (x0 : Vec F S2x900x91 .f32) (x1 : Vec F S2x900x4 .f32) (x2 : Vec F S91x128 .bf16) (x3 : Vec F S4x128 .f32) :
    Vec F S1x900x128 .f32 :=
  k0_pay1 (k0_pay43 (k0_pay8 (View.ld x3 r0_1)) (k0_pay9 (View.ld x3 r0_1)) (k0_pay10 (View.ld x3 r0_1)) (k0_pay11 (View.ld x3 r0_1)) (k0_pay12 (View.ld x3 r0_1)) (k0_pay29 (k0_pay2 (View.ld x2 r0_0)) (k0_pay27 (View.ld x0 r0_5))) (k0_pay34 (k0_pay4 (View.ld x3 r0_1)) (k0_pay5 (View.ld x3 r0_1)) (k0_pay6 (View.ld x3 r0_1)) (k0_pay7 (View.ld x3 r0_1)) (k0_pay28 (View.ld x1 r0_6))) (k0_pay35 (k0_pay28 (View.ld x1 r0_6))) (k0_pay36 (k0_pay28 (View.ld x1 r0_6))) (k0_pay37 (k0_pay28 (View.ld x1 r0_6))) (k0_pay38 (k0_pay28 (View.ld x1 r0_6))) (k0_pay39 (k0_pay28 (View.ld x1 r0_6))) (k0_pay40 (k0_pay8 (View.ld x3 r0_1)) (k0_pay28 (View.ld x1 r0_6))) (k0_pay41 (k0_pay28 (View.ld x1 r0_6))) (k0_pay42 (k0_pay9 (View.ld x3 r0_1))))

/-- The output block after the body: entry 1's tile over entry 0's. -/
theorem out0_4_eq (x0 : Vec F S2x900x91 .f32) (x1 : Vec F S2x900x4 .f32) (x2 : Vec F S91x128 .bf16) (x3 : Vec F S4x128 .f32) :
    out0_4 x0 x1 x2 x3 = View.canon [⟨r0_7, piece1 x0 x1 x2 x3⟩, ⟨r0_4, piece0 x0 x1 x2 x3⟩] := rfl

end Cert.Tile

end
-- ==== Proof.Tile0.lean ====
/-
  Batch entry 0 of the block: its tile of costs at query `q` and lane `l` is the cost of query box `q` of that entry
  against the target box in lane `l`, with the class term the product of the query's softmax row with lane `l`'s
  column of the 0/1 table.
-/
import proofs.«414192_j90795608637851_3_alg».proof.Proof.TilePieces

noncomputable section

namespace Cert.Tile

open Cert.KernelIdeal Cert.KernelIdeal.Gen Idealize.ShloMosaic Idealize.ShloMosaic.TcCoe Idealize.ShloMosaic.ValueIdx

namespace Tile0

/-! ## Two layout operations read at an index -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The loads -/

theorem ld_x0 (x0 : Vec Ideal S2x900x91 .f32) (q : Fin 900) (k : Fin 91) :
    View.ld x0 r0_2 (ix3 (0 : Fin 1) q k) = x0 (ix3 0 q k) := by
  show x0 _ = x0 _
  congr 1
  funext a
  apply Fin.ext
  match a with
  | ⟨0, _⟩ => rfl
  | ⟨1, _⟩ => show 0 + 1 * q.val = q.val; omega
  | ⟨2, _⟩ => show 0 + 1 * k.val = k.val; omega

theorem ld_x1 (x1 : Vec Ideal S2x900x4 .f32) (q : Fin 900) (a : Fin 4) :
    View.ld x1 r0_3 (ix3 (0 : Fin 1) q a) = x1 (ix3 0 q a) := by
  show x1 _ = x1 _
  congr 1
  funext c
  apply Fin.ext
  match c with
  | ⟨0, _⟩ => rfl
  | ⟨1, _⟩ => show 0 + 1 * q.val = q.val; omega
  | ⟨2, _⟩ => show 0 + 1 * a.val = a.val; omega

theorem ld_x2 (x2 : Vec Ideal S91x128 .bf16) : View.ld x2 r0_0 = x2 :=
  View.ld_unit_zero (S := S91x128) (funext fun a => by match a with | ⟨0, _⟩ => rfl | ⟨1, _⟩ => rfl) _ x2

theorem ld_x3 (x3 : Vec Ideal S4x128 .f32) : View.ld x3 r0_1 = x3 :=
  View.ld_unit_zero (S := S4x128) (funext fun a => by match a with | ⟨0, _⟩ => rfl | ⟨1, _⟩ => rfl) _ x3

/-! ## The target box: rows of the transposed block -/

theorem pay4_at (v : Vec Ideal S4x128 .f32) (l : Fin 128) : k0_pay4 v (ix2 (0 : Fin 1) l) = v (ix2 0 l) := by
  unfold k0_pay4 k0_pay3
  rw [shapeCast_self]
  exact slice2_axis0_apply 0 v _ 0 l 0 rfl

theorem pay5_at (v : Vec Ideal S4x128 .f32) (l : Fin 128) : k0_pay5 v (ix2 (0 : Fin 1) l) = v (ix2 1 l) := by
  unfold k0_pay5 k0_pay3
  rw [shapeCast_self]
  exact slice2_axis0_apply 1 v _ 0 l 1 rfl

theorem pay6_at (v : Vec Ideal S4x128 .f32) (l : Fin 128) : k0_pay6 v (ix2 (0 : Fin 1) l) = v (ix2 2 l) := by
  unfold k0_pay6 k0_pay3
  rw [shapeCast_self]
  exact slice2_axis0_apply 2 v _ 0 l 2 rfl

theorem pay7_at (v : Vec Ideal S4x128 .f32) (l : Fin 128) : k0_pay7 v (ix2 (0 : Fin 1) l) = v (ix2 3 l) := by
  unfold k0_pay7 k0_pay3
  rw [shapeCast_self]
  exact slice2_axis0_apply 3 v _ 0 l 3 rfl

theorem pay8_at (v : Vec Ideal S4x128 .f32) (l : Fin 128) :
    k0_pay8 v (ix2 (0 : Fin 1) l) = CostSpec.lo (v (ix2 0 l)) (v (ix2 2 l)) := by
  unfold k0_pay8
  simp only [subf_apply, mulf_apply, broadcast_apply, pay4_at, pay6_at]
  rfl

theorem pay9_at (v : Vec Ideal S4x128 .f32) (l : Fin 128) :
    k0_pay9 v (ix2 (0 : Fin 1) l) = CostSpec.lo (v (ix2 1 l)) (v (ix2 3 l)) := by
  unfold k0_pay9
  simp only [subf_apply, mulf_apply, broadcast_apply, pay5_at, pay7_at]
  rfl

theorem pay10_at (v : Vec Ideal S4x128 .f32) (l : Fin 128) :
    k0_pay10 v (ix2 (0 : Fin 1) l) = CostSpec.hi (v (ix2 0 l)) (v (ix2 2 l)) := by
  unfold k0_pay10
  simp only [addf_apply, mulf_apply, broadcast_apply, pay4_at, pay6_at]
  rfl

theorem pay11_at (v : Vec Ideal S4x128 .f32) (l : Fin 128) :
    k0_pay11 v (ix2 (0 : Fin 1) l) = CostSpec.hi (v (ix2 1 l)) (v (ix2 3 l)) := by
  unfold k0_pay11
  simp only [addf_apply, mulf_apply, broadcast_apply, pay5_at, pay7_at]
  rfl

theorem pay12_at (v : Vec Ideal S4x128 .f32) (l : Fin 128) :
    k0_pay12 v (ix2 (0 : Fin 1) l) = CostSpec.area (fun a => v (ix2 a l)) := by
  unfold k0_pay12
  simp only [subf_apply, mulf_apply, pay8_at, pay9_at, pay10_at, pay11_at]
  rfl

/-! ## The query box: columns of the block -/

theorem pay13_at (v : Vec Ideal S1x900x4 .f32) (q : Fin 900) (a : Fin 4) : k0_pay13 v (ix2 q a) = v (ix3 (0 : Fin 1) q a) := by
  unfold k0_pay13
  exact shapeCast_1ab_ab_apply v _ q a

theorem pay15_at (v : Vec Ideal S1x900x4 .f32) (q : Fin 900) : k0_pay15 v (ix2 q (0 : Fin 1)) = v (ix3 (0 : Fin 1) q 0) := by
  unfold k0_pay15
  rw [slice2_axis1_apply 0 (k0_pay13 v) _ q 0 0 rfl, pay13_at]

theorem pay16_at (v : Vec Ideal S1x900x4 .f32) (q : Fin 900) : k0_pay16 v (ix2 q (0 : Fin 1)) = v (ix3 (0 : Fin 1) q 1) := by
  unfold k0_pay16
  rw [slice2_axis1_apply 1 (k0_pay13 v) _ q 0 1 rfl, pay13_at]

theorem pay17_at (v : Vec Ideal S1x900x4 .f32) (q : Fin 900) : k0_pay17 v (ix2 q (0 : Fin 1)) = v (ix3 (0 : Fin 1) q 2) := by
  unfold k0_pay17
  rw [slice2_axis1_apply 2 (k0_pay13 v) _ q 0 2 rfl, pay13_at]

theorem pay18_at (w : FVec Ideal S900x4 .f32) (q : Fin 900) : k0_pay18 w (ix2 q (0 : Fin 1)) = w (ix2 q 3) := by
  unfold k0_pay18
  exact slice2_axis1_apply 3 w _ q 0 3 rfl

theorem pay20_at (v38 v40 : FVec Ideal S900x1 .f32) (q : Fin 900) :
    k0_pay20 v38 v40 (ix2 q (0 : Fin 1)) = CostSpec.lo (v38 (ix2 q 0)) (v40 (ix2 q 0)) := by
  unfold k0_pay20
  simp only [subf_apply, mulf_apply, broadcast_apply]
  rfl

theorem pay21_at (v26 : FVec Ideal S900x4 .f32) (v39 : FVec Ideal S900x1 .f32) (q : Fin 900) :
    k0_pay21 v26 v39 (ix2 q (0 : Fin 1)) = CostSpec.lo (v39 (ix2 q 0)) (v26 (ix2 q 3)) := by
  unfold k0_pay21
  simp only [subf_apply, mulf_apply, broadcast_apply, pay18_at]
  rfl

theorem pay22_at (v38 v40 : FVec Ideal S900x1 .f32) (q : Fin 900) :
    k0_pay22 v38 v40 (ix2 q (0 : Fin 1)) = CostSpec.hi (v38 (ix2 q 0)) (v40 (ix2 q 0)) := by
  unfold k0_pay22
  simp only [addf_apply, mulf_apply, broadcast_apply]
  rfl

theorem pay23_at (v26 : FVec Ideal S900x4 .f32) (v39 : FVec Ideal S900x1 .f32) (q : Fin 900) :
    k0_pay23 v26 v39 (ix2 q (0 : Fin 1)) = CostSpec.hi (v39 (ix2 q 0)) (v26 (ix2 q 3)) := by
  unfold k0_pay23
  simp only [addf_apply, mulf_apply, broadcast_apply, pay18_at]
  rfl

theorem pay24_at (v26 : FVec Ideal S900x4 .f32) (v38 v39 v40 : FVec Ideal S900x1 .f32) (q : Fin 900) :
    k0_pay24 v26 v38 v39 v40 (ix2 q (0 : Fin 1))
      = (CostSpec.hi (v38 (ix2 q 0)) (v40 (ix2 q 0)) - CostSpec.lo (v38 (ix2 q 0)) (v40 (ix2 q 0)))
        * (CostSpec.hi (v39 (ix2 q 0)) (v26 (ix2 q 3)) - CostSpec.lo (v39 (ix2 q 0)) (v26 (ix2 q 3))) := by
  unfold k0_pay24
  simp only [subf_apply, mulf_apply, pay20_at, pay21_at, pay22_at, pay23_at]

/-! ## The ℓ¹ distance -/

/-- The absolute value of a vector read at an index: `max a (−a)` of the entry. -/
theorem absf_apply {s : Shape} {φ : FTy} (a : FVec Ideal s φ) (i : s.Idx) : absf a i = CostSpec.absE (a i) := rfl

theorem pay19_at (v4 v5 v6 v7 : FVec Ideal S1x128 .f32) (v26 : FVec Ideal S900x4 .f32) (v38 v39 v40 : FVec Ideal S900x1 .f32)
    (q : Fin 900) (l : Fin 128) :
    k0_pay19 v4 v5 v6 v7 v26 v38 v39 v40 (ix2 q l)
      = CostSpec.absE (v38 (ix2 q 0) - v4 (ix2 0 l)) + CostSpec.absE (v39 (ix2 q 0) - v5 (ix2 0 l))
        + CostSpec.absE (v40 (ix2 q 0) - v6 (ix2 0 l)) + CostSpec.absE (v26 (ix2 q 3) - v7 (ix2 0 l)) := by
  unfold k0_pay19
  simp only [addf_apply, absf_apply, subf_apply, broadcastTo_a1_ab_apply, broadcastTo_1b_ab_apply, pay18_at]

/-! ## The intersection -/

theorem pay25_at (v10 v13 v16 v19 : FVec Ideal S1x128 .f32) (v26 : FVec Ideal S900x4 .f32) (v38 v39 v40 : FVec Ideal S900x1 .f32)
    (q : Fin 900) (l : Fin 128) :
    k0_pay25 v10 v13 v16 v19 v26 v38 v39 v40 (ix2 q l)
      = max (min (CostSpec.hi (v38 (ix2 q 0)) (v40 (ix2 q 0))) (v16 (ix2 0 l))
              - max (CostSpec.lo (v38 (ix2 q 0)) (v40 (ix2 q 0))) (v10 (ix2 0 l))) CostSpec.cZero
        * max (min (CostSpec.hi (v39 (ix2 q 0)) (v26 (ix2 q 3))) (v19 (ix2 0 l))
              - max (CostSpec.lo (v39 (ix2 q 0)) (v26 (ix2 q 3))) (v13 (ix2 0 l))) CostSpec.cZero := by
  unfold k0_pay25
  simp only [mulf_apply, subf_apply, maximumf_apply, minimumf_apply, broadcast_apply, broadcastTo_a1_ab_apply,
    broadcastTo_1b_ab_apply, pay20_at, pay21_at, pay22_at, pay23_at]
  rfl

/-! ## The class term: the softmax of a logits row against a column of the table -/

/-- The exponential of a vector read at an index. -/
theorem exp_apply {s : Shape} {φ : FTy} (a : FVec Ideal s φ) (i : s.Idx) : exp a i = Ideal.exp (a i) := rfl

/-- The index over row `q` with column `k` put back on the reduced axis. -/
theorem lift_row (q : Fin 900) (k : Fin 91) : reduces_S900x91_S900.lift (ix1 q) k = ix2 q k := by
  funext a
  apply Fin.ext
  match a with
  | ⟨0, _⟩ => rfl
  | ⟨1, _⟩ => rfl

/-- A row's maximum, as a column broadcast back along the row. -/
theorem rowMaxCol_at (src : FVec Ideal S900x91 .f32) (hφ : FTy.f32 = FTy.f32 ∨ FTy.f32 = FTy.bf16)
    (hacc : (0xFF800000#32 : BitVec 32) = 0xFF800000#32) (q : Fin 900) (k : Fin 91) :
    broadcastTo S900x91 (shapeCast S900x1 (multiReduction (F := Ideal) .maximumf [1] S900 src 0xFF800000#32 reduces_S900x91_S900 hφ hacc)
        shapeCasts_S900_S900x1) broadcasts_S900x1_S900x91 (ix2 q k)
      = CostSpec.rowMax (fun k' => src (ix2 q k')) := by
  rw [broadcastTo_a1_ab_apply, shapeCast_a_a1_apply]
  refine (Ideal.multiReduction_maximumf_single src 0xFF800000#32 reduces_S900x91_S900 hφ hacc (ix1 q)).trans ?_
  unfold CostSpec.rowMax
  refine congrArg (fun f => (Finset.univ : Finset (Fin 91)).fold max _ f) (funext fun k' => ?_)
  exact congrArg src (lift_row q k')

/-- A row's sum, as a column broadcast back along the row. -/
theorem rowSumCol_at (src : FVec Ideal S900x91 .f32) (hφ : FTy.f32 = FTy.f32 ∨ FTy.f32 = FTy.bf16)
    (hacc : (0x00000000#32 : BitVec 32) = 0x00000000#32) (q : Fin 900) (k : Fin 91) :
    broadcastTo S900x91 (shapeCast S900x1 (multiReduction (F := Ideal) .add [1] S900 src 0x00000000#32 reduces_S900x91_S900 hφ hacc)
        shapeCasts_S900_S900x1) broadcasts_S900x1_S900x91 (ix2 q k)
      = ∑ j : Fin 91, src (ix2 q j) := by
  rw [broadcastTo_a1_ab_apply, shapeCast_a_a1_apply]
  refine (Ideal.multiReduction_add_single src 0x00000000#32 reduces_S900x91_S900 hφ hacc (ix1 q)).trans ?_
  exact Finset.sum_congr rfl fun j _ => congrArg src (lift_row q j)

/-! The product's operand indices, coordinate by coordinate. -/

theorem lhs_D91_0 (j : S900x128.Idx) (k : dot_S900x91_S91x128_S900x128_1_0_0_1_n_n.contr.Idx) :
    (dot_S900x91_S91x128_S900x128_1_0_0_1_n_n.lhsIdx j k 0 : ℕ) = j 0 := by
  simp [DotDims.lhsIdx, dot_S900x91_S91x128_S900x128_1_0_0_1_n_n]; rfl
theorem lhs_D91_1 (j : S900x128.Idx) (k : dot_S900x91_S91x128_S900x128_1_0_0_1_n_n.contr.Idx) :
    (dot_S900x91_S91x128_S900x128_1_0_0_1_n_n.lhsIdx j k 1 : ℕ) = k ⟨0, by decide⟩ := by
  simp [DotDims.lhsIdx, dot_S900x91_S91x128_S900x128_1_0_0_1_n_n]; rfl
theorem rhs_D91_0 (j : S900x128.Idx) (k : dot_S900x91_S91x128_S900x128_1_0_0_1_n_n.contr.Idx) :
    (dot_S900x91_S91x128_S900x128_1_0_0_1_n_n.rhsIdx j k 0 : ℕ) = k ⟨0, by decide⟩ := by
  simp [DotDims.rhsIdx, dot_S900x91_S91x128_S900x128_1_0_0_1_n_n]; rfl
theorem rhs_D91_1 (j : S900x128.Idx) (k : dot_S900x91_S91x128_S900x128_1_0_0_1_n_n.contr.Idx) :
    (dot_S900x91_S91x128_S900x128_1_0_0_1_n_n.rhsIdx j k 1 : ℕ) = j 1 := by
  simp [DotDims.rhsIdx, dot_S900x91_S91x128_S900x128_1_0_0_1_n_n]; rfl

theorem lhs_D91 (q : Fin 900) (l : Fin 128) (k : Fin 91) :
    dot_S900x91_S91x128_S900x128_1_0_0_1_n_n.lhsIdx (ix2 q l)
        ((contrEquiv1 dot_S900x91_S91x128_S900x128_1_0_0_1_n_n 91 rfl rfl).symm k) = ix2 q k := by
  funext a
  apply Fin.ext
  match a with
  | ⟨0, _⟩ => exact lhs_D91_0 _ _
  | ⟨1, _⟩ => exact (lhs_D91_1 _ _).trans (contrEquiv1_symm_val _ 91 rfl rfl k)

theorem rhs_D91 (q : Fin 900) (l : Fin 128) (k : Fin 91) :
    dot_S900x91_S91x128_S900x128_1_0_0_1_n_n.rhsIdx (ix2 q l)
        ((contrEquiv1 dot_S900x91_S91x128_S900x128_1_0_0_1_n_n 91 rfl rfl).symm k) = ix2 k l := by
  funext a
  apply Fin.ext
  match a with
  | ⟨0, _⟩ => exact (rhs_D91_0 _ _).trans (contrEquiv1_symm_val _ 91 rfl rfl k)
  | ⟨1, _⟩ => exact rhs_D91_1 _ _

/-- The softmax of row `q` at class `k`, as the operations compute it from a block of logits. -/
theorem softmax_at (v24 : FVec Ideal S900x91 .f32) (hφ : FTy.f32 = FTy.f32 ∨ FTy.f32 = FTy.bf16)
    (h1 : (0xFF800000#32 : BitVec 32) = 0xFF800000#32) (h2 : (0x00000000#32 : BitVec 32) = 0x00000000#32) (q : Fin 900) (k : Fin 91) :
    divf
        (exp (subf v24 (broadcastTo S900x91 (shapeCast S900x1
          (multiReduction (F := Ideal) .maximumf [1] S900 v24 0xFF800000#32 reduces_S900x91_S900 hφ h1) shapeCasts_S900_S900x1)
          broadcasts_S900x1_S900x91)))
        (broadcastTo S900x91 (shapeCast S900x1
          (multiReduction (F := Ideal) .add [1] S900
            (exp (subf v24 (broadcastTo S900x91 (shapeCast S900x1
              (multiReduction (F := Ideal) .maximumf [1] S900 v24 0xFF800000#32 reduces_S900x91_S900 hφ h1) shapeCasts_S900_S900x1)
              broadcasts_S900x1_S900x91)))
            0x00000000#32 reduces_S900x91_S900 hφ h2) shapeCasts_S900_S900x1)
          broadcasts_S900x1_S900x91) (ix2 q k)
      = CostSpec.smax (fun k' => v24 (ix2 q k')) k := by
  rw [divf_apply, exp_apply, subf_apply, rowMaxCol_at, rowSumCol_at]
  unfold CostSpec.smax
  refine congrArg (Ideal.div _) (Finset.sum_congr rfl fun j _ => ?_)
  rw [exp_apply, subf_apply, rowMaxCol_at]

theorem pay14_at (v0 : Vec Ideal S91x128 .bf16) (v23 : Vec Ideal S1x900x91 .f32) (q : Fin 900) (l : Fin 128) :
    k0_pay14 v0 v23 (ix2 q l) = ∑ k : Fin 91, CostSpec.smax (fun k' => v23 (ix3 (0 : Fin 1) q k')) k * v0 (ix2 k l) := by
  unfold k0_pay14 k0_pay2
  rw [shapeCast_self]
  refine (Ideal.matmul_constant_zero_apply dot_S900x91_S91x128_S900x128_1_0_0_1_n_n none _ _ (ix2 q l)).trans ?_
  rw [← Equiv.sum_comp (contrEquiv1 dot_S900x91_S91x128_S900x128_1_0_0_1_n_n 91 rfl rfl).symm]
  refine Finset.sum_congr rfl fun k _ => ?_
  rw [lhs_D91, rhs_D91, truncf_apply, softmax_at]
  simp only [shapeCast_1ab_ab_apply]

/-! ## The combine -/

theorem pay26_at (v10 v13 v16 v19 v22 : FVec Ideal S1x128 .f32) (v37 v60 : FVec Ideal S900x128 .f32)
    (v63 v66 v69 v72 v75 : FVec Ideal S900x1 .f32) (v94 : FVec Ideal S900x128 .f32) (q : Fin 900) (l : Fin 128) :
    k0_pay26 v10 v13 v16 v19 v22 v37 v60 v63 v66 v69 v72 v75 v94 (ix3 (0 : Fin 1) q l)
      = CostSpec.combK (CostSpec.cFive * v60 (ix2 q l)) (v37 (ix2 q l)) (v94 (ix2 q l))
          (v75 (ix2 q 0) + v22 (ix2 0 l) - v94 (ix2 q l))
          (max (max (v69 (ix2 q 0)) (v16 (ix2 0 l)) - min (v63 (ix2 q 0)) (v10 (ix2 0 l))) CostSpec.cZero
            * max (max (v72 (ix2 q 0)) (v19 (ix2 0 l)) - min (v66 (ix2 q 0)) (v13 (ix2 0 l))) CostSpec.cZero) := by
  unfold k0_pay26
  rw [shapeCast_ab_1ab_apply]
  simp only [subf_apply, addf_apply, mulf_apply, divf_apply, maximumf_apply, minimumf_apply, broadcast_apply,
    broadcastTo_a1_ab_apply, broadcastTo_1b_ab_apply]
  rfl

end Tile0

open Tile0

theorem piece0_at (x0 : Vec Ideal S2x900x91 .f32) (x1 : Vec Ideal S2x900x4 .f32) (x2 : Vec Ideal S91x128 .bf16) (x3 : Vec Ideal S4x128 .f32)
    (q : Fin 900) (l : Fin 128) :
    piece0 x0 x1 x2 x3 (ix3 0 q l)
      = CostSpec.kernelCost (fun a => x1 (ix3 0 q a)) (fun a => x3 (ix2 a l))
          (∑ k : Fin 91, CostSpec.smax (fun k' => x0 (ix3 0 q k')) k * x2 (ix2 k l)) := by
  unfold piece0
  rw [pay26_at, ld_x3, ld_x2]
  simp only [pay14_at, pay19_at, pay25_at, pay24_at, pay20_at, pay21_at, pay22_at, pay23_at, pay12_at, pay8_at, pay9_at,
    pay10_at, pay11_at, pay4_at, pay5_at, pay6_at, pay7_at, pay13_at, pay15_at, pay16_at, pay17_at]
  rw [ld_x1 x1 q 0, ld_x1 x1 q 1, ld_x1 x1 q 2, ld_x1 x1 q 3,
    show (fun k' => View.ld x0 r0_2 (ix3 (0 : Fin 1) q k')) = (fun k' => x0 (ix3 0 q k')) from funext fun k' => ld_x0 x0 q k']
  rfl

end Cert.Tile

end
-- ==== Proof.Tile1.lean ====
/-
  Batch entry 1 of the block: its tile of costs at query `q` and lane `l` is the cost of query box `q` of that entry
  against the target box in lane `l`, with the class term the product of the query's softmax row with lane `l`'s
  column of the 0/1 table.
-/
import proofs.«414192_j90795608637851_3_alg».proof.Proof.TilePieces

noncomputable section

namespace Cert.Tile

open Cert.KernelIdeal Cert.KernelIdeal.Gen Idealize.ShloMosaic Idealize.ShloMosaic.TcCoe Idealize.ShloMosaic.ValueIdx

/-! The reads of batch entry 1's payloads at an index, kept in a namespace of their own. -/
namespace Entry1

/-! ## Layout: the keepdims forms -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The loads -/

theorem ld_x0 (x0 : Vec Ideal S2x900x91 .f32) (u : Fin 1) (q : Fin 900) (k : Fin 91) :
    View.ld x0 r0_5 (ix3 u q k) = x0 (ix3 (1 : Fin 2) q k) := by
  show x0 _ = x0 _
  congr 1
  funext a
  refine Fin.ext ?_
  match a with
  | ⟨0, _⟩ => show 1 + 1 * u.val = 1; omega
  | ⟨1, _⟩ => show 0 + 1 * q.val = q.val; omega
  | ⟨2, _⟩ => show 0 + 1 * k.val = k.val; omega

theorem ld_x1 (x1 : Vec Ideal S2x900x4 .f32) (u : Fin 1) (q : Fin 900) (a : Fin 4) :
    View.ld x1 r0_6 (ix3 u q a) = x1 (ix3 (1 : Fin 2) q a) := by
  show x1 _ = x1 _
  congr 1
  funext c
  refine Fin.ext ?_
  match c with
  | ⟨0, _⟩ => show 1 + 1 * u.val = 1; omega
  | ⟨1, _⟩ => show 0 + 1 * q.val = q.val; omega
  | ⟨2, _⟩ => show 0 + 1 * a.val = a.val; omega

theorem ld_x2 (x2 : Vec Ideal S91x128 .bf16) : View.ld x2 r0_0 = x2 :=
  View.ld_unit_zero (funext fun a => by match a with | ⟨0, _⟩ => rfl | ⟨1, _⟩ => rfl) _ x2

theorem ld_x3 (x3 : Vec Ideal S4x128 .f32) : View.ld x3 r0_1 = x3 :=
  View.ld_unit_zero (funext fun a => by match a with | ⟨0, _⟩ => rfl | ⟨1, _⟩ => rfl) _ x3

/-! ## Two more pointwise operations read at an index -/

/-- An absolute value at an index is the larger of the element and its negation. -/
theorem absf_apply {s : Shape} {φ : FTy} (a : FVec Ideal s φ) (i : s.Idx) : absf a i = CostSpec.absE (a i) := rfl
/-- An exponential at an index is the extended reals' exponential of the element. -/
theorem exp_apply {s : Shape} {φ : FTy} (a : FVec Ideal s φ) (i : s.Idx) : exp a i = Ideal.exp (a i) := rfl

/-! ## The target boxes: rows of the `[4, 128]` block -/

theorem pay3_eq (v2 : Vec Ideal S4x128 .f32) : k0_pay3 v2 = v2 := by
  unfold k0_pay3; exact shapeCast_self _ _

theorem pay4_at (v2 : Vec Ideal S4x128 .f32) (u : Fin 1) (l : Fin 128) :
    k0_pay4 v2 (ix2 u l) = v2 (ix2 (0 : Fin 4) l) := by
  unfold k0_pay4; rw [pay3_eq]
  exact slice2_axis0_apply 0 v2 _ u l 0 (by show 0 = 0 + u.val; omega)

theorem pay5_at (v2 : Vec Ideal S4x128 .f32) (u : Fin 1) (l : Fin 128) :
    k0_pay5 v2 (ix2 u l) = v2 (ix2 (1 : Fin 4) l) := by
  unfold k0_pay5; rw [pay3_eq]
  exact slice2_axis0_apply 1 v2 _ u l 1 (by show 1 = 1 + u.val; omega)

theorem pay6_at (v2 : Vec Ideal S4x128 .f32) (u : Fin 1) (l : Fin 128) :
    k0_pay6 v2 (ix2 u l) = v2 (ix2 (2 : Fin 4) l) := by
  unfold k0_pay6; rw [pay3_eq]
  exact slice2_axis0_apply 2 v2 _ u l 2 (by show 2 = 2 + u.val; omega)

theorem pay7_at (v2 : Vec Ideal S4x128 .f32) (u : Fin 1) (l : Fin 128) :
    k0_pay7 v2 (ix2 u l) = v2 (ix2 (3 : Fin 4) l) := by
  unfold k0_pay7; rw [pay3_eq]
  exact slice2_axis0_apply 3 v2 _ u l 3 (by show 3 = 3 + u.val; omega)

/-- The target's lower x-corner. -/
theorem pay8_at (v2 : Vec Ideal S4x128 .f32) (u : Fin 1) (l : Fin 128) :
    k0_pay8 v2 (ix2 u l) = CostSpec.lo (v2 (ix2 (0 : Fin 4) l)) (v2 (ix2 (2 : Fin 4) l)) := by
  unfold k0_pay8
  simp only [subf_apply, mulf_apply, broadcast_apply, pay4_at, pay6_at]
  rfl

/-- The target's lower y-corner. -/
theorem pay9_at (v2 : Vec Ideal S4x128 .f32) (u : Fin 1) (l : Fin 128) :
    k0_pay9 v2 (ix2 u l) = CostSpec.lo (v2 (ix2 (1 : Fin 4) l)) (v2 (ix2 (3 : Fin 4) l)) := by
  unfold k0_pay9
  simp only [subf_apply, mulf_apply, broadcast_apply, pay5_at, pay7_at]
  rfl

/-- The target's upper x-corner. -/
theorem pay10_at (v2 : Vec Ideal S4x128 .f32) (u : Fin 1) (l : Fin 128) :
    k0_pay10 v2 (ix2 u l) = CostSpec.hi (v2 (ix2 (0 : Fin 4) l)) (v2 (ix2 (2 : Fin 4) l)) := by
  unfold k0_pay10
  simp only [addf_apply, mulf_apply, broadcast_apply, pay4_at, pay6_at]
  rfl

/-- The target's upper y-corner. -/
theorem pay11_at (v2 : Vec Ideal S4x128 .f32) (u : Fin 1) (l : Fin 128) :
    k0_pay11 v2 (ix2 u l) = CostSpec.hi (v2 (ix2 (1 : Fin 4) l)) (v2 (ix2 (3 : Fin 4) l)) := by
  unfold k0_pay11
  simp only [addf_apply, mulf_apply, broadcast_apply, pay5_at, pay7_at]
  rfl

/-- The target's area. -/
theorem pay12_at (v2 : Vec Ideal S4x128 .f32) (u : Fin 1) (l : Fin 128) :
    k0_pay12 v2 (ix2 u l) = CostSpec.area (fun a => v2 (ix2 a l)) := by
  unfold k0_pay12
  simp only [subf_apply, mulf_apply, pay8_at, pay9_at, pay10_at, pay11_at]
  rfl

/-! ## The block's batch entry: the leading unit axis dropped -/

theorem pay27_at (v134 : Vec Ideal S1x900x91 .f32) (q : Fin 900) (k : Fin 91) :
    k0_pay27 v134 (ix2 q k) = v134 (ix3 (0 : Fin 1) q k) := by
  unfold k0_pay27; exact shapeCast_1ab_ab_apply v134 _ q k

theorem pay28_at (v136 : Vec Ideal S1x900x4 .f32) (q : Fin 900) (a : Fin 4) :
    k0_pay28 v136 (ix2 q a) = v136 (ix3 (0 : Fin 1) q a) := by
  unfold k0_pay28; exact shapeCast_1ab_ab_apply v136 _ q a

/-- Batch entry 1's logits: the block's second entry. -/
theorem pay27_ld_at (x0 : Vec Ideal S2x900x91 .f32) (q : Fin 900) (k : Fin 91) :
    k0_pay27 (View.ld x0 r0_5) (ix2 q k) = x0 (ix3 (1 : Fin 2) q k) :=
  (pay27_at _ q k).trans (ld_x0 x0 0 q k)

/-- Batch entry 1's query boxes: the block's second entry. -/
theorem pay28_ld_at (x1 : Vec Ideal S2x900x4 .f32) (q : Fin 900) (a : Fin 4) :
    k0_pay28 (View.ld x1 r0_6) (ix2 q a) = x1 (ix3 (1 : Fin 2) q a) :=
  (pay28_at _ q a).trans (ld_x1 x1 0 q a)

theorem pay2_eq (v0 : Vec Ideal S91x128 .bf16) : k0_pay2 v0 = v0 := by
  unfold k0_pay2; exact shapeCast_self _ _

/-! ## The query boxes: columns of the `[900, 4]` block -/

theorem pay30_at (v137 : FVec Ideal S900x4 .f32) (q : Fin 900) (u : Fin 1) :
    k0_pay30 v137 (ix2 q u) = v137 (ix2 q (0 : Fin 4)) := by
  unfold k0_pay30
  exact slice2_axis1_apply 0 v137 _ q u 0 (by show 0 = 0 + u.val; omega)

theorem pay31_at (v137 : FVec Ideal S900x4 .f32) (q : Fin 900) (u : Fin 1) :
    k0_pay31 v137 (ix2 q u) = v137 (ix2 q (1 : Fin 4)) := by
  unfold k0_pay31
  exact slice2_axis1_apply 1 v137 _ q u 1 (by show 1 = 1 + u.val; omega)

theorem pay32_at (v137 : FVec Ideal S900x4 .f32) (q : Fin 900) (u : Fin 1) :
    k0_pay32 v137 (ix2 q u) = v137 (ix2 q (2 : Fin 4)) := by
  unfold k0_pay32
  exact slice2_axis1_apply 2 v137 _ q u 2 (by show 2 = 2 + u.val; omega)

theorem pay33_at (v137 : FVec Ideal S900x4 .f32) (q : Fin 900) (u : Fin 1) :
    k0_pay33 v137 (ix2 q u) = v137 (ix2 q (3 : Fin 4)) := by
  unfold k0_pay33
  exact slice2_axis1_apply 3 v137 _ q u 3 (by show 3 = 3 + u.val; omega)

/-- The query's lower x-corner. -/
theorem pay35_at (v137 : FVec Ideal S900x4 .f32) (q : Fin 900) (u : Fin 1) :
    k0_pay35 v137 (ix2 q u) = CostSpec.lo (v137 (ix2 q (0 : Fin 4))) (v137 (ix2 q (2 : Fin 4))) := by
  unfold k0_pay35
  simp only [subf_apply, mulf_apply, broadcast_apply, pay30_at, pay32_at]
  rfl

/-- The query's lower y-corner. -/
theorem pay36_at (v137 : FVec Ideal S900x4 .f32) (q : Fin 900) (u : Fin 1) :
    k0_pay36 v137 (ix2 q u) = CostSpec.lo (v137 (ix2 q (1 : Fin 4))) (v137 (ix2 q (3 : Fin 4))) := by
  unfold k0_pay36
  simp only [subf_apply, mulf_apply, broadcast_apply, pay31_at, pay33_at]
  rfl

/-- The query's upper x-corner. -/
theorem pay37_at (v137 : FVec Ideal S900x4 .f32) (q : Fin 900) (u : Fin 1) :
    k0_pay37 v137 (ix2 q u) = CostSpec.hi (v137 (ix2 q (0 : Fin 4))) (v137 (ix2 q (2 : Fin 4))) := by
  unfold k0_pay37
  simp only [addf_apply, mulf_apply, broadcast_apply, pay30_at, pay32_at]
  rfl

/-- The query's upper y-corner. -/
theorem pay38_at (v137 : FVec Ideal S900x4 .f32) (q : Fin 900) (u : Fin 1) :
    k0_pay38 v137 (ix2 q u) = CostSpec.hi (v137 (ix2 q (1 : Fin 4))) (v137 (ix2 q (3 : Fin 4))) := by
  unfold k0_pay38
  simp only [addf_apply, mulf_apply, broadcast_apply, pay31_at, pay33_at]
  rfl

/-- The query's area. -/
theorem pay39_at (v137 : FVec Ideal S900x4 .f32) (q : Fin 900) (u : Fin 1) :
    k0_pay39 v137 (ix2 q u) = CostSpec.area (fun a => v137 (ix2 q a)) := by
  unfold k0_pay39
  simp only [subf_apply, mulf_apply, pay35_at, pay36_at, pay37_at, pay38_at]
  rfl

/-- The ℓ¹ distance of query `q`'s box and lane `l`'s target box. -/
theorem pay34_at (v4 v5 v6 v7 : FVec Ideal S1x128 .f32) (v137 : FVec Ideal S900x4 .f32) (q : Fin 900) (l : Fin 128) :
    k0_pay34 v4 v5 v6 v7 v137 (ix2 q l)
      = CostSpec.absE (v137 (ix2 q (0 : Fin 4)) - v4 (ix2 (0 : Fin 1) l))
        + CostSpec.absE (v137 (ix2 q (1 : Fin 4)) - v5 (ix2 (0 : Fin 1) l))
        + CostSpec.absE (v137 (ix2 q (2 : Fin 4)) - v6 (ix2 (0 : Fin 1) l))
        + CostSpec.absE (v137 (ix2 q (3 : Fin 4)) - v7 (ix2 (0 : Fin 1) l)) := by
  unfold k0_pay34
  simp only [addf_apply, subf_apply, absf_apply, broadcastTo_a1_ab_apply, broadcastTo_1b_ab_apply, pay30_at, pay31_at, pay32_at, pay33_at]

/-- The larger of the two lower x-corners. -/
theorem pay40_at (v10 : FVec Ideal S1x128 .f32) (v137 : FVec Ideal S900x4 .f32) (q : Fin 900) (l : Fin 128) :
    k0_pay40 v10 v137 (ix2 q l)
      = max (CostSpec.lo (v137 (ix2 q (0 : Fin 4))) (v137 (ix2 q (2 : Fin 4)))) (v10 (ix2 (0 : Fin 1) l)) := by
  unfold k0_pay40
  simp only [maximumf_apply, broadcastTo_a1_ab_apply, broadcastTo_1b_ab_apply, pay35_at]

theorem pay41_at (v137 : FVec Ideal S900x4 .f32) (q : Fin 900) (l : Fin 128) :
    k0_pay41 v137 (ix2 q l) = CostSpec.lo (v137 (ix2 q (1 : Fin 4))) (v137 (ix2 q (3 : Fin 4))) := by
  unfold k0_pay41
  simp only [broadcastTo_a1_ab_apply, pay36_at]

theorem pay42_at (v13 : FVec Ideal S1x128 .f32) (q : Fin 900) (l : Fin 128) :
    k0_pay42 v13 (ix2 q l) = v13 (ix2 (0 : Fin 1) l) := by
  unfold k0_pay42
  simp only [broadcastTo_1b_ab_apply]

theorem pay1_at (v241 : FVec Ideal S900x128 .f32) (u : Fin 1) (q : Fin 900) (l : Fin 128) :
    k0_pay1 v241 (ix3 u q l) = v241 (ix2 q l) := by
  unfold k0_pay1; exact shapeCast_ab_1ab_apply v241 _ u q l

/-! ## The combine -/

/-- The last payload at `(q, l)`: the kernel's arrangement of the cost, over its operands read there. -/
theorem pay43_at (v10 v13 v16 v19 v22 : FVec Ideal S1x128 .f32) (v148 v171 : FVec Ideal S900x128 .f32)
    (v174 v177 v180 v183 v186 : FVec Ideal S900x1 .f32) (v189 v190 v191 : FVec Ideal S900x128 .f32)
    (q : Fin 900) (l : Fin 128) :
    k0_pay43 v10 v13 v16 v19 v22 v148 v171 v174 v177 v180 v183 v186 v189 v190 v191 (ix2 q l)
      = CostSpec.combK (CostSpec.cFive * v171 (ix2 q l)) (v148 (ix2 q l))
          (max (min (v180 (ix2 q (0 : Fin 1))) (v16 (ix2 (0 : Fin 1) l)) - v189 (ix2 q l)) CostSpec.cZero
            * max (min (v183 (ix2 q (0 : Fin 1))) (v19 (ix2 (0 : Fin 1) l)) - max (v190 (ix2 q l)) (v191 (ix2 q l))) CostSpec.cZero)
          (v186 (ix2 q (0 : Fin 1)) + v22 (ix2 (0 : Fin 1) l)
            - max (min (v180 (ix2 q (0 : Fin 1))) (v16 (ix2 (0 : Fin 1) l)) - v189 (ix2 q l)) CostSpec.cZero
              * max (min (v183 (ix2 q (0 : Fin 1))) (v19 (ix2 (0 : Fin 1) l)) - max (v190 (ix2 q l)) (v191 (ix2 q l))) CostSpec.cZero)
          (max (max (v180 (ix2 q (0 : Fin 1))) (v16 (ix2 (0 : Fin 1) l)) - min (v174 (ix2 q (0 : Fin 1))) (v10 (ix2 (0 : Fin 1) l))) CostSpec.cZero
            * max (max (v183 (ix2 q (0 : Fin 1))) (v19 (ix2 (0 : Fin 1) l)) - min (v177 (ix2 q (0 : Fin 1))) (v13 (ix2 (0 : Fin 1) l))) CostSpec.cZero) := by
  unfold k0_pay43
  simp only [subf_apply, addf_apply, mulf_apply, divf_apply, maximumf_apply, minimumf_apply, broadcast_apply,
    broadcastTo_a1_ab_apply, broadcastTo_1b_ab_apply]
  rfl

/-! ## The class term: the softmax of a row of logits against a column of the table -/

/-- A reduced index of the `[900, 91]` block with the class coordinate put back. -/
theorem lift_row (q : Fin 900) (k : Fin 91) : reduces_S900x91_S900.lift (ix1 q) k = ix2 q k :=
  funext fun a => Fin.ext (by match a with | ⟨0, _⟩ => rfl | ⟨1, _⟩ => rfl)

/-- The row maximum at query `q`: the fold of `max` from −∞ over the row's 91 classes. -/
theorem rowMax_at (v135 : FVec Ideal S900x91 .f32) (q : Fin 900) :
    multiReduction (F := Ideal) .maximumf [1] S900 v135 0xFF800000#32 reduces_S900x91_S900 (.inl rfl) rfl (ix1 q)
      = CostSpec.rowMax (fun k => v135 (ix2 q k)) := by
  refine (Ideal.multiReduction_maximumf_single v135 0xFF800000#32 reduces_S900x91_S900 (.inl rfl) rfl (ix1 q)).trans ?_
  have e : (v135 ∘ reduces_S900x91_S900.lift (ix1 q)) = fun k : Fin 91 => v135 (ix2 q k) :=
    funext fun k => congrArg v135 (lift_row q k)
  rw [e]
  rfl

/-- The row sum at query `q`: the sum over the row's 91 classes. -/
theorem rowSum_at (w : FVec Ideal S900x91 .f32) (q : Fin 900) :
    multiReduction (F := Ideal) .add [1] S900 w 0x00000000#32 reduces_S900x91_S900 (.inl rfl) rfl (ix1 q)
      = ∑ k : Fin 91, w (ix2 q k) := by
  refine (Ideal.multiReduction_add_single w 0x00000000#32 reduces_S900x91_S900 (.inl rfl) rfl (ix1 q)).trans ?_
  exact Finset.sum_congr rfl fun k _ => congrArg w (lift_row q k)

/-! The product's dimension numbers: the left operand's axis 1 against the right operand's axis 0. -/

theorem lhs_dot_0 (i : S900x128.Idx) (c : dot_S900x91_S91x128_S900x128_1_0_0_1_n_n.contr.Idx) :
    (dot_S900x91_S91x128_S900x128_1_0_0_1_n_n.lhsIdx i c 0).val = (i 0).val := by
  unfold DotDims.lhsIdx
  rw [dif_neg (show ¬(0 : Fin S900x91.rank) ∈ dot_S900x91_S91x128_S900x128_1_0_0_1_n_n.lhsBatch by decide),
    dif_pos (show (0 : Fin S900x91.rank) ∈ dot_S900x91_S91x128_S900x128_1_0_0_1_n_n.lhsNonContracting by decide)]
  rfl

theorem lhs_dot_1 (i : S900x128.Idx) (c : dot_S900x91_S91x128_S900x128_1_0_0_1_n_n.contr.Idx) :
    (dot_S900x91_S91x128_S900x128_1_0_0_1_n_n.lhsIdx i c 1).val = (c ⟨0, by decide⟩).val :=
  dot_S900x91_S91x128_S900x128_1_0_0_1_n_n.lhsIdx_val_of_single rfl i c

theorem rhs_dot_0 (i : S900x128.Idx) (c : dot_S900x91_S91x128_S900x128_1_0_0_1_n_n.contr.Idx) :
    (dot_S900x91_S91x128_S900x128_1_0_0_1_n_n.rhsIdx i c 0).val = (c ⟨0, by decide⟩).val :=
  dot_S900x91_S91x128_S900x128_1_0_0_1_n_n.rhsIdx_val_of_single rfl i c

theorem rhs_dot_1 (i : S900x128.Idx) (c : dot_S900x91_S91x128_S900x128_1_0_0_1_n_n.contr.Idx) :
    (dot_S900x91_S91x128_S900x128_1_0_0_1_n_n.rhsIdx i c 1).val = (i 1).val := by
  unfold DotDims.rhsIdx
  rw [dif_neg (show ¬(1 : Fin S91x128.rank) ∈ dot_S900x91_S91x128_S900x128_1_0_0_1_n_n.rhsBatch by decide),
    dif_pos (show (1 : Fin S91x128.rank) ∈ dot_S900x91_S91x128_S900x128_1_0_0_1_n_n.rhsNonContracting by decide)]
  rfl

/-- The product into a zero accumulator at `(q, l)`: row `q` of the left operand against column `l` of the right. -/
theorem matmul_at (L : FVec Ideal S900x91 .bf16) (R : FVec Ideal S91x128 .bf16) (q : Fin 900) (l : Fin 128) :
    matmul dot_S900x91_S91x128_S900x128_1_0_0_1_n_n none L R (constant (F := Ideal) S900x128 .f32 0x00000000#32) (ix2 q l)
      = ∑ k : Fin 91, L (ix2 q k) * R (ix2 k l) := by
  simp only [matmul]
  rw [Ideal.matmul_constant_zero_apply,
    ← Equiv.sum_comp (contrEquiv1 dot_S900x91_S91x128_S900x128_1_0_0_1_n_n 91 rfl rfl).symm]
  refine Finset.sum_congr rfl fun k _ => ?_
  have hk := contrEquiv1_symm_val dot_S900x91_S91x128_S900x128_1_0_0_1_n_n 91 rfl rfl k
  have el : dot_S900x91_S91x128_S900x128_1_0_0_1_n_n.lhsIdx (ix2 q l)
      ((contrEquiv1 dot_S900x91_S91x128_S900x128_1_0_0_1_n_n 91 rfl rfl).symm k) = ix2 q k :=
    funext fun a => Fin.ext (by
      match a with
      | ⟨0, _⟩ => exact lhs_dot_0 _ _
      | ⟨1, _⟩ => exact (lhs_dot_1 _ _).trans hk)
  have er : dot_S900x91_S91x128_S900x128_1_0_0_1_n_n.rhsIdx (ix2 q l)
      ((contrEquiv1 dot_S900x91_S91x128_S900x128_1_0_0_1_n_n 91 rfl rfl).symm k) = ix2 k l :=
    funext fun a => Fin.ext (by
      match a with
      | ⟨0, _⟩ => exact (rhs_dot_0 _ _).trans hk
      | ⟨1, _⟩ => exact rhs_dot_1 _ _)
  rw [el, er]

/-- The class term at `(q, l)`: the softmax of query `q`'s row of logits against column `l` of the table. -/
theorem pay29_at (v1 : FVec Ideal S91x128 .bf16) (v135 : FVec Ideal S900x91 .f32) (q : Fin 900) (l : Fin 128) :
    k0_pay29 v1 v135 (ix2 q l)
      = ∑ k : Fin 91, CostSpec.smax (fun k' => v135 (ix2 q k')) k * v1 (ix2 k l) := by
  unfold k0_pay29
  refine (matmul_at _ v1 q l).trans ?_
  refine Finset.sum_congr rfl fun k _ => ?_
  congr 1
  simp only [truncf_apply, divf_apply, exp_apply, subf_apply, broadcastTo_a1_ab_apply, shapeCast_a_a1_apply]
  rw [rowMax_at v135 q, rowSum_at _ q]
  simp only [exp_apply, subf_apply, broadcastTo_a1_ab_apply, shapeCast_a_a1_apply]
  rw [rowMax_at v135 q]
  rfl

end Entry1

open Entry1

/-! ## The tile of batch entry 1 at a query and a lane -/

theorem piece1_at (x0 : Vec Ideal S2x900x91 .f32) (x1 : Vec Ideal S2x900x4 .f32) (x2 : Vec Ideal S91x128 .bf16) (x3 : Vec Ideal S4x128 .f32)
    (q : Fin 900) (l : Fin 128) :
    piece1 x0 x1 x2 x3 (ix3 0 q l)
      = CostSpec.kernelCost (fun a => x1 (ix3 1 q a)) (fun a => x3 (ix2 a l))
          (∑ k : Fin 91, CostSpec.smax (fun k' => x0 (ix3 1 q k')) k * x2 (ix2 k l)) := by
  unfold piece1
  rw [pay1_at, pay43_at]
  simp only [ld_x2, ld_x3, pay2_eq, pay29_at, pay34_at, pay35_at, pay36_at, pay37_at, pay38_at, pay39_at, pay40_at, pay41_at,
    pay42_at, pay4_at, pay5_at, pay6_at, pay7_at, pay8_at, pay9_at, pay10_at, pay11_at, pay12_at, pay27_ld_at, pay28_ld_at]
  rfl

end Cert.Tile

end
-- ==== Proof.TileValue.lean ====
/-
  The output block after the body, read at (bb, q, l): batch entry bb's tile at (q, l) — the later store covers
  entry 1's half of the block, the earlier one entry 0's — so the cost of query box (bb, q) of the block against the
  target box in lane l.
-/
import proofs.«414192_j90795608637851_3_alg».proof.Proof.Tile0
import proofs.«414192_j90795608637851_3_alg».proof.Proof.Tile1

noncomputable section

namespace Cert.Tile

open Cert.KernelIdeal Cert.KernelIdeal.Gen Idealize.ShloMosaic Idealize.ShloMosaic.TcCoe Idealize.ShloMosaic.ValueIdx

/-- Entry 1's half of the block is the rectangle at offset (1, 0, 0): its index (0, q, l) is the block's (1, q, l). -/
theorem emb_half1 (q : Fin 900) (l : Fin 128) : r0_7.emb (ix3 (0 : Fin 1) q l) = (ix3 (1 : Fin 2) q l : S2x900x128.Idx) := by
  funext a; apply Fin.ext; rw [Rect.emb_apply]
  match a with
  | ⟨0, _⟩ => rfl
  | ⟨1, _⟩ => show 0 + 1 * q.val = q.val; omega
  | ⟨2, _⟩ => show 0 + 1 * l.val = l.val; omega

/-- Entry 0's half is the rectangle at offset (0, 0, 0). -/
theorem emb_half0 (q : Fin 900) (l : Fin 128) : r0_4.emb (ix3 (0 : Fin 1) q l) = (ix3 (0 : Fin 2) q l : S2x900x128.Idx) := by
  funext a; apply Fin.ext; rw [Rect.emb_apply]
  match a with
  | ⟨0, _⟩ => rfl
  | ⟨1, _⟩ => show 0 + 1 * q.val = q.val; omega
  | ⟨2, _⟩ => show 0 + 1 * l.val = l.val; omega

/-- An index of entry 0 is not under the later store. -/
theorem not_mem_half1 (q : Fin 900) (l : Fin 128) : (ix3 (0 : Fin 2) q l : S2x900x128.Idx) ∉ r0_7.set := by
  rw [Rect.mem_set_unit]
  intro h
  have h1 := (h 0).1
  change 1 ≤ 0 at h1
  omega

/-- Two stores that fill the two halves of the block, read at an index of entry 0's half and of entry 1's half. -/
theorem halves_at0 (p1 p0 : Vec Ideal S1x900x128 .f32) (q : Fin 900) (l : Fin 128) :
    View.canon [⟨r0_7, p1⟩, ⟨r0_4, p0⟩] (ix3 (0 : Fin 2) q l) = p0 (ix3 (0 : Fin 1) q l) :=
  (View.canon_cons_of_not_mem (⟨r0_7, p1⟩ : View.Piece (Elt Ideal) S2x900x128 .f32) [⟨r0_4, p0⟩] (not_mem_half1 q l)).trans
    ((congrArg (View.canon [(⟨r0_4, p0⟩ : View.Piece (Elt Ideal) S2x900x128 .f32)]) (emb_half0 q l).symm).trans
      (View.canon_cons_emb r0_4 p0 [] (ix3 (0 : Fin 1) q l)))
theorem halves_at1 (p1 p0 : Vec Ideal S1x900x128 .f32) (q : Fin 900) (l : Fin 128) :
    View.canon [⟨r0_7, p1⟩, ⟨r0_4, p0⟩] (ix3 (1 : Fin 2) q l) = p1 (ix3 (0 : Fin 1) q l) :=
  (congrArg (View.canon [(⟨r0_7, p1⟩ : View.Piece (Elt Ideal) S2x900x128 .f32), ⟨r0_4, p0⟩]) (emb_half1 q l).symm).trans
    (View.canon_cons_emb r0_7 p1 [⟨r0_4, p0⟩] (ix3 (0 : Fin 1) q l))

theorem out0_4_at (x0 : Vec Ideal S2x900x91 .f32) (x1 : Vec Ideal S2x900x4 .f32) (x2 : Vec Ideal S91x128 .bf16) (x3 : Vec Ideal S4x128 .f32)
    (bb : Fin 2) (q : Fin 900) (l : Fin 128) :
    out0_4 x0 x1 x2 x3 (ix3 bb q l)
      = CostSpec.kernelCost (fun a => x1 (ix3 bb q a)) (fun a => x3 (ix2 a l))
          (∑ k : Fin 91, CostSpec.smax (fun k' => x0 (ix3 bb q k')) k * x2 (ix2 k l)) := by
  have hbb : bb = 0 ∨ bb = 1 := by
    rcases bb with ⟨v, hv⟩
    interval_cases v
    · exact Or.inl rfl
    · exact Or.inr rfl
  rcases hbb with rfl | rfl
  · exact (congrFun (out0_4_eq x0 x1 x2 x3) _).trans ((halves_at0 _ _ q l).trans (piece0_at x0 x1 x2 x3 q l))
  · exact (congrFun (out0_4_eq x0 x1 x2 x3) _).trans ((halves_at1 _ _ q l).trans (piece1_at x0 x1 x2 x3 q l))

end Cert.Tile

end
-- ==== Proof.KHost.lean ====
/-
  The two arrays the kernel's host side builds for the region, read at an index: the 0/1 table [91, 1664] — entry
  (k, j) compares target j's label (0 for the 64 padding targets) with class k — and the target boxes transposed,
  [4, 1664] (½ in the padding columns). At a column below 1600 the table's entry is the label's 0/1 column at class k
  and the transposed array's entry (a, j) is target j's a-th number.
-/
import proofs.«414192_j90795608637851_3_alg».proof.Proof.Spec
import proofs.«414192_j90795608637851_3_alg».proof.Proof.Gen.KernelIdeal.Frame
import Idealize.ShloMosaic.Lib.StableHlo.Run
import Idealize.ShloMosaic.Lib.StableHlo.Predicate
import Idealize.ShloMosaic.Lib.ValueLayout
import Idealize.ShloMosaic.Lib.KernelVsHost
import Idealize.ShloMosaic.Lib.SortFacts

noncomputable section

namespace Cert.KHost

open Cert.KernelIdeal Cert.KernelIdeal.Gen Idealize.ShloMosaic Idealize.ShloMosaic.TcCoe Idealize.SL.Sem Idealize.ShloMosaic.StableHlo
open Idealize.ShloMosaic.ValueIdx Cert.CostSpec

variable (m : (ℓ : Loc nD τ sig) → Buf (Elt Ideal) ℓ)

/-- The labels and the target boxes as launched, at their literal types. -/
abbrev labels (c : Dev nD) : IVec S1600 32 := m ((c : Thread nD τ).loc main_arg2)
abbrev tboxes (c : Dev nD) : FVec Ideal S1600x4 .f32 := m ((c : Thread nD τ).loc main_arg3)

/-- The 0/1 table as the region finds it: the padded labels along the columns against the class ids down the rows. -/
theorem V_table (c : Dev nD) : (V m c main_v8 : S91x1664.Idx → EReal)
    = (uitofp .bf16 (cmpi .eq
        (broadcastInDim S91x1664 ![0, 1] bcast_S1x1664_S91x1664_0_1 (broadcastInDim S1x1664 ![1] bcast_S1664_S1x1664_1
          (pad S1664 ![0] ![64] ![0] (labels m c) (constantI S_ 32 0#32) pads_S1600_S1664_0640 h_S_)))
        (broadcastInDim S91x1664 ![0, 1] bcast_S91x1_S91x1664_0_1 (broadcastInDim S91x1 ![0] bcast_S91_S91x1_0 (iotaInDim S91 32 0))))
        : FVec Ideal S91x1664 .bf16) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- The transposed target boxes as the region finds them. -/
theorem V_ttrans (c : Dev nD) : (V m c main_v9 : S4x1664.Idx → EReal)
    = (transpose S4x1664 [1, 0] (pad S1664x4 ![0, 0] ![64, 0] ![0, 0] (tboxes m c) (constant (F := Ideal) S_ .f32 0x3F000000#32)
        pads_S1600x4_S1664x4_0640_000 h_S_) transposes_S1664x4_S4x1664_1_0 : FVec Ideal S4x1664 .f32) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- A padded vector below the operand's length is the operand. -/
theorem pad_labels_at (c : Dev nD) (j : Fin 1664) (hj : j.val < 1600) :
    pad S1664 ![0] ![64] ![0] (labels m c) (constantI S_ 32 0#32) pads_S1600_S1664_0640 h_S_ (Shape.Idx.ofFin j)
      = labels m c (ix1 ⟨j.val, hj⟩) := by
  refine pad_apply_of_inside _ _ _ _ _ _ _ _ (ix1 ⟨j.val, hj⟩) fun a => ?_
  match a with
  | ⟨0, _⟩ => show j.val = 0 + j.val * (0 + 1); omega

/-- THE TABLE AT (k, j), j a real target: the 0/1 column of target j's label at class k. -/
theorem table_at (c : Dev nD) (k : Fin 91) (j : Fin 1664) (hj : j.val < 1600) :
    (V m c main_v8 : S91x1664.Idx → EReal) (ix2 k j) = hot (labels m c (ix1 ⟨j.val, hj⟩)) k := by
  rw [V_table]
  show (((IntOp.cmpi .eq _ _ : BitVec 1).toNat : ℝ) : EReal) = _
  unfold hot
  have e1 := Predicate.bcast_cols bcast_S1664_S1x1664_1 bcast_S1x1664_S91x1664_0_1
    (pad S1664 ![0] ![64] ![0] (labels m c) (constantI S_ 32 0#32) pads_S1600_S1664_0640 h_S_) k j
  have e2 := Predicate.bcast_rows bcast_S91_S91x1_0 bcast_S91x1_S91x1664_0_1 (iotaInDim S91 32 0) k j
  have hij : (Predicate.ij k j : S91x1664.Idx) = ix2 k j := by
    funext a; match a with | ⟨0, _⟩ => rfl | ⟨1, _⟩ => rfl
  rw [hij] at e1 e2
  rw [e1, e2, pad_labels_at m c j hj, Predicate.iota_apply]

/-- THE TRANSPOSED BOXES AT (a, j), j a real target: target j's a-th number. -/
theorem ttrans_at (c : Dev nD) (a : Fin 4) (j : Fin 1664) (hj : j.val < 1600) :
    (V m c main_v9 : S4x1664.Idx → EReal) (ix2 a j) = tboxes m c (ix2 ⟨j.val, hj⟩ a) := by
  rw [V_ttrans, transpose_ix2_apply]
  refine pad_apply_of_inside _ _ _ _ _ _ _ _ (ix2 ⟨j.val, hj⟩ a) fun d => ?_
  match d with
  | ⟨0, _⟩ => show j.val = 0 + j.val * (0 + 1); omega
  | ⟨1, _⟩ => show a.val = 0 + a.val * (0 + 1); omega

end Cert.KHost

end
-- ==== Proof.KValue.lean ====
/-
  The kernel's result array after the run is the cost matrix `G` of the four inputs.

  Grid point t = (batch tile, target tile) stages two batch entries of the logits and of the query boxes, 128 columns
  of the 0/1 table and 128 columns of the transposed target boxes, and writes back the part of its [2, 900, 128] block
  of costs that lies inside the [16, 900, 1600] array (the last target tile has 64 columns inside). An index of that
  part is (2·tb + bb, q, 128·tm + l); there the block holds the cost of query box (2·tb + bb, q) against the target
  box in column 128·tm + l, a column below 1600, where the table holds the target's own label's 0/1 column and the
  transposed boxes the target's own numbers. So every point writes back its block of `G`; every index of the array is
  in the block of the point (b / 2, m / 128); hence the array ends holding `G`.
-/
import proofs.«414192_j90795608637851_3_alg».proof.Proof.Cost
import proofs.«414192_j90795608637851_3_alg».proof.Proof.TileValue
import proofs.«414192_j90795608637851_3_alg».proof.Proof.KHost
import proofs.«414192_j90795608637851_3_alg».proof.Proof.Gen.KernelIdeal.Value

noncomputable section

namespace Cert.KValue

open Cert.KernelIdeal Cert.KernelIdeal.Gen Idealize.ShloMosaic Idealize.ShloMosaic.TcCoe Idealize.SL.Sem
open Idealize.ShloMosaic.Pipeline (Dat)
open Idealize.ShloMosaic.ValueIdx Cert.CostSpec Cert.KHost

variable (m : (ℓ : Loc nD τ sig) → Buf (Elt Ideal) ℓ) (ρ : Dev nD → PrngReg)

/-- The logits and the query boxes as launched, at their literal types. -/
abbrev logits (c : Dev nD) : FVec Ideal S16x900x91 .f32 := m ((c : Thread nD τ).loc main_arg0)
abbrev qboxes (c : Dev nD) : FVec Ideal S16x900x4 .f32 := m ((c : Thread nD τ).loc main_arg1)

/-- The cost matrix of the inputs as launched. -/
abbrev GArr (c : Dev nD) : S16x900x1600.Idx → EReal := G (logits m c) (qboxes m c) (labels m c) (tboxes m c)

/-- The printed index maps, decided over the 104 grid points: the two batch-blocked inputs move with the output's batch
    tile, the two target-blocked inputs with its target tile; and the part of the output block inside the array. -/
theorem idx_facts : ∀ t : Fin cfg0.N,
    win0_0.index t (0 : Fin 3) = win0_4.index t (0 : Fin 3) ∧ win0_0.index t (1 : Fin 3) = 0 ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 2) = 0 ∧ win0_2.index t (1 : Fin 2) = win0_4.index t (2 : Fin 3)
    ∧ win0_3.index t (0 : Fin 2) = 0 ∧ win0_3.index t (1 : Fin 2) = win0_4.index t (2 : Fin 3)
    ∧ win0_4.index t (1 : Fin 3) = 0 ∧ win0_4.index t (0 : Fin 3) ≤ 7 ∧ win0_4.index t (2 : Fin 3) ≤ 12
    ∧ win0_4.xsize (grid0.coords t) (0 : Fin 3) = 2 ∧ win0_4.xsize (grid0.coords t) (1 : Fin 3) = 900
    ∧ win0_4.index t (2 : Fin 3) * 128 + win0_4.xsize (grid0.coords t) (2 : Fin 3) = min 1600 (win0_4.index t (2 : Fin 3) * 128 + 128) :=
  (by decide +kernel : ∀ t : Fin grid0.N, _)

/-- Every (batch tile, target tile) is some point's. -/
theorem idx_onto : ∀ (q0 : Fin 8) (q2 : Fin 13), ∃ t : Fin cfg0.N, win0_4.index t = ![q0.val, 0, q2.val] :=
  (by decide +kernel : ∀ (q0 : Fin 8) (q2 : Fin 13), ∃ t : Fin grid0.N, win0_4.index t = ![q0.val, 0, q2.val])

/-- The four staged blocks at point `t`, at their literal types. -/
abbrev blk0 (c : Dev nD) (t : Fin cfg0.N) : Vec Ideal S2x900x91 .f32 := iblk m c 0 t
abbrev blk1 (c : Dev nD) (t : Fin cfg0.N) : Vec Ideal S2x900x4 .f32 := iblk m c 1 t
abbrev blk2 (c : Dev nD) (t : Fin cfg0.N) : Vec Ideal S91x128 .bf16 := iblk m c 2 t
abbrev blk3 (c : Dev nD) (t : Fin cfg0.N) : Vec Ideal S4x128 .f32 := iblk m c 3 t

/-- The logits block at (bb, q, k) is the logits of batch entry `2·tb + bb`. -/
theorem blk0_at (c : Dev nD) (t : Fin cfg0.N) (bb : Fin 2) (q : Fin 900) (k : Fin 91) (b : Fin 16)
    (hb : b.val = win0_4.index t (0 : Fin 3) * 2 + bb.val) :
    blk0 m c t (ix3 bb q k) = logits m c (ix3 b q k) := by
  obtain ⟨e00, e01, e02, -⟩ := idx_facts t
  show V m c main_arg0 (((cfg0.win 0).blk t).view.emb (ix3 bb q k)) = _
  rw [V_main_arg0]
  refine congrArg (logits m c) (funext fun d => Fin.ext ?_)
  match d with
  | ⟨0, _⟩ => show win0_0.index t (0 : Fin 3) * 2 + 1 * bb.val = b.val; omega
  | ⟨1, _⟩ => show win0_0.index t (1 : Fin 3) * 900 + 1 * q.val = q.val; omega
  | ⟨2, _⟩ => show win0_0.index t (2 : Fin 3) * 91 + 1 * k.val = k.val; omega

/-- The query-box block likewise. -/
theorem blk1_at (c : Dev nD) (t : Fin cfg0.N) (bb : Fin 2) (q : Fin 900) (a : Fin 4) (b : Fin 16)
    (hb : b.val = win0_4.index t (0 : Fin 3) * 2 + bb.val) :
    blk1 m c t (ix3 bb q a) = qboxes m c (ix3 b q a) := by
  obtain ⟨-, -, -, e10, e11, e12, -⟩ := idx_facts t
  show V m c main_arg1 (((cfg0.win 1).blk t).view.emb (ix3 bb q a)) = _
  rw [V_main_arg1]
  refine congrArg (qboxes m c) (funext fun d => Fin.ext ?_)
  match d with
  | ⟨0, _⟩ => show win0_1.index t (0 : Fin 3) * 2 + 1 * bb.val = b.val; omega
  | ⟨1, _⟩ => show win0_1.index t (1 : Fin 3) * 900 + 1 * q.val = q.val; omega
  | ⟨2, _⟩ => show win0_1.index t (2 : Fin 3) * 4 + 1 * a.val = a.val; omega

/-- The table block at (k, l) is the 0/1 column of target `128·tm + l`'s label, a real target. -/
theorem blk2_at (c : Dev nD) (t : Fin cfg0.N) (k : Fin 91) (l : Fin 128) (mm : Fin 1600)
    (hm : mm.val = win0_4.index t (2 : Fin 3) * 128 + l.val) :
    blk2 m c t (ix2 k l) = hot (labels m c (ix1 mm)) k := by
  obtain ⟨-, -, -, -, -, -, e20, e21, -⟩ := idx_facts t
  have hlt := mm.isLt
  show (V m c main_v8 : S91x1664.Idx → EReal) (((cfg0.win 2).blk t).view.emb (ix2 k l)) = _
  have he : ((cfg0.win 2).blk t).view.emb (ix2 k l) = (ix2 k (⟨mm.val, by omega⟩ : Fin 1664) : S91x1664.Idx) := by
    funext d; apply Fin.ext
    match d with
    | ⟨0, _⟩ => show win0_2.index t (0 : Fin 2) * 91 + 1 * k.val = k.val; omega
    | ⟨1, _⟩ => show win0_2.index t (1 : Fin 2) * 128 + 1 * l.val = mm.val; omega
  rw [he, table_at m c k _ hlt]

/-- The transposed-box block at (a, l) is target `128·tm + l`'s a-th number. -/
theorem blk3_at (c : Dev nD) (t : Fin cfg0.N) (a : Fin 4) (l : Fin 128) (mm : Fin 1600)
    (hm : mm.val = win0_4.index t (2 : Fin 3) * 128 + l.val) :
    blk3 m c t (ix2 a l) = tboxes m c (ix2 mm a) := by
  obtain ⟨-, -, -, -, -, -, -, -, e30, e31, -⟩ := idx_facts t
  have hlt := mm.isLt
  show (V m c main_v9 : S4x1664.Idx → EReal) (((cfg0.win 3).blk t).view.emb (ix2 a l)) = _
  have he : ((cfg0.win 3).blk t).view.emb (ix2 a l) = (ix2 a (⟨mm.val, by omega⟩ : Fin 1664) : S4x1664.Idx) := by
    funext d; apply Fin.ext
    match d with
    | ⟨0, _⟩ => show win0_3.index t (0 : Fin 2) * 4 + 1 * a.val = a.val; omega
    | ⟨1, _⟩ => show win0_3.index t (1 : Fin 2) * 128 + 1 * l.val = mm.val; omega
  rw [he, ttrans_at m c a _ hlt]

/-- The output block after the body at (bb, q, l) is the cost matrix at (2·tb + bb, q, 128·tm + l). -/
theorem tile_at (c : Dev nD) (t : Fin cfg0.N) (bb : Fin 2) (q : Fin 900) (l : Fin 128) (b : Fin 16) (mm : Fin 1600)
    (hb : b.val = win0_4.index t (0 : Fin 3) * 2 + bb.val) (hm : mm.val = win0_4.index t (2 : Fin 3) * 128 + l.val) :
    out0_4 (blk0 m c t) (blk1 m c t) (blk2 m c t) (blk3 m c t) (ix3 bb q l) = GArr m c (ix3 b q mm) := by
  refine (Tile.out0_4_at (blk0 m c t) (blk1 m c t) (blk2 m c t) (blk3 m c t) bb q l).trans ?_
  show kernelCost (fun a => blk1 m c t (ix3 bb q a)) (fun a => blk3 m c t (ix2 a l))
      (∑ k : Fin 91, smax (fun k' => blk0 m c t (ix3 bb q k')) k * blk2 m c t (ix2 k l))
    = kernelCost (fun a => qboxes m c (ix3 b q a)) (fun a => tboxes m c (ix2 mm a))
      (∑ k : Fin 91, smax (fun k' => logits m c (ix3 b q k')) k * hot (labels m c (ix1 mm)) k)
  have h1 : (fun a => blk1 m c t (ix3 bb q a)) = fun a => qboxes m c (ix3 b q a) :=
    funext fun a => blk1_at m c t bb q a b hb
  have h3 : (fun a => blk3 m c t (ix2 a l)) = fun a => tboxes m c (ix2 mm a) :=
    funext fun a => blk3_at m c t a l mm hm
  have h0 : (fun k' => blk0 m c t (ix3 bb q k')) = fun k' => logits m c (ix3 b q k') :=
    funext fun k' => blk0_at m c t bb q k' b hb
  have h2 : ∀ k : Fin 91, blk2 m c t (ix2 k l) = hot (labels m c (ix1 mm)) k := fun k => blk2_at m c t k l mm hm
  rw [h1, h3, h0]
  simp only [h2]

/-- WHAT POINT `t` WRITES BACK is its block of the cost matrix. -/
theorem flushed_eq (c : Dev nD) (t : Fin cfg0.N) :
    (dats m 0 c).flushed 4 t = ((cfg0.win 4).blk t).view.read (Elt Ideal) (GArr m c) := by
  rw [Value.flushed4]
  obtain ⟨-, -, -, -, -, -, -, -, -, -, e41, e40, e42, x0, x1, x2⟩ := idx_facts t
  funext j
  have hj0 : (j 0).val < 2 := by
    have h : (j 0).val < win0_4.xsize (grid0.coords t) (0 : Fin 3) := (j 0).isLt
    omega
  have hj1 : (j 1).val < 900 := by
    have h : (j 1).val < win0_4.xsize (grid0.coords t) (1 : Fin 3) := (j 1).isLt
    omega
  have hj2 : (j 2).val < win0_4.xsize (grid0.coords t) (2 : Fin 3) := (j 2).isLt
  have hj2' : (j 2).val < 128 := by omega
  -- the index inside the block, and the array index it is written to
  have hy : (cfg0.win 4).xinj (grid0.coords t) j
      = (ix3 (⟨(j 0).val, hj0⟩ : Fin 2) (⟨(j 1).val, hj1⟩ : Fin 900) (⟨(j 2).val, hj2'⟩ : Fin 128) : S2x900x128.Idx) := by
    funext a; apply Fin.ext
    match a with
    | ⟨0, _⟩ => rfl
    | ⟨1, _⟩ => rfl
    | ⟨2, _⟩ => rfl
  have i0 : ((((cfg0.win 4).blk t).view.emb j) 0).val = win0_4.index t (0 : Fin 3) * 2 + 1 * (j 0).val := rfl
  have i1 : ((((cfg0.win 4).blk t).view.emb j) 1).val = win0_4.index t (1 : Fin 3) * 900 + 1 * (j 1).val := rfl
  have i2 : ((((cfg0.win 4).blk t).view.emb j) 2).val = win0_4.index t (2 : Fin 3) * 128 + 1 * (j 2).val := rfl
  have hi : (((cfg0.win 4).blk t).view.emb j : S16x900x1600.Idx)
      = ix3 ((((cfg0.win 4).blk t).view.emb j) 0) (⟨(j 1).val, hj1⟩ : Fin 900) ((((cfg0.win 4).blk t).view.emb j) 2) := by
    funext a; apply Fin.ext
    match a with
    | ⟨0, _⟩ => rfl
    | ⟨1, _⟩ => show ((((cfg0.win 4).blk t).view.emb j) 1).val = (j 1).val; rw [i1]; omega
    | ⟨2, _⟩ => rfl
  show out0_4 (blk0 m c t) (blk1 m c t) (blk2 m c t) (blk3 m c t) ((cfg0.win 4).xinj (grid0.coords t) j)
    = GArr m c (((cfg0.win 4).blk t).view.emb j)
  rw [hy, hi]
  refine tile_at m c t _ _ _ _ _ ?_ ?_
  · show ((((cfg0.win 4).blk t).view.emb j) 0).val = win0_4.index t (0 : Fin 3) * 2 + (j 0).val
    rw [i0]; omega
  · show ((((cfg0.win 4).blk t).view.emb j) 2).val = win0_4.index t (2 : Fin 3) * 128 + (j 2).val
    rw [i2]; omega

/-- An index of the array is in point `t`'s block iff each coordinate is in the block's range inside the array. -/
theorem mem_blk (t : Fin cfg0.N) (i : S16x900x1600.Idx) :
    i ∈ ((cfg0.win 4).blk t).view.set ↔ ∀ a : Fin 3, win0_4.index t a * S2x900x128.size a ≤ (i a).val
      ∧ (i a).val < win0_4.index t a * S2x900x128.size a + win0_4.xsize (grid0.coords t) a := by
  show i ∈ ((View.whole main_v10).slice (win0_4.rect t)).set ↔ _
  rw [View.set_slice_whole, Rect.mem_set_unit]
  exact Iff.rfl

/-- Every index of the array is in the block of the point (b / 2, m / 128). -/
theorem cover (i : S16x900x1600.Idx) : ∃ t : Fin cfg0.N, (cfg0.win 4).flush t = true ∧ i ∈ ((cfg0.win 4).blk t).view.set := by
  have hi0 : (i 0).val < 16 := (i 0).isLt
  have hi1 : (i 1).val < 900 := (i 1).isLt
  have hi2 : (i 2).val < 1600 := (i 2).isLt
  obtain ⟨t, ht⟩ := idx_onto ⟨(i 0).val / 2, by omega⟩ ⟨(i 2).val / 128, by omega⟩
  have q0 : win0_4.index t (0 : Fin 3) = (i 0).val / 2 := congrFun ht 0
  have q1 : win0_4.index t (1 : Fin 3) = 0 := congrFun ht 1
  have q2 : win0_4.index t (2 : Fin 3) = (i 2).val / 128 := congrFun ht 2
  obtain ⟨e00, e01, e02, e10, e11, e12, e20, e21, e30, e31, e41, e40, e42, x0, x1, x2⟩ := idx_facts t
  refine ⟨t, flush0_4 t, ?_⟩
  rw [mem_blk]
  intro a
  match a with
  | ⟨0, _⟩ => show win0_4.index t (0 : Fin 3) * 2 ≤ (i 0).val ∧ (i 0).val < win0_4.index t (0 : Fin 3) * 2 + win0_4.xsize (grid0.coords t) (0 : Fin 3); omega
  | ⟨1, _⟩ => show win0_4.index t (1 : Fin 3) * 900 ≤ (i 1).val ∧ (i 1).val < win0_4.index t (1 : Fin 3) * 900 + win0_4.xsize (grid0.coords t) (1 : Fin 3); omega
  | ⟨2, _⟩ => show win0_4.index t (2 : Fin 3) * 128 ≤ (i 2).val ∧ (i 2).val < win0_4.index t (2 : Fin 3) * 128 + win0_4.xsize (grid0.coords t) (2 : Fin 3); omega

/-- THE RESULT ARRAY after the run is the cost matrix of the inputs. -/
theorem final (c : Dev nD) : (dats m 0 c).arrAt 4 cfg0.N = GArr m c :=
  (dats m 0 c).arrAt_eq_of_cover 4 (GArr m c) (fun t _ => flushed_eq m c t) (cover)

/-- The run, re-posted: the result at the cost matrix, the four inputs unchanged. -/
theorem run : θ_run defs (onTc (τ := τ) (main (F := Ideal))) ⟨m, fun _ => 0, ρ⟩ fun r => ∀ c : Dev nD,
      r.2.mem ((c : Thread nD τ).loc main_v10) = GArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KValue

end
-- ==== Proof.LibGatherCols.lean ====
/-
  A gather of whole columns of a rank-2 table, read at an index.

  What `x[:, idx]` of a table `x : [N, C]` at a vector of integers `idx : [R]` is as a gather (StableHLO's `gather`, the
  function `Host.gather`): offset_dims `[0]`, collapsed_slice_dims `[1]`, start_index_map `[1]`, index_vector_dim `1` and
  slice_sizes `[N, 1]` over the indices as `[R, 1]`. Result element `(n, r)` is the table at row `n` and at the column
  `idx[r, 0]`, the start word read as a signed integer and clamped into `[0, C − 1]`, as the gather clamps every start
  index so that the slice fits: on the column axis the slice has one column, so the start may be any column; on the row
  axis the slice is the whole column, the start index map does not name it, and the offset coordinate is the result's
  row.
-/
import Idealize.ShloMosaic.Lib.ValueIdx

noncomputable section

namespace Cert.Lib.GatherCols

open Idealize.ShloMosaic Idealize.ShloMosaic.ValueIdx

/-- The dimension numbers of a gather of whole columns: an operand `[N, C]`, start indices `[R, 1]` and a result
    `[N, R]`; the column axis is collapsed and is the one the start index names, the row axis is the result's offset
    axis, and a slice is one column. -/
abbrev colDims (N R C : Nat)
    (wf : GatherDims.WF ⟨2, ![N, C]⟩ ⟨2, ![R, 1]⟩ ⟨2, ![N, R]⟩ [0] [1] [] [1] [] 1 ![N, 1]) :
    GatherDims ⟨2, ![N, C]⟩ ⟨2, ![R, 1]⟩ ⟨2, ![N, R]⟩ where
  offsetDims := [0]
  collapsedSliceDims := [1]
  operandBatchingDims := []
  startIndicesBatchingDims := []
  startIndexMap := [1]
  indexVectorDim := 1
  sliceSizes := ![N, 1]
  wf := wf

/-- The start-indices index that result index `(n, r)` reads its one start word at: `(r, 0)`, whatever the row. -/
theorem colDims_siIdx {N R C : Nat}
    (wf : GatherDims.WF ⟨2, ![N, C]⟩ ⟨2, ![R, 1]⟩ ⟨2, ![N, R]⟩ [0] [1] [] [1] [] 1 ![N, 1]) (n : Fin N) (r : Fin R) :
    (colDims N R C wf).siIdx (ix2 n r) ⟨List.idxOf (1 : Fin 2) (colDims N R C wf).startIndexMap,
        List.idxOf_lt_length_iff.2 (List.mem_singleton.mpr rfl)⟩ = ix2 r (0 : Fin 1) := by
  funext b
  refine Fin.ext ?_
  match b with
  | ⟨0, _⟩ => rfl
  | ⟨1, _⟩ => rfl

/-- THE GATHER OF COLUMNS READ AT `(n, r)`: the table at row `n` and at the column of the start word `idx[r, 0]`, read
    signed and clamped into `[0, C − 1]`. -/
theorem gather_col_apply {α : Type} {N R C w : Nat} (hC : 0 < C)
    (wf : GatherDims.WF ⟨2, ![N, C]⟩ ⟨2, ![R, 1]⟩ ⟨2, ![N, R]⟩ [0] [1] [] [1] [] 1 ![N, 1])
    (x : (⟨2, ![N, C]⟩ : Shape).Idx → α) (idx : IVec ⟨2, ![R, 1]⟩ w) (n : Fin N) (r : Fin R) :
    Host.gather (colDims N R C wf) x idx (ix2 n r)
      = x (ix2 n ⟨min (idx (ix2 r (0 : Fin 1))).toInt.toNat (C - 1), by omega⟩) := by
  unfold Host.gather
  congr 1
  funext a
  refine Fin.ext ?_
  have h01 : ¬ (0 : Fin 2) = 1 := by decide
  match a with
  | ⟨0, _⟩ =>
    -- the row axis: no start (the start index map does not name it), no batching coordinate, the offset `n`
    show (colDims N R C wf).start (ix2 n r) idx 0 + (colDims N R C wf).batchCoord (ix2 n r) 0
      + (colDims N R C wf).offCoord (ix2 n r) 0 = n.val
    rw [GatherDims.batchCoord_eq_zero _ _ _ List.not_mem_nil]
    unfold GatherDims.start
    rw [dif_neg (show ¬ (0 : Fin 2) ∈ (colDims N R C wf).startIndexMap from fun h => h01 (List.mem_singleton.mp h))]
    simp only [Nat.add_zero, Nat.zero_add]
    unfold GatherDims.offCoord
    rw [dif_pos (show (0 : Fin 2) ∈ (colDims N R C wf).sKept from
      (GatherDims.mem_sKept _ _).mpr ⟨fun h => h01 (List.mem_singleton.mp h), List.not_mem_nil⟩)]
    rfl
  | ⟨1, _⟩ =>
    -- the column axis: the clamped start word, no batching coordinate, no offset (the axis is collapsed)
    show (colDims N R C wf).start (ix2 n r) idx 1 + (colDims N R C wf).batchCoord (ix2 n r) 1
      + (colDims N R C wf).offCoord (ix2 n r) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims N R C wf).startIndexMap from List.mem_singleton.mpr rfl),
      colDims_siIdx wf n r]
    rfl

end Cert.Lib.GatherCols

end
-- ==== Proof.RefClass.lean ====
/-
  The reference's class term: at row `900·b + q` and target `m` it is minus the softmax of query (b, q)'s logits at
  target `m`'s label, when that label is a class id (then neither the wrap of a negative index nor the clamp moves it).
-/
import proofs.«414192_j90795608637851_3_alg».proof.Proof.Spec
import proofs.«414192_j90795608637851_3_alg».proof.Proof.LibGatherCols
import proofs.«414192_j90795608637851_3_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

namespace Cert.RefRead

open Cert.ReferenceIdeal Cert.ReferenceIdeal.Gen Cert.ReferenceIdeal.Read Idealize.ShloMosaic Idealize.ShloMosaic.TcCoe
open Idealize.ShloMosaic.ValueIdx Cert.CostSpec Cert.Lib.GatherCols

/-! ## The reference's gather, the label and the softmax, each at an index -/

/-- The reference's gather is a gather of columns of the `[14400, 91]` table at `[1600, 1]` start indices. -/
theorem gatherRec_eq : gather_S14400x91_S1600x1_S14400x1600_0_1_n_n_1_1_144001
    = colDims 14400 1600 91 Facts₀.gather_S14400x91_S1600x1_S14400x1600_0_1_n_n_1_1_144001_wf := rfl

theorem v19_at (x0 : (⟨S16x900x91, .f32⟩ : BufTy).Contents (Elt Ideal)) (x2 : (⟨S1600, .i32⟩ : BufTy).Contents (Elt Ideal))
    (n : Fin 14400) (r : Fin 1600) :
    val_main_v19 (F := Ideal) x0 x2 (ix2 n r)
      = val_main_v11 (F := Ideal) x0 (ix2 n ⟨min (val_main_v18 (F := Ideal) x2 (ix2 r (0 : Fin 1))).toInt.toNat (91 - 1), by omega⟩) := by
  unfold val_main_v19
  rw [gatherRec_eq]
  exact gather_col_apply (by decide) _ _ _ n r

theorem label_at (x2 : (⟨S1600, .i32⟩ : BufTy).Contents (Elt Ideal)) (r : Fin 1600) (hl : (x2 (ix1 r)).toNat < 91) :
    val_main_v18 (F := Ideal) x2 (ix2 r (0 : Fin 1)) = x2 (ix1 r) := by
  rw [val_main_v18_apply]
  have hi : idx_main_v18 (ix2 r (0 : Fin 1)) = ix1 r := by
    funext a; match a with | ⟨0, _⟩ => rfl
  rw [hi, val_main_v17_apply, val_main_v14_apply, val_main_v13_apply, val_main_c_apply]
  have hc : IntOp.cmpi .slt (x2 (ix1 r)) 0#32 = 0#1 := eq_zero_of_ne_one (fun h => by
    have h' := (StableHlo.Predicate.slt_iff_toNat (a := x2 (ix1 r)) (b := 0#32) (by omega) (by decide)).1 h
    have h0 : (0#32 : BitVec 32).toNat = 0 := rfl
    omega)
  rw [hc, select_zero]

/-- The reference's gather at `(n, r)` for a label that is a class id: the table at row `n` and the label's column
    (the wrap of a negative index does not fire, the signed read is the label, the clamp into `[0, 90]` is the identity). -/
theorem v19_label (x0 : (⟨S16x900x91, .f32⟩ : BufTy).Contents (Elt Ideal)) (x2 : (⟨S1600, .i32⟩ : BufTy).Contents (Elt Ideal))
    (n : Fin 14400) (r : Fin 1600) (hl : (x2 (ix1 r)).toNat < 91) :
    val_main_v19 (F := Ideal) x0 x2 (ix2 n r) = val_main_v11 (F := Ideal) x0 (ix2 n ⟨(x2 (ix1 r)).toNat, hl⟩) := by
  have hcol : (⟨min (val_main_v18 (F := Ideal) x2 (ix2 r (0 : Fin 1))).toInt.toNat (91 - 1), by omega⟩ : Fin 91)
      = ⟨(x2 (ix1 r)).toNat, hl⟩ := by
    refine Fin.ext ?_
    show min (val_main_v18 (F := Ideal) x2 (ix2 r (0 : Fin 1))).toInt.toNat (91 - 1) = (x2 (ix1 r)).toNat
    rw [label_at x2 r hl, StableHlo.Predicate.toInt_eq_toNat_of_lt (by omega), Int.toNat_natCast]
    omega
  rw [v19_at, hcol]

/-- The logits as `[14400, 91]`: row `900·b + q` is query `(b, q)`. -/
theorem v0_at (x0 : (⟨S16x900x91, .f32⟩ : BufTy).Contents (Elt Ideal)) (b : Fin 16) (q : Fin 900) (k : Fin 91) :
    val_main_v0 (F := Ideal) x0 (ix2 (rowOf b q) k) = x0 (ix3 b q k) := by
  rw [val_main_v0_apply]
  congr 1
  funext a
  refine Fin.ext ?_
  have hb := b.isLt; have hq := q.isLt; have hk := k.isLt
  match a with
  | ⟨0, _⟩ => show ((b.val * 900 + q.val) * 91 + k.val) / 81900 = b.val; omega
  | ⟨1, _⟩ => show ((b.val * 900 + q.val) * 91 + k.val) / 91 % 900 = q.val; omega
  | ⟨2, _⟩ => show ((b.val * 900 + q.val) * 91 + k.val) % 91 = k.val; omega

/-- The reduction by `max` over the class axis from −∞, at row `900·b + q`: the row's maximum. -/
theorem v1_at (x0 : (⟨S16x900x91, .f32⟩ : BufTy).Contents (Elt Ideal)) (b : Fin 16) (q : Fin 900) :
    val_main_v1 (F := Ideal) x0 (ix1 (rowOf b q)) = rowMax (fun k => x0 (ix3 b q k)) := by
  unfold val_main_v1
  rw [Host.reduce_eq_fold_single FloatOps.maximumf _ _ Facts₀.reducesTo_S14400x91_S14400_d1 (by decide) Facts₀.h_S_]
  unfold rowMax
  show (Finset.univ : Finset (Fin 91)).fold max cNegInf _ = (Finset.univ : Finset (Fin 91)).fold max cNegInf _
  have hi : ∀ k : Fin 91, Shape.Reduces.lift (s := S14400x91) (t := S14400) (a := 1) (by decide) (ix1 (rowOf b q)) k
      = ix2 (rowOf b q) k := by
    intro k; funext c; refine Fin.ext ?_
    match c with
    | ⟨0, _⟩ => rfl
    | ⟨1, _⟩ => rfl
  congr 1
  funext k
  exact (congrArg (val_main_v0 (F := Ideal) x0) (hi k)).trans (v0_at x0 b q k)

/-- The row maximum broadcast back over the classes, at `(900·b + q, k)`. -/
theorem v5_at (x0 : (⟨S16x900x91, .f32⟩ : BufTy).Contents (Elt Ideal)) (b : Fin 16) (q : Fin 900) (k : Fin 91) :
    val_main_v5 (F := Ideal) x0 (ix2 (rowOf b q) k) = rowMax (fun k => x0 (ix3 b q k)) := by
  rw [val_main_v5_apply, val_main_v4_apply, val_main_v3_apply, val_main_v2_apply, val_main_cst_0_apply]
  have hi : idx_main_v4 (idx_main_v5 (ix2 (rowOf b q) k)) = ix1 (rowOf b q) := by
    funext a; match a with | ⟨0, _⟩ => rfl
  rw [hi, v1_at]
  exact max_negInf_rowMax _

/-- The exponential of the logit less the row's maximum, at `(900·b + q, k)`. -/
theorem v7_at (x0 : (⟨S16x900x91, .f32⟩ : BufTy).Contents (Elt Ideal)) (b : Fin 16) (q : Fin 900) (k : Fin 91) :
    val_main_v7 (F := Ideal) x0 (ix2 (rowOf b q) k)
      = Ideal.exp (x0 (ix3 b q k) - rowMax (fun k => x0 (ix3 b q k))) := by
  rw [val_main_v7_apply, val_main_v6_apply, v0_at, v5_at]
  rfl

/-- The sum of the exponentials over the classes, broadcast back, at `(900·b + q, k)`. -/
theorem v10_at (x0 : (⟨S16x900x91, .f32⟩ : BufTy).Contents (Elt Ideal)) (b : Fin 16) (q : Fin 900) (k : Fin 91) :
    val_main_v10 (F := Ideal) x0 (ix2 (rowOf b q) k)
      = ∑ j : Fin 91, Ideal.exp (x0 (ix3 b q j) - rowMax (fun k => x0 (ix3 b q k))) := by
  rw [val_main_v10_apply, val_main_v9_apply]
  have hi : idx_main_v9 (idx_main_v10 (ix2 (rowOf b q) k)) = ix1 (rowOf b q) := by
    funext a; match a with | ⟨0, _⟩ => rfl
  rw [hi, val_main_v8_apply]
  have hz : (val_main_cst_1 (F := Ideal)) (Shape.Idx.first Facts₀.h_S_) = (0 : EReal) := cZero_eq.trans EReal.coe_zero
  rw [hz, zero_add]
  refine Finset.sum_congr rfl fun j _ => ?_
  have hj : idx_main_v8 (ix1 (rowOf b q)) j = ix2 (rowOf b q) j := by
    funext a; match a with | ⟨0, _⟩ => rfl | ⟨1, _⟩ => rfl
  rw [hj, v7_at]

/-- The softmax table at `(900·b + q, k)`. -/
theorem v11_at (x0 : (⟨S16x900x91, .f32⟩ : BufTy).Contents (Elt Ideal)) (b : Fin 16) (q : Fin 900) (k : Fin 91) :
    val_main_v11 (F := Ideal) x0 (ix2 (rowOf b q) k) = smax (fun k => x0 (ix3 b q k)) k := by
  rw [val_main_v11_apply, v7_at, v10_at]
  rfl

theorem neg_prob_at (x0 : (⟨S16x900x91, .f32⟩ : BufTy).Contents (Elt Ideal)) (x2 : (⟨S1600, .i32⟩ : BufTy).Contents (Elt Ideal))
    (b : Fin 16) (q : Fin 900) (mm : Fin 1600) (hl : (x2 (ix1 mm)).toNat < 91) :
    val_main_v20 (F := Ideal) x0 x2 (ix2 (rowOf b q) mm)
      = -(smax (fun k => x0 (ix3 b q k)) ⟨(x2 (ix1 mm)).toNat, hl⟩) := by
  rw [val_main_v20_apply, v19_label x0 x2 (rowOf b q) mm hl, v11_at]
  rfl

end Cert.RefRead

end
-- ==== Proof.RefBoxes.lean ====
/-
  The reference's box terms at row `900·b + q` and target `m`: five times the ℓ¹ distance of query box (b, q) and
  target box `m`, and minus their generalized IoU, each in the reference's own arrangement.
-/
import proofs.«414192_j90795608637851_3_alg».proof.Proof.Spec
import proofs.«414192_j90795608637851_3_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

namespace Cert.RefRead

open Cert.ReferenceIdeal Cert.ReferenceIdeal.Gen Cert.ReferenceIdeal.Read Idealize.ShloMosaic Idealize.ShloMosaic.TcCoe
open Idealize.ShloMosaic.ValueIdx Cert.CostSpec

/-! ## Indices by their coordinates -/

/-- Two rank-1 indices with the same coordinate are equal. -/
theorem idx1_ext {n0 : Nat} (i j : (⟨1, ![n0]⟩ : Shape).Idx) (h0 : (i 0).val = (j 0).val) : i = j := by
  funext a; match a with | ⟨0, _⟩ => exact Fin.ext h0
/-- Two rank-2 indices with the same coordinates are equal. -/
theorem idx2_ext {n0 n1 : Nat} (i j : (⟨2, ![n0, n1]⟩ : Shape).Idx) (h0 : (i 0).val = (j 0).val)
    (h1 : (i 1).val = (j 1).val) : i = j := by
  funext a; match a with | ⟨0, _⟩ => exact Fin.ext h0 | ⟨1, _⟩ => exact Fin.ext h1
/-- Two rank-3 indices with the same coordinates are equal. -/
theorem idx3_ext {n0 n1 n2 : Nat} (i j : (⟨3, ![n0, n1, n2]⟩ : Shape).Idx) (h0 : (i 0).val = (j 0).val)
    (h1 : (i 1).val = (j 1).val) (h2 : (i 2).val = (j 2).val) : i = j := by
  funext a; match a with | ⟨0, _⟩ => exact Fin.ext h0 | ⟨1, _⟩ => exact Fin.ext h1 | ⟨2, _⟩ => exact Fin.ext h2

section Boxes
variable (x1 : (⟨S16x900x4, .f32⟩ : BufTy).Contents (Elt Ideal)) (x3 : (⟨S1600x4, .f32⟩ : BufTy).Contents (Elt Ideal))

/-- The four numbers (cx, cy, w, h) of the query box in row `n` of the flattened query array. -/
abbrev qb (n : Fin 14400) : Fin 4 → EReal := fun a => val_main_v12 (F := Ideal) x1 (ix2 n a)
/-- The four numbers (cx, cy, w, h) of target box `m`. -/
abbrev tb (m : Fin 1600) : Fin 4 → EReal := fun a => x3 (ix2 m a)

/-- Row `900·b + q` of the flattened query array is query box `(b, q)`. -/
theorem qb_rowOf (b : Fin 16) (q : Fin 900) : qb x1 (rowOf b q) = fun a => x1 (ix3 b q a) := by
  funext a
  show val_main_v12 (F := Ideal) x1 (ix2 (rowOf b q) a) = _
  rw [val_main_v12_apply]
  refine congrArg x1 (idx3_ext _ _ ?_ ?_ ?_)
  · show ((b.val * 900 + q.val) * 4 + a.val) / 3600 = b.val
    have := q.isLt; have := a.isLt; omega
  · show ((b.val * 900 + q.val) * 4 + a.val) / 4 % 900 = q.val
    have := q.isLt; have := a.isLt; omega
  · show ((b.val * 900 + q.val) * 4 + a.val) % 4 = a.val
    have := a.isLt; omega

/-! ## The ℓ¹ term: five times the sum over the four numbers of |query − target| -/

theorem v26_at (n : Fin 14400) (m : Fin 1600) (k : Fin 4) :
    val_main_v26 (F := Ideal) x1 x3 (idx_main_v27 (ix2 n m) k) = absE (qb x1 n k - tb x3 m k) := by
  rw [val_main_v26_apply, val_main_v25_apply, val_main_v23_apply, val_main_v21_apply, val_main_v24_apply,
    val_main_v22_apply,
    show idx_main_v21 (idx_main_v23 (idx_main_v27 (ix2 n m) k)) = ix2 n k from idx2_ext _ _ rfl rfl,
    show idx_main_v22 (idx_main_v24 (idx_main_v27 (ix2 n m) k)) = ix2 m k from idx2_ext _ _ rfl rfl]
  rfl

theorem v137_at (i : S14400x1600.Idx) : val_main_v137 (F := Ideal) i = cFive := by
  rw [val_main_v137_apply]; rfl

theorem l1_row (n : Fin 14400) (m : Fin 1600) :
    val_main_v138 (F := Ideal) x1 x3 (ix2 n m) = cFive * l1R (qb x1 n) (tb x3 m) := by
  rw [val_main_v138_apply, v137_at, val_main_v27_apply]
  simp only [v26_at]
  rfl

/-! ## The query boxes in corner form -/

theorem v28_at (n : Fin 14400) : val_main_v28 (F := Ideal) x1 (ix2 n (0 : Fin 1)) = qb x1 n 0 := by
  rw [val_main_v28_apply]; exact congrArg (val_main_v12 (F := Ideal) x1) (idx2_ext _ _ rfl rfl)
theorem v29_at (n : Fin 14400) : val_main_v29 (F := Ideal) x1 (ix2 n (0 : Fin 1)) = qb x1 n 1 := by
  rw [val_main_v29_apply]; exact congrArg (val_main_v12 (F := Ideal) x1) (idx2_ext _ _ rfl rfl)
theorem v30_at (n : Fin 14400) : val_main_v30 (F := Ideal) x1 (ix2 n (0 : Fin 1)) = qb x1 n 2 := by
  rw [val_main_v30_apply]; exact congrArg (val_main_v12 (F := Ideal) x1) (idx2_ext _ _ rfl rfl)
theorem v31_at (n : Fin 14400) : val_main_v31 (F := Ideal) x1 (ix2 n (0 : Fin 1)) = qb x1 n 3 := by
  rw [val_main_v31_apply]; exact congrArg (val_main_v12 (F := Ideal) x1) (idx2_ext _ _ rfl rfl)

theorem v32_at (i : S14400x1.Idx) : val_main_v32 (F := Ideal) i = cHalf := by rw [val_main_v32_apply]; rfl
theorem v35_at (i : S14400x1.Idx) : val_main_v35 (F := Ideal) i = cHalf := by rw [val_main_v35_apply]; rfl
theorem v38_at (i : S14400x1.Idx) : val_main_v38 (F := Ideal) i = cHalf := by rw [val_main_v38_apply]; rfl
theorem v41_at (i : S14400x1.Idx) : val_main_v41 (F := Ideal) i = cHalf := by rw [val_main_v41_apply]; rfl

theorem v34_at (n : Fin 14400) : val_main_v34 (F := Ideal) x1 (ix2 n (0 : Fin 1)) = lo (qb x1 n 0) (qb x1 n 2) := by
  rw [val_main_v34_apply, val_main_v33_apply, v28_at, v30_at, v32_at]; rfl
theorem v37_at (n : Fin 14400) : val_main_v37 (F := Ideal) x1 (ix2 n (0 : Fin 1)) = lo (qb x1 n 1) (qb x1 n 3) := by
  rw [val_main_v37_apply, val_main_v36_apply, v29_at, v31_at, v35_at]; rfl
theorem v40_at (n : Fin 14400) : val_main_v40 (F := Ideal) x1 (ix2 n (0 : Fin 1)) = hi (qb x1 n 0) (qb x1 n 2) := by
  rw [val_main_v40_apply, val_main_v39_apply, v28_at, v30_at, v38_at]; rfl
theorem v43_at (n : Fin 14400) : val_main_v43 (F := Ideal) x1 (ix2 n (0 : Fin 1)) = hi (qb x1 n 1) (qb x1 n 3) := by
  rw [val_main_v43_apply, val_main_v42_apply, v29_at, v31_at, v41_at]; rfl

theorem v44_c0 (n : Fin 14400) : val_main_v44 (F := Ideal) x1 (ix2 n (0 : Fin 4)) = lo (qb x1 n 0) (qb x1 n 2) := by
  refine Eq.trans ?_ (v34_at x1 n)
  unfold val_main_v44
  refine concatenate_apply_piece (t := S14400x4) (1 : Fin 2)
    [⟨S14400x1, val_main_v34 (F := Ideal) x1⟩, ⟨S14400x1, val_main_v37 (F := Ideal) x1⟩, ⟨S14400x1, val_main_v40 (F := Ideal) x1⟩, ⟨S14400x1, val_main_v43 (F := Ideal) x1⟩]
    concatenates_S14400x1_S14400x1_S14400x1_S14400x1_S14400x4_d1 (ix2 n (0 : Fin 4))
    0 (by show 0 < 4; decide) S14400x1 (val_main_v34 (F := Ideal) x1) rfl rfl 0 rfl (ix2 n (0 : Fin 1)) ?_ rfl
  intro b hb
  match b with
  | ⟨0, _⟩ => rfl
  | ⟨1, _⟩ => exact absurd rfl hb

theorem v44_c1 (n : Fin 14400) : val_main_v44 (F := Ideal) x1 (ix2 n (1 : Fin 4)) = lo (qb x1 n 1) (qb x1 n 3) := by
  refine Eq.trans ?_ (v37_at x1 n)
  unfold val_main_v44
  refine concatenate_apply_piece (t := S14400x4) (1 : Fin 2)
    [⟨S14400x1, val_main_v34 (F := Ideal) x1⟩, ⟨S14400x1, val_main_v37 (F := Ideal) x1⟩, ⟨S14400x1, val_main_v40 (F := Ideal) x1⟩, ⟨S14400x1, val_main_v43 (F := Ideal) x1⟩]
    concatenates_S14400x1_S14400x1_S14400x1_S14400x1_S14400x4_d1 (ix2 n (1 : Fin 4))
    1 (by show 1 < 4; decide) S14400x1 (val_main_v37 (F := Ideal) x1) rfl rfl 1 rfl (ix2 n (0 : Fin 1)) ?_ rfl
  intro b hb
  match b with
  | ⟨0, _⟩ => rfl
  | ⟨1, _⟩ => exact absurd rfl hb

theorem v44_c2 (n : Fin 14400) : val_main_v44 (F := Ideal) x1 (ix2 n (2 : Fin 4)) = hi (qb x1 n 0) (qb x1 n 2) := by
  refine Eq.trans ?_ (v40_at x1 n)
  unfold val_main_v44
  refine concatenate_apply_piece (t := S14400x4) (1 : Fin 2)
    [⟨S14400x1, val_main_v34 (F := Ideal) x1⟩, ⟨S14400x1, val_main_v37 (F := Ideal) x1⟩, ⟨S14400x1, val_main_v40 (F := Ideal) x1⟩, ⟨S14400x1, val_main_v43 (F := Ideal) x1⟩]
    concatenates_S14400x1_S14400x1_S14400x1_S14400x1_S14400x4_d1 (ix2 n (2 : Fin 4))
    2 (by show 2 < 4; decide) S14400x1 (val_main_v40 (F := Ideal) x1) rfl rfl 2 rfl (ix2 n (0 : Fin 1)) ?_ rfl
  intro b hb
  match b with
  | ⟨0, _⟩ => rfl
  | ⟨1, _⟩ => exact absurd rfl hb

theorem v44_c3 (n : Fin 14400) : val_main_v44 (F := Ideal) x1 (ix2 n (3 : Fin 4)) = hi (qb x1 n 1) (qb x1 n 3) := by
  refine Eq.trans ?_ (v43_at x1 n)
  unfold val_main_v44
  refine concatenate_apply_piece (t := S14400x4) (1 : Fin 2)
    [⟨S14400x1, val_main_v34 (F := Ideal) x1⟩, ⟨S14400x1, val_main_v37 (F := Ideal) x1⟩, ⟨S14400x1, val_main_v40 (F := Ideal) x1⟩, ⟨S14400x1, val_main_v43 (F := Ideal) x1⟩]
    concatenates_S14400x1_S14400x1_S14400x1_S14400x1_S14400x4_d1 (ix2 n (3 : Fin 4))
    3 (by show 3 < 4; decide) S14400x1 (val_main_v43 (F := Ideal) x1) rfl rfl 3 rfl (ix2 n (0 : Fin 1)) ?_ rfl
  intro b hb
  match b with
  | ⟨0, _⟩ => rfl
  | ⟨1, _⟩ => exact absurd rfl hb

/-! ## The target boxes in corner form -/

theorem v45_at (n : Fin 1600) : val_main_v45 (F := Ideal) x3 (ix2 n (0 : Fin 1)) = tb x3 n 0 := by
  rw [val_main_v45_apply]; exact congrArg x3 (idx2_ext _ _ rfl rfl)
theorem v46_at (n : Fin 1600) : val_main_v46 (F := Ideal) x3 (ix2 n (0 : Fin 1)) = tb x3 n 1 := by
  rw [val_main_v46_apply]; exact congrArg x3 (idx2_ext _ _ rfl rfl)
theorem v47_at (n : Fin 1600) : val_main_v47 (F := Ideal) x3 (ix2 n (0 : Fin 1)) = tb x3 n 2 := by
  rw [val_main_v47_apply]; exact congrArg x3 (idx2_ext _ _ rfl rfl)
theorem v48_at (n : Fin 1600) : val_main_v48 (F := Ideal) x3 (ix2 n (0 : Fin 1)) = tb x3 n 3 := by
  rw [val_main_v48_apply]; exact congrArg x3 (idx2_ext _ _ rfl rfl)

theorem v49_at (i : S1600x1.Idx) : val_main_v49 (F := Ideal) i = cHalf := by rw [val_main_v49_apply]; rfl
theorem v52_at (i : S1600x1.Idx) : val_main_v52 (F := Ideal) i = cHalf := by rw [val_main_v52_apply]; rfl
theorem v55_at (i : S1600x1.Idx) : val_main_v55 (F := Ideal) i = cHalf := by rw [val_main_v55_apply]; rfl
theorem v58_at (i : S1600x1.Idx) : val_main_v58 (F := Ideal) i = cHalf := by rw [val_main_v58_apply]; rfl

theorem v51_at (n : Fin 1600) : val_main_v51 (F := Ideal) x3 (ix2 n (0 : Fin 1)) = lo (tb x3 n 0) (tb x3 n 2) := by
  rw [val_main_v51_apply, val_main_v50_apply, v45_at, v47_at, v49_at]; rfl
theorem v54_at (n : Fin 1600) : val_main_v54 (F := Ideal) x3 (ix2 n (0 : Fin 1)) = lo (tb x3 n 1) (tb x3 n 3) := by
  rw [val_main_v54_apply, val_main_v53_apply, v46_at, v48_at, v52_at]; rfl
theorem v57_at (n : Fin 1600) : val_main_v57 (F := Ideal) x3 (ix2 n (0 : Fin 1)) = hi (tb x3 n 0) (tb x3 n 2) := by
  rw [val_main_v57_apply, val_main_v56_apply, v45_at, v47_at, v55_at]; rfl
theorem v60_at (n : Fin 1600) : val_main_v60 (F := Ideal) x3 (ix2 n (0 : Fin 1)) = hi (tb x3 n 1) (tb x3 n 3) := by
  rw [val_main_v60_apply, val_main_v59_apply, v46_at, v48_at, v58_at]; rfl

theorem v61_c0 (n : Fin 1600) : val_main_v61 (F := Ideal) x3 (ix2 n (0 : Fin 4)) = lo (tb x3 n 0) (tb x3 n 2) := by
  refine Eq.trans ?_ (v51_at x3 n)
  unfold val_main_v61
  refine concatenate_apply_piece (t := S1600x4) (1 : Fin 2)
    [⟨S1600x1, val_main_v51 (F := Ideal) x3⟩, ⟨S1600x1, val_main_v54 (F := Ideal) x3⟩, ⟨S1600x1, val_main_v57 (F := Ideal) x3⟩, ⟨S1600x1, val_main_v60 (F := Ideal) x3⟩]
    concatenates_S1600x1_S1600x1_S1600x1_S1600x1_S1600x4_d1 (ix2 n (0 : Fin 4))
    0 (by show 0 < 4; decide) S1600x1 (val_main_v51 (F := Ideal) x3) rfl rfl 0 rfl (ix2 n (0 : Fin 1)) ?_ rfl
  intro b hb
  match b with
  | ⟨0, _⟩ => rfl
  | ⟨1, _⟩ => exact absurd rfl hb

theorem v61_c1 (n : Fin 1600) : val_main_v61 (F := Ideal) x3 (ix2 n (1 : Fin 4)) = lo (tb x3 n 1) (tb x3 n 3) := by
  refine Eq.trans ?_ (v54_at x3 n)
  unfold val_main_v61
  refine concatenate_apply_piece (t := S1600x4) (1 : Fin 2)
    [⟨S1600x1, val_main_v51 (F := Ideal) x3⟩, ⟨S1600x1, val_main_v54 (F := Ideal) x3⟩, ⟨S1600x1, val_main_v57 (F := Ideal) x3⟩, ⟨S1600x1, val_main_v60 (F := Ideal) x3⟩]
    concatenates_S1600x1_S1600x1_S1600x1_S1600x1_S1600x4_d1 (ix2 n (1 : Fin 4))
    1 (by show 1 < 4; decide) S1600x1 (val_main_v54 (F := Ideal) x3) rfl rfl 1 rfl (ix2 n (0 : Fin 1)) ?_ rfl
  intro b hb
  match b with
  | ⟨0, _⟩ => rfl
  | ⟨1, _⟩ => exact absurd rfl hb

theorem v61_c2 (n : Fin 1600) : val_main_v61 (F := Ideal) x3 (ix2 n (2 : Fin 4)) = hi (tb x3 n 0) (tb x3 n 2) := by
  refine Eq.trans ?_ (v57_at x3 n)
  unfold val_main_v61
  refine concatenate_apply_piece (t := S1600x4) (1 : Fin 2)
    [⟨S1600x1, val_main_v51 (F := Ideal) x3⟩, ⟨S1600x1, val_main_v54 (F := Ideal) x3⟩, ⟨S1600x1, val_main_v57 (F := Ideal) x3⟩, ⟨S1600x1, val_main_v60 (F := Ideal) x3⟩]
    concatenates_S1600x1_S1600x1_S1600x1_S1600x1_S1600x4_d1 (ix2 n (2 : Fin 4))
    2 (by show 2 < 4; decide) S1600x1 (val_main_v57 (F := Ideal) x3) rfl rfl 2 rfl (ix2 n (0 : Fin 1)) ?_ rfl
  intro b hb
  match b with
  | ⟨0, _⟩ => rfl
  | ⟨1, _⟩ => exact absurd rfl hb

theorem v61_c3 (n : Fin 1600) : val_main_v61 (F := Ideal) x3 (ix2 n (3 : Fin 4)) = hi (tb x3 n 1) (tb x3 n 3) := by
  refine Eq.trans ?_ (v60_at x3 n)
  unfold val_main_v61
  refine concatenate_apply_piece (t := S1600x4) (1 : Fin 2)
    [⟨S1600x1, val_main_v51 (F := Ideal) x3⟩, ⟨S1600x1, val_main_v54 (F := Ideal) x3⟩, ⟨S1600x1, val_main_v57 (F := Ideal) x3⟩, ⟨S1600x1, val_main_v60 (F := Ideal) x3⟩]
    concatenates_S1600x1_S1600x1_S1600x1_S1600x1_S1600x4_d1 (ix2 n (3 : Fin 4))
    3 (by show 3 < 4; decide) S1600x1 (val_main_v60 (F := Ideal) x3) rfl rfl 3 rfl (ix2 n (0 : Fin 1)) ?_ rfl
  intro b hb
  match b with
  | ⟨0, _⟩ => rfl
  | ⟨1, _⟩ => exact absurd rfl hb

/-! ## The areas of the two boxes -/

theorem v63_at (n : Fin 14400) : val_main_v63 (F := Ideal) x1 (ix1 n) = val_main_v44 (F := Ideal) x1 (ix2 n (2 : Fin 4)) := by
  rw [val_main_v63_apply, val_main_v62_apply]
  exact congrArg (val_main_v44 (F := Ideal) x1) (idx2_ext _ _ (Nat.div_one _) rfl)
theorem v65_at (n : Fin 14400) : val_main_v65 (F := Ideal) x1 (ix1 n) = val_main_v44 (F := Ideal) x1 (ix2 n (0 : Fin 4)) := by
  rw [val_main_v65_apply, val_main_v64_apply]
  exact congrArg (val_main_v44 (F := Ideal) x1) (idx2_ext _ _ (Nat.div_one _) rfl)
theorem v68_at (n : Fin 14400) : val_main_v68 (F := Ideal) x1 (ix1 n) = val_main_v44 (F := Ideal) x1 (ix2 n (3 : Fin 4)) := by
  rw [val_main_v68_apply, val_main_v67_apply]
  exact congrArg (val_main_v44 (F := Ideal) x1) (idx2_ext _ _ (Nat.div_one _) rfl)
theorem v70_at (n : Fin 14400) : val_main_v70 (F := Ideal) x1 (ix1 n) = val_main_v44 (F := Ideal) x1 (ix2 n (1 : Fin 4)) := by
  rw [val_main_v70_apply, val_main_v69_apply]
  exact congrArg (val_main_v44 (F := Ideal) x1) (idx2_ext _ _ (Nat.div_one _) rfl)

/-- The query box's area: (x₁ − x₀)·(y₁ − y₀) of its corners. -/
theorem v72_at (n : Fin 14400) : val_main_v72 (F := Ideal) x1 (ix1 n) = area (qb x1 n) := by
  rw [val_main_v72_apply, val_main_v66_apply, val_main_v71_apply, v63_at, v65_at, v68_at, v70_at,
    v44_c2, v44_c0, v44_c3, v44_c1]
  rfl

theorem v74_at (m : Fin 1600) : val_main_v74 (F := Ideal) x3 (ix1 m) = val_main_v61 (F := Ideal) x3 (ix2 m (2 : Fin 4)) := by
  rw [val_main_v74_apply, val_main_v73_apply]
  exact congrArg (val_main_v61 (F := Ideal) x3) (idx2_ext _ _ (Nat.div_one _) rfl)
theorem v76_at (m : Fin 1600) : val_main_v76 (F := Ideal) x3 (ix1 m) = val_main_v61 (F := Ideal) x3 (ix2 m (0 : Fin 4)) := by
  rw [val_main_v76_apply, val_main_v75_apply]
  exact congrArg (val_main_v61 (F := Ideal) x3) (idx2_ext _ _ (Nat.div_one _) rfl)
theorem v79_at (m : Fin 1600) : val_main_v79 (F := Ideal) x3 (ix1 m) = val_main_v61 (F := Ideal) x3 (ix2 m (3 : Fin 4)) := by
  rw [val_main_v79_apply, val_main_v78_apply]
  exact congrArg (val_main_v61 (F := Ideal) x3) (idx2_ext _ _ (Nat.div_one _) rfl)
theorem v81_at (m : Fin 1600) : val_main_v81 (F := Ideal) x3 (ix1 m) = val_main_v61 (F := Ideal) x3 (ix2 m (1 : Fin 4)) := by
  rw [val_main_v81_apply, val_main_v80_apply]
  exact congrArg (val_main_v61 (F := Ideal) x3) (idx2_ext _ _ (Nat.div_one _) rfl)

/-- The target box's area. -/
theorem v83_at (m : Fin 1600) : val_main_v83 (F := Ideal) x3 (ix1 m) = area (tb x3 m) := by
  rw [val_main_v83_apply, val_main_v77_apply, val_main_v82_apply, v74_at, v76_at, v79_at, v81_at,
    v61_c2, v61_c0, v61_c3, v61_c1]
  rfl

/-! ## The corners broadcast against each other: lower corners (columns 0, 1) and upper corners (columns 2, 3) -/
theorem v88_at0 (n : Fin 14400) (m : Fin 1600) :
    val_main_v88 (F := Ideal) x1 (ix3 n m (0 : Fin 2)) = val_main_v44 (F := Ideal) x1 (ix2 n (0 : Fin 4)) := by
  rw [val_main_v88_apply, val_main_v85_apply, val_main_v84_apply]
  exact congrArg (val_main_v44 (F := Ideal) x1) (idx2_ext _ _ rfl rfl)
theorem v88_at1 (n : Fin 14400) (m : Fin 1600) :
    val_main_v88 (F := Ideal) x1 (ix3 n m (1 : Fin 2)) = val_main_v44 (F := Ideal) x1 (ix2 n (1 : Fin 4)) := by
  rw [val_main_v88_apply, val_main_v85_apply, val_main_v84_apply]
  exact congrArg (val_main_v44 (F := Ideal) x1) (idx2_ext _ _ rfl rfl)
theorem v116_at0 (n : Fin 14400) (m : Fin 1600) :
    val_main_v116 (F := Ideal) x1 (ix3 n m (0 : Fin 2)) = val_main_v44 (F := Ideal) x1 (ix2 n (0 : Fin 4)) := by
  rw [val_main_v116_apply, val_main_v113_apply, val_main_v112_apply]
  exact congrArg (val_main_v44 (F := Ideal) x1) (idx2_ext _ _ rfl rfl)
theorem v116_at1 (n : Fin 14400) (m : Fin 1600) :
    val_main_v116 (F := Ideal) x1 (ix3 n m (1 : Fin 2)) = val_main_v44 (F := Ideal) x1 (ix2 n (1 : Fin 4)) := by
  rw [val_main_v116_apply, val_main_v113_apply, val_main_v112_apply]
  exact congrArg (val_main_v44 (F := Ideal) x1) (idx2_ext _ _ rfl rfl)
theorem v95_at0 (n : Fin 14400) (m : Fin 1600) :
    val_main_v95 (F := Ideal) x1 (ix3 n m (0 : Fin 2)) = val_main_v44 (F := Ideal) x1 (ix2 n (2 : Fin 4)) := by
  rw [val_main_v95_apply, val_main_v92_apply, val_main_v91_apply]
  exact congrArg (val_main_v44 (F := Ideal) x1) (idx2_ext _ _ rfl rfl)
theorem v95_at1 (n : Fin 14400) (m : Fin 1600) :
    val_main_v95 (F := Ideal) x1 (ix3 n m (1 : Fin 2)) = val_main_v44 (F := Ideal) x1 (ix2 n (3 : Fin 4)) := by
  rw [val_main_v95_apply, val_main_v92_apply, val_main_v91_apply]
  exact congrArg (val_main_v44 (F := Ideal) x1) (idx2_ext _ _ rfl rfl)
theorem v123_at0 (n : Fin 14400) (m : Fin 1600) :
    val_main_v123 (F := Ideal) x1 (ix3 n m (0 : Fin 2)) = val_main_v44 (F := Ideal) x1 (ix2 n (2 : Fin 4)) := by
  rw [val_main_v123_apply, val_main_v120_apply, val_main_v119_apply]
  exact congrArg (val_main_v44 (F := Ideal) x1) (idx2_ext _ _ rfl rfl)
theorem v123_at1 (n : Fin 14400) (m : Fin 1600) :
    val_main_v123 (F := Ideal) x1 (ix3 n m (1 : Fin 2)) = val_main_v44 (F := Ideal) x1 (ix2 n (3 : Fin 4)) := by
  rw [val_main_v123_apply, val_main_v120_apply, val_main_v119_apply]
  exact congrArg (val_main_v44 (F := Ideal) x1) (idx2_ext _ _ rfl rfl)
theorem v89_at0 (n : Fin 14400) (m : Fin 1600) :
    val_main_v89 (F := Ideal) x3 (ix3 n m (0 : Fin 2)) = val_main_v61 (F := Ideal) x3 (ix2 m (0 : Fin 4)) := by
  rw [val_main_v89_apply, val_main_v87_apply, val_main_v86_apply]
  exact congrArg (val_main_v61 (F := Ideal) x3) (idx2_ext _ _ rfl rfl)
theorem v89_at1 (n : Fin 14400) (m : Fin 1600) :
    val_main_v89 (F := Ideal) x3 (ix3 n m (1 : Fin 2)) = val_main_v61 (F := Ideal) x3 (ix2 m (1 : Fin 4)) := by
  rw [val_main_v89_apply, val_main_v87_apply, val_main_v86_apply]
  exact congrArg (val_main_v61 (F := Ideal) x3) (idx2_ext _ _ rfl rfl)
theorem v117_at0 (n : Fin 14400) (m : Fin 1600) :
    val_main_v117 (F := Ideal) x3 (ix3 n m (0 : Fin 2)) = val_main_v61 (F := Ideal) x3 (ix2 m (0 : Fin 4)) := by
  rw [val_main_v117_apply, val_main_v115_apply, val_main_v114_apply]
  exact congrArg (val_main_v61 (F := Ideal) x3) (idx2_ext _ _ rfl rfl)
theorem v117_at1 (n : Fin 14400) (m : Fin 1600) :
    val_main_v117 (F := Ideal) x3 (ix3 n m (1 : Fin 2)) = val_main_v61 (F := Ideal) x3 (ix2 m (1 : Fin 4)) := by
  rw [val_main_v117_apply, val_main_v115_apply, val_main_v114_apply]
  exact congrArg (val_main_v61 (F := Ideal) x3) (idx2_ext _ _ rfl rfl)
theorem v96_at0 (n : Fin 14400) (m : Fin 1600) :
    val_main_v96 (F := Ideal) x3 (ix3 n m (0 : Fin 2)) = val_main_v61 (F := Ideal) x3 (ix2 m (2 : Fin 4)) := by
  rw [val_main_v96_apply, val_main_v94_apply, val_main_v93_apply]
  exact congrArg (val_main_v61 (F := Ideal) x3) (idx2_ext _ _ rfl rfl)
theorem v96_at1 (n : Fin 14400) (m : Fin 1600) :
    val_main_v96 (F := Ideal) x3 (ix3 n m (1 : Fin 2)) = val_main_v61 (F := Ideal) x3 (ix2 m (3 : Fin 4)) := by
  rw [val_main_v96_apply, val_main_v94_apply, val_main_v93_apply]
  exact congrArg (val_main_v61 (F := Ideal) x3) (idx2_ext _ _ rfl rfl)
theorem v124_at0 (n : Fin 14400) (m : Fin 1600) :
    val_main_v124 (F := Ideal) x3 (ix3 n m (0 : Fin 2)) = val_main_v61 (F := Ideal) x3 (ix2 m (2 : Fin 4)) := by
  rw [val_main_v124_apply, val_main_v122_apply, val_main_v121_apply]
  exact congrArg (val_main_v61 (F := Ideal) x3) (idx2_ext _ _ rfl rfl)
theorem v124_at1 (n : Fin 14400) (m : Fin 1600) :
    val_main_v124 (F := Ideal) x3 (ix3 n m (1 : Fin 2)) = val_main_v61 (F := Ideal) x3 (ix2 m (3 : Fin 4)) := by
  rw [val_main_v124_apply, val_main_v122_apply, val_main_v121_apply]
  exact congrArg (val_main_v61 (F := Ideal) x3) (idx2_ext _ _ rfl rfl)

theorem call0_v1_at (i : S14400x1600x2.Idx) : val_main_call0_v1 (F := Ideal) i = cZero := by
  rw [val_main_call0_v1_apply]; rfl
theorem call1_v1_at (i : S14400x1600x2.Idx) : val_main_call1_v1 (F := Ideal) i = cZero := by
  rw [val_main_call1_v1_apply]; rfl

/-! ## The intersection: the overlap of the x-extents and of the y-extents, each cut at zero -/

theorem v99_at0 (n : Fin 14400) (m : Fin 1600) : val_main_v99 (F := Ideal) x1 x3 (ix3 n m (0 : Fin 2))
    = max cZero (min (hi (qb x1 n 0) (qb x1 n 2)) (hi (tb x3 m 0) (tb x3 m 2)) - max (lo (qb x1 n 0) (qb x1 n 2)) (lo (tb x3 m 0) (tb x3 m 2))) := by
  rw [val_main_v99_apply, val_main_v98_apply, val_main_v97_apply, val_main_v90_apply, call0_v1_at,
    v95_at0, v96_at0, v88_at0, v89_at0, v44_c2, v61_c2, v44_c0, v61_c0]
  rfl
theorem v99_at1 (n : Fin 14400) (m : Fin 1600) : val_main_v99 (F := Ideal) x1 x3 (ix3 n m (1 : Fin 2))
    = max cZero (min (hi (qb x1 n 1) (qb x1 n 3)) (hi (tb x3 m 1) (tb x3 m 3)) - max (lo (qb x1 n 1) (qb x1 n 3)) (lo (tb x3 m 1) (tb x3 m 3))) := by
  rw [val_main_v99_apply, val_main_v98_apply, val_main_v97_apply, val_main_v90_apply, call0_v1_at,
    v95_at1, v96_at1, v88_at1, v89_at1, v44_c3, v61_c3, v44_c1, v61_c1]
  rfl

theorem v101_at (n : Fin 14400) (m : Fin 1600) :
    val_main_v101 (F := Ideal) x1 x3 (ix2 n m) = val_main_v99 (F := Ideal) x1 x3 (ix3 n m (0 : Fin 2)) := by
  rw [val_main_v101_apply, val_main_v100_apply]
  refine congrArg (val_main_v99 (F := Ideal) x1 x3) (idx3_ext _ _ ?_ ?_ rfl)
  · show (n.val * 1600 + m.val) / 1600 = n.val
    have := m.isLt; omega
  · show (n.val * 1600 + m.val) / 1 % 1600 = m.val
    have := m.isLt; omega
theorem v103_at (n : Fin 14400) (m : Fin 1600) :
    val_main_v103 (F := Ideal) x1 x3 (ix2 n m) = val_main_v99 (F := Ideal) x1 x3 (ix3 n m (1 : Fin 2)) := by
  rw [val_main_v103_apply, val_main_v102_apply]
  refine congrArg (val_main_v99 (F := Ideal) x1 x3) (idx3_ext _ _ ?_ ?_ rfl)
  · show (n.val * 1600 + m.val) / 1600 = n.val
    have := m.isLt; omega
  · show (n.val * 1600 + m.val) / 1 % 1600 = m.val
    have := m.isLt; omega

theorem v104_at (n : Fin 14400) (m : Fin 1600) :
    val_main_v104 (F := Ideal) x1 x3 (ix2 n m) = interR (qb x1 n) (tb x3 m) := by
  rw [val_main_v104_apply, v101_at, v103_at, v99_at0, v99_at1]
  rfl

/-! ## The union: the two areas less the intersection -/

theorem v107_at (n : Fin 14400) (m : Fin 1600) :
    val_main_v107 (F := Ideal) x1 (ix2 n m) = val_main_v72 (F := Ideal) x1 (ix1 n) := by
  rw [val_main_v107_apply, val_main_v105_apply]
  exact congrArg (val_main_v72 (F := Ideal) x1) (idx1_ext _ _ rfl)
theorem v108_at (n : Fin 14400) (m : Fin 1600) :
    val_main_v108 (F := Ideal) x3 (ix2 n m) = val_main_v83 (F := Ideal) x3 (ix1 m) := by
  rw [val_main_v108_apply, val_main_v106_apply]
  exact congrArg (val_main_v83 (F := Ideal) x3) (idx1_ext _ _ rfl)

theorem v110_at (n : Fin 14400) (m : Fin 1600) :
    val_main_v110 (F := Ideal) x1 x3 (ix2 n m) = unionR (qb x1 n) (tb x3 m) := by
  rw [val_main_v110_apply, val_main_v109_apply, v107_at, v108_at, v72_at, v83_at, v104_at]
  rfl

/-! ## The smallest box enclosing both: its x-extent and y-extent, each cut at zero -/

theorem v127_at0 (n : Fin 14400) (m : Fin 1600) : val_main_v127 (F := Ideal) x1 x3 (ix3 n m (0 : Fin 2))
    = max cZero (max (hi (qb x1 n 0) (qb x1 n 2)) (hi (tb x3 m 0) (tb x3 m 2)) - min (lo (qb x1 n 0) (qb x1 n 2)) (lo (tb x3 m 0) (tb x3 m 2))) := by
  rw [val_main_v127_apply, val_main_v126_apply, val_main_v125_apply, val_main_v118_apply, call1_v1_at,
    v123_at0, v124_at0, v116_at0, v117_at0, v44_c2, v61_c2, v44_c0, v61_c0]
  rfl
theorem v127_at1 (n : Fin 14400) (m : Fin 1600) : val_main_v127 (F := Ideal) x1 x3 (ix3 n m (1 : Fin 2))
    = max cZero (max (hi (qb x1 n 1) (qb x1 n 3)) (hi (tb x3 m 1) (tb x3 m 3)) - min (lo (qb x1 n 1) (qb x1 n 3)) (lo (tb x3 m 1) (tb x3 m 3))) := by
  rw [val_main_v127_apply, val_main_v126_apply, val_main_v125_apply, val_main_v118_apply, call1_v1_at,
    v123_at1, v124_at1, v116_at1, v117_at1, v44_c3, v61_c3, v44_c1, v61_c1]
  rfl

theorem v129_at (n : Fin 14400) (m : Fin 1600) :
    val_main_v129 (F := Ideal) x1 x3 (ix2 n m) = val_main_v127 (F := Ideal) x1 x3 (ix3 n m (0 : Fin 2)) := by
  rw [val_main_v129_apply, val_main_v128_apply]
  refine congrArg (val_main_v127 (F := Ideal) x1 x3) (idx3_ext _ _ ?_ ?_ rfl)
  · show (n.val * 1600 + m.val) / 1600 = n.val
    have := m.isLt; omega
  · show (n.val * 1600 + m.val) / 1 % 1600 = m.val
    have := m.isLt; omega
theorem v131_at (n : Fin 14400) (m : Fin 1600) :
    val_main_v131 (F := Ideal) x1 x3 (ix2 n m) = val_main_v127 (F := Ideal) x1 x3 (ix3 n m (1 : Fin 2)) := by
  rw [val_main_v131_apply, val_main_v130_apply]
  refine congrArg (val_main_v127 (F := Ideal) x1 x3) (idx3_ext _ _ ?_ ?_ rfl)
  · show (n.val * 1600 + m.val) / 1600 = n.val
    have := m.isLt; omega
  · show (n.val * 1600 + m.val) / 1 % 1600 = m.val
    have := m.isLt; omega

theorem v132_at (n : Fin 14400) (m : Fin 1600) :
    val_main_v132 (F := Ideal) x1 x3 (ix2 n m) = hullR (qb x1 n) (tb x3 m) := by
  rw [val_main_v132_apply, v129_at, v131_at, v127_at0, v127_at1]
  rfl

/-! ## Minus the generalized IoU: −(I / U − (E − U) / E) -/

theorem neg_giou_row (n : Fin 14400) (m : Fin 1600) :
    val_main_v136 (F := Ideal) x1 x3 (ix2 n m)
      = -(Ideal.div (interR (qb x1 n) (tb x3 m)) (unionR (qb x1 n) (tb x3 m))
          - Ideal.div (hullR (qb x1 n) (tb x3 m) - unionR (qb x1 n) (tb x3 m)) (hullR (qb x1 n) (tb x3 m))) := by
  rw [val_main_v136_apply, val_main_v135_apply, val_main_v111_apply, val_main_v134_apply, val_main_v133_apply,
    v104_at, v110_at, v132_at]
  rfl

end Boxes

theorem l1_at (x1 : (⟨S16x900x4, .f32⟩ : BufTy).Contents (Elt Ideal)) (x3 : (⟨S1600x4, .f32⟩ : BufTy).Contents (Elt Ideal))
    (b : Fin 16) (q : Fin 900) (mm : Fin 1600) :
    val_main_v138 (F := Ideal) x1 x3 (ix2 (rowOf b q) mm)
      = cFive * l1R (fun a => x1 (ix3 b q a)) (fun a => x3 (ix2 mm a)) := by
  have h := l1_row x1 x3 (rowOf b q) mm
  rw [qb_rowOf] at h
  exact h

theorem neg_giou_at (x1 : (⟨S16x900x4, .f32⟩ : BufTy).Contents (Elt Ideal)) (x3 : (⟨S1600x4, .f32⟩ : BufTy).Contents (Elt Ideal))
    (b : Fin 16) (q : Fin 900) (mm : Fin 1600) :
    val_main_v136 (F := Ideal) x1 x3 (ix2 (rowOf b q) mm)
      = -(Ideal.div (interR (fun a => x1 (ix3 b q a)) (fun a => x3 (ix2 mm a))) (unionR (fun a => x1 (ix3 b q a)) (fun a => x3 (ix2 mm a)))
          - Ideal.div (hullR (fun a => x1 (ix3 b q a)) (fun a => x3 (ix2 mm a)) - unionR (fun a => x1 (ix3 b q a)) (fun a => x3 (ix2 mm a)))
              (hullR (fun a => x1 (ix3 b q a)) (fun a => x3 (ix2 mm a)))) := by
  have h := neg_giou_row x1 x3 (rowOf b q) mm
  rw [qb_rowOf] at h
  exact h

end Cert.RefRead

end
-- ==== Proof.RefRead.lean ====
/-
  The reference's result at (b, q, m): five times the ℓ¹ distance, plus one times minus the class probability, plus two
  times minus the generalized IoU — the reference's arrangement of the cost of query box (b, q) against target box m,
  with the class probability the softmax of the query's logits at the target's label (a class id).
-/
import proofs.«414192_j90795608637851_3_alg».proof.Proof.RefClass
import proofs.«414192_j90795608637851_3_alg».proof.Proof.RefBoxes

noncomputable section

namespace Cert.RefRead

open Cert.ReferenceIdeal Cert.ReferenceIdeal.Gen Cert.ReferenceIdeal.Read Idealize.ShloMosaic Idealize.ShloMosaic.TcCoe
open Idealize.ShloMosaic.ValueIdx Cert.CostSpec

/-- The last reshape: entry (b, q, m) of the result is entry (900·b + q, m) of the flat cost matrix. -/
theorem idx145 (b : Fin 16) (q : Fin 900) (mm : Fin 1600) : idx_main_v145 (ix3 b q mm) = ix2 (rowOf b q) mm := by
  have hm := mm.isLt
  funext a; apply Fin.ext
  match a with
  | ⟨0, _⟩ => show ((b.val * 900 + q.val) * 1600 + mm.val) / 1600 = b.val * 900 + q.val; omega
  | ⟨1, _⟩ => show ((b.val * 900 + q.val) * 1600 + mm.val) % 1600 = mm.val; omega

theorem val_main_v145_at (x0 : (⟨S16x900x91, .f32⟩ : BufTy).Contents (Elt Ideal)) (x1 : (⟨S16x900x4, .f32⟩ : BufTy).Contents (Elt Ideal))
    (x2 : (⟨S1600, .i32⟩ : BufTy).Contents (Elt Ideal)) (x3 : (⟨S1600x4, .f32⟩ : BufTy).Contents (Elt Ideal))
    (b : Fin 16) (q : Fin 900) (mm : Fin 1600) (hl : (x2 (ix1 mm)).toNat < 91) :
    val_main_v145 (F := Ideal) x0 x1 x2 x3 (ix3 b q mm)
      = refCost (fun a => x1 (ix3 b q a)) (fun a => x3 (ix2 mm a))
          (smax (fun k => x0 (ix3 b q k)) ⟨(x2 (ix1 mm)).toNat, hl⟩) := by
  rw [val_main_v145_apply, idx145, val_main_v144_apply, val_main_v141_apply, val_main_v143_apply, val_main_v140_apply,
    val_main_v139_apply, val_main_v142_apply, val_main_cst_15_apply, val_main_cst_16_apply, l1_at,
    neg_prob_at x0 x2 b q mm hl, neg_giou_at]
  rfl

end Cert.RefRead

end
-- ==== Proof.PreFacts.lean ====
/-
  What the precondition says of the inputs: every entry of the three float inputs is a real number, and every
  target's label, read as a natural number, is below 91.
-/
import proofs.«414192_j90795608637851_3_alg».proof.Proof.Spec
import proofs.«414192_j90795608637851_3_alg».proof.Pre_finite_inputs
import Idealize.ShloMosaic.Lib.ReduceAll
import Idealize.ShloMosaic.Lib.ValueIdx

noncomputable section

namespace Cert.PreFacts

open Idealize.ShloMosaic Idealize.ShloMosaic.ValueIdx Cert.CostSpec Cert.Pre_finite_inputs

variable [Cert.Pre_finite_inputs.Facts]

instance : Subsingleton S_.Idx := ⟨fun a b => funext fun d => d.elim0⟩

/-- An extended real whose absolute value is below +∞ is a real. -/
theorem isReal_of_abs_lt (x : EReal) (h : Ideal.cmp .olt (max x (-x)) (Ideal.ofBits .f32 0x7F800000#32) = 1#1) : IsReal x := by
  have hinf : Ideal.ofBits .f32 0x7F800000#32 = ⊤ := by simp [Ideal.ofBits, Ideal.ieee]
  rw [hinf] at h
  induction x using EReal.rec with
  | bot => exfalso; revert h; simp [Ideal.cmp]
  | coe r => exact ⟨r, rfl⟩
  | top => exfalso; revert h; simp [Ideal.cmp]

/-- A word that is at least 0 and below 91 as a signed integer is below 91 as a natural number. -/
theorem toNat_lt_of_signed (w : BitVec 32) (h0 : (0#32 : BitVec 32).toInt ≤ w.toInt) (h1 : w.toInt < (91#32 : BitVec 32).toInt) :
    w.toNat < 91 := by
  have e0 : (0#32 : BitVec 32).toInt = 0 := by decide
  have e1 : (91#32 : BitVec 32).toInt = 91 := by decide
  rw [e0] at h0; rw [e1] at h1
  have := w.isLt
  unfold BitVec.toInt at h0 h1
  split at h0 <;> omega

theorem pre_facts (a0 : FVec Ideal S16x900x91 .f32) (a1 : FVec Ideal S16x900x4 .f32) (a2 : IVec S1600 32) (a3 : FVec Ideal S1600x4 .f32)
    (h : Cert.Pre_finite_inputs.fn (F := Ideal) a0 a1 a2 a3 = fun _ => 1#1) :
    (∀ i, IsReal (a0 i)) ∧ (∀ i, IsReal (a1 i)) ∧ (∀ i, IsReal (a3 i)) ∧ (∀ i, (a2 i).toNat < 91) := by
  have h0 := congrFun h ix0
  dsimp only [Cert.Pre_finite_inputs.fn, Cert.Pre_finite_inputs.fn_part1] at h0
  -- the five conjuncts, each a reduction by "and" of a comparison over a whole input
  obtain ⟨h0, hlt⟩ := IntOp.andi_eq_one.1 h0
  obtain ⟨h0, hge⟩ := IntOp.andi_eq_one.1 h0
  obtain ⟨h0, hf3⟩ := IntOp.andi_eq_one.1 h0
  obtain ⟨hf0, hf1⟩ := IntOp.andi_eq_one.1 h0
  refine ⟨fun i => ?_, fun i => ?_, fun i => ?_, fun i => ?_⟩
  · exact isReal_of_abs_lt (a0 i) (Host.reduce_andi_all _ _ _ _ ix0 hf0 i)
  · exact isReal_of_abs_lt (a1 i) (Host.reduce_andi_all _ _ _ _ ix0 hf1 i)
  · exact isReal_of_abs_lt (a3 i) (Host.reduce_andi_all _ _ _ _ ix0 hf3 i)
  · exact toNat_lt_of_signed (a2 i) (IntOp.cmpi_sge.1 (Host.reduce_andi_all _ _ _ _ ix0 hge i))
      (IntOp.cmpi_slt.1 (Host.reduce_andi_all _ _ _ _ ix0 hlt i))

end Cert.PreFacts

end
-- ==== Proof.Claims.lean ====
/-
  The five claims.

  The three programs run and leave their arguments as they were: the two kernel programs by their launch proofs, the
  reference by its run. The idealized kernel is the kernel's own text (no rewrite to account for). And at the
  extended reals the two idealized programs end with the same cost matrix: the kernel's result array is the cost matrix
  `G` of the inputs (every grid point writes its block of it); the reference's result, entry by entry, is the
  reference's arrangement of the cost with the class probability gathered at the target's label, which — the inputs
  being real numbers and the labels class ids — is the kernel's arrangement with the class term taken by the product
  against the label's 0/1 column.
-/
import proofs.«414192_j90795608637851_3_alg».proof.Defs
import proofs.«414192_j90795608637851_3_alg».proof.Proof.Gen.Kernel.Frame
import proofs.«414192_j90795608637851_3_alg».proof.Proof.Gen.KernelIdeal.Frame
import proofs.«414192_j90795608637851_3_alg».proof.Proof.Gen.ReferenceIdeal.Run
import proofs.«414192_j90795608637851_3_alg».proof.Proof.Gen.ReferenceIdeal.Read
import proofs.«414192_j90795608637851_3_alg».proof.Proof.Gen.Pre_finite_inputs
import proofs.«414192_j90795608637851_3_alg».proof.Proof.KValue
import proofs.«414192_j90795608637851_3_alg».proof.Proof.RefRead
import proofs.«414192_j90795608637851_3_alg».proof.Proof.PreFacts

noncomputable section

namespace Cert.Proof.Claims

open Idealize.ShloMosaic Idealize.ShloMosaic.TcCoe Idealize.SL.Sem Idealize.ShloMosaic.ValueIdx Cert.CostSpec

/-- THE REFERENCE'S RESULT IS THE COST MATRIX, for real inputs and labels that are class ids. -/
theorem ref_eq_G (x0 : (⟨Cert.ReferenceIdeal.S16x900x91, .f32⟩ : BufTy).Contents (Elt Ideal))
    (x1 : (⟨Cert.ReferenceIdeal.S16x900x4, .f32⟩ : BufTy).Contents (Elt Ideal))
    (x2 : (⟨Cert.ReferenceIdeal.S1600, .i32⟩ : BufTy).Contents (Elt Ideal))
    (x3 : (⟨Cert.ReferenceIdeal.S1600x4, .f32⟩ : BufTy).Contents (Elt Ideal))
    (h0 : ∀ i, IsReal (x0 i)) (h1 : ∀ i, IsReal (x1 i)) (h3 : ∀ i, IsReal (x3 i)) (hl : ∀ i, (x2 i).toNat < 91) :
    Cert.ReferenceIdeal.Read.val_main_v145 (F := Ideal) x0 x1 x2 x3 = G x0 x1 x2 x3 := by
  funext i
  obtain ⟨b, q, mm, rfl⟩ : ∃ (b : Fin 16) (q : Fin 900) (mm : Fin 1600), i = ix3 b q mm := ⟨i 0, i 1, i 2, eq_ix3 i⟩
  rw [Cert.RefRead.val_main_v145_at x0 x1 x2 x3 b q mm (hl _)]
  show refCost (fun a => x1 (ix3 b q a)) (fun a => x3 (ix2 mm a)) (smax (fun k => x0 (ix3 b q k)) ⟨(x2 (ix1 mm)).toNat, hl _⟩)
    = kernelCost (fun a => x1 (ix3 b q a)) (fun a => x3 (ix2 mm a))
        (∑ k : Fin 91, smax (fun k' => x0 (ix3 b q k')) k * hot (x2 (ix1 mm)) k)
  rw [pick_eq (smax (fun k' => x0 (ix3 b q k'))) (x2 (ix1 mm)) (hl _)]
  exact (kernelCost_eq_refCost (fun a => h1 _) (fun a => h3 _) (smax_real (fun k => h0 _) _)).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: there is no entry to account for. -/
theorem preserves : Cert.preserves_Kernel_KernelIdeal := trivial

theorem algebraic : Cert.algebraic_KernelIdeal_ReferenceIdeal := by
  intro m ρ m' ρ' hpre hagree
  refine ⟨fun c => Cert.KValue.GArr m c, Cert.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h3, hl⟩ := Cert.PreFacts.pre_facts _ _ _ _ (hpre c)
  rw [Cert.ReferenceIdeal.Read.val_main_v145_eq, (hagree c).1, (hagree c).2.1, (hagree c).2.2.1, (hagree c).2.2.2]
  exact ref_eq_G _ _ _ _ h0 h1 h3 hl

end Cert.Proof.Claims

end
-- ==== Proof.lean ====
/-
  The certificate of the matching-cost kernel against its jnp reference: the cost matrix [16, 900, 1600] of 900 queries
  per batch entry against 1600 targets — minus the softmax probability of the target's class, five times the ℓ¹ distance
  of the boxes, minus twice their generalized IoU — under the precondition that the float inputs are finite and the
  labels are class ids (0 ≤ label < 91). The claims are proved in Proof/Claims.lean; the pieces: Proof/Spec.lean (the
  cost as scalar functions and the agreement of the two arrangements on the reals), Proof/Cost.lean (the cost matrix as
  one function of the inputs), Proof/Tile0.lean, Tile1.lean, TileValue.lean (the kernel body's two tiles at an index),
  Proof/KHost.lean (the 0/1 table and the transposed boxes), Proof/KValue.lean (the kernel's result array is the cost
  matrix), Proof/RefClass.lean, RefBoxes.lean, RefRead.lean (the reference's result at an index), Proof/PreFacts.lean
  (what the precondition says).
-/
import proofs.«414192_j90795608637851_3_alg».proof.Defs
import proofs.«414192_j90795608637851_3_alg».proof.Proof.Gen.Kernel
import proofs.«414192_j90795608637851_3_alg».proof.Proof.Gen.Kernel.Skeleton
import proofs.«414192_j90795608637851_3_alg».proof.Proof.Gen.Kernel.Launch
import proofs.«414192_j90795608637851_3_alg».proof.Proof.Gen.Kernel.Points
import proofs.«414192_j90795608637851_3_alg».proof.Proof.Gen.Kernel.Frame
import proofs.«414192_j90795608637851_3_alg».proof.Proof.Gen.KernelIdeal
import proofs.«414192_j90795608637851_3_alg».proof.Proof.Gen.KernelIdeal.Skeleton
import proofs.«414192_j90795608637851_3_alg».proof.Proof.Gen.KernelIdeal.Launch
import proofs.«414192_j90795608637851_3_alg».proof.Proof.Gen.KernelIdeal.Points
import proofs.«414192_j90795608637851_3_alg».proof.Proof.Gen.KernelIdeal.Frame
import proofs.«414192_j90795608637851_3_alg».proof.Proof.Gen.ReferenceIdeal
import proofs.«414192_j90795608637851_3_alg».proof.Proof.Gen.KernelIdeal.Value
import proofs.«414192_j90795608637851_3_alg».proof.Proof.Gen.ReferenceIdeal.Run
import proofs.«414192_j90795608637851_3_alg».proof.Proof.Gen.ReferenceIdeal.Read
import proofs.«414192_j90795608637851_3_alg».proof.Proof.Gen.Pre_finite_inputs
import proofs.«414192_j90795608637851_3_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves,
  Cert.Proof.Claims.algebraic⟩

end Cert.Proof

end
